-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32x1 .f32) (main_arg8 : FVec F S1 .f32) (main_v33 : IVec S_ 1) : IVec S_ 1 :=
  let main_v34 : FVec F S32x1 .f32 := Host.absf main_arg7
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S32x32 .f32) (main_arg6 : FVec F S32 .f32) (main_arg7 : FVec F S32x1 .f32) (main_arg8 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S1000000 .f32) (main_arg1 : FVec F S1x32 .f32) (main_arg2 : FVec F S32 .f32) (main_arg3 : FVec F S32x32 .f32) (main_arg4 : FVec F S32 .f32) (main_arg5 : FVec F S32x32 .f32) (main_arg6 : FVec F S32 .f32) (main_arg7 : FVec F S32x1 .f32) (main_arg8 : FVec F S1 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1x32 .f32 := Host.absf main_arg1
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_v13 main_v16
-- ==== Kernel.lean ====
abbrev S1000000 : Shape := ⟨1, ![1000000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S2 : Shape := ⟨1, ![2]⟩
abbrev S_ : Shape := ⟨0, ![]⟩
abbrev S1003520 : Shape := ⟨1, ![1003520]⟩
abbrev S1x1 : Shape := ⟨2, ![1, 1]⟩
abbrev S4096 : Shape := ⟨1, ![4096]⟩
abbrev S4096x1 : Shape := ⟨2, ![4096, 1]⟩
abbrev S4096x32 : Shape := ⟨2, ![4096, 32]⟩
abbrev S1x4096 : Shape := ⟨2, ![1, 4096]⟩
abbrev S2x1 : Shape := ⟨2, ![2, 1]⟩
abbrev S2x32 : Shape := ⟨2, ![2, 32]⟩

abbrev nBuf : Space → Nat
  | .hbm => 51
  | .vmem => 12
  | .smem => 0
  | _ => 0

abbrev bufTy : (tb : Table) → Fin (tcTables nBuf tb) → BufTy
  | .hbm, ⟨0, _⟩ => ⟨S1000000, .f32⟩
  | .hbm, ⟨1, _⟩ => ⟨S1x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S2, .f32⟩
  | .hbm, ⟨10, _⟩ => ⟨S_, .i32⟩
  | .hbm, ⟨11, _⟩ => ⟨S_, .f32⟩
  | .hbm, ⟨12, _⟩ => ⟨S1003520, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S1x1, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x1, .f32⟩
  | .hbm, ⟨22, _⟩ => ⟨S2x32, .f32⟩
  | .hbm, ⟨23, _⟩ => ⟨S1x32, .f32⟩
  | .hbm, ⟨24, _⟩ => ⟨S2x32, .f32⟩
  | .hbm, ⟨25, _⟩ => ⟨S2x32, .f32⟩
  | .hbm, ⟨26, _⟩ => ⟨S2x32, .f32⟩
  | .hbm, ⟨27, _⟩ => ⟨S2x32, .f32⟩
  | .hbm, ⟨28, _⟩ => ⟨S1x32, .f32⟩
  | .hbm, ⟨29, _⟩ => ⟨S2x32, .f32⟩
  | .hbm, ⟨30, _⟩ => ⟨S2x32, .f32⟩
  | .hbm, ⟨31, _⟩ => ⟨S2x32, .f32⟩
  | .hbm, ⟨32, _⟩ => ⟨S2x32, .f32⟩
  | .hbm, ⟨33, _⟩ => ⟨S1x32, .f32⟩
  | .hbm, ⟨34, _⟩ => ⟨S2x32, .f32⟩
  | .hbm, ⟨35, _⟩ => ⟨S2x32, .f32⟩
  | .hbm, ⟨36, _⟩ => ⟨S2x32, .f32⟩
  | .hbm, ⟨37, _⟩ => ⟨S2x1, .f32⟩
  | .hbm, ⟨38, _⟩ => ⟨S1x1, .f32⟩
  | .hbm, ⟨39, _⟩ => ⟨S2x1, .f32⟩
  | .hbm, ⟨40, _⟩ => ⟨S2x1, .f32⟩
  | .hbm, ⟨41, _⟩ => ⟨S2x1, .f32⟩
  | .hbm, ⟨42, _⟩ => ⟨S2, .f32⟩
  | .hbm, ⟨43, _⟩ => ⟨S1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S4096, .f32⟩
  | .local _ .vmem, ⟨1, _⟩ => ⟨S4096, .f32⟩
  | .local _ .vmem, ⟨2, _⟩ => ⟨S1x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S32x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨1, ![245], ![false]⟩

def k0_cond2 (i : grid0.Coords) : BitVec 1 :=
  let arg0 : BitVec 32 := BitVec.ofNat 32 (i 0).val
  let c244_i32 : BitVec 32 := 244#32
  let v106 : BitVec 1 := Scalar.cmpi .eq arg0 c244_i32
  let v107 : BitVec 32 := Scalar.extui v106
  let c0_i32_39 : BitVec 32 := 0#32
  let v108 : BitVec 1 := Scalar.cmpi .ne v107 c0_i32_39
  v108

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  pads_S1000000_S1003520_035200 : S1000000.Pads (![0] : Fin 1 → Nat) ![3520] ![0] S1003520
  h_S_ : 0 < S_.numel
  shapeCasts_S32_S1x32 : S32.ShapeCasts S1x32
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096_S4096_0 : ∀ a, (![0] : Fin 1 → Nat) a + S4096.size a ≤ S4096.size a
  h_S4096 : 0 < S4096.numel
  shapeCasts_S4096_S4096 : S4096.ShapeCasts S4096
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S4096_S4096x1 : S4096.ShapeCasts S4096x1
  broadcasts_S4096x1_S4096x32 : S4096x1.Broadcasts S4096x32
  broadcasts_S1x32_S4096x32 : S1x32.Broadcasts S4096x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  broadcasts_S1x1_S4096x1 : S1x1.Broadcasts S4096x1
  shapeCasts_S4096x1_S4096 : S4096x1.ShapeCasts S4096
  iota_S1x4096_d1_w32 : S1x4096.Iotas .tc 32 [1]
  shapeCasts_S1x4096_S4096 : S1x4096.ShapeCasts S4096
  shapeCasts_S4096_S1x4096 : S4096.ShapeCasts S1x4096
  reduces_S1x4096_S1 : S1x4096.Reduces [1] S1
  shapeCasts_S1x1_S_ : S1x1.ShapeCasts S_
  bcast_S2_S2x1_0 : S2.BroadcastsInDim S2x1 (![0] : Fin 1 → Fin S2x1.rank)
  bcast_S32_S1x32_1 : S32.BroadcastsInDim S1x32 (![1] : Fin 1 → Fin S1x32.rank)
  bcast_S1x32_S2x32_0_1 : S1x32.BroadcastsInDim S2x32 (![0, 1] : Fin 2 → Fin S2x32.rank)
  bcast_S1_S1x1_1 : S1.BroadcastsInDim S1x1 (![1] : Fin 1 → Fin S1x1.rank)
  bcast_S1x1_S2x1_0_1 : S1x1.BroadcastsInDim S2x1 (![0, 1] : Fin 2 → Fin S2x1.rank)
  shapeCasts_S2x1_S2 : S2x1.ShapeCasts S2
  slices_S2_S1_0 : S2.Slices ![0] S1
  shapeCasts_S1_S_ : S1.ShapeCasts S_
  slices_S2_S1_1 : S2.Slices ![1] S1
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []
  dot_S2x1_S1x32_S2x32_1_0_0_1_n_n_wf : DotDims.WF S2x1 S1x32 S2x32 [1] [0] [0] [1] [] []
  dot_S2x32_S32x32_S2x32_1_0_0_1_n_n_wf : DotDims.WF S2x32 S32x32 S2x32 [1] [0] [0] [1] [] []
  dot_S2x32_S32x1_S2x1_1_0_0_1_n_n_wf : DotDims.WF S2x32 S32x1 S2x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S1003520.size a
  hwx0_0 : ∀ i : grid0.Coords, EltTy.bits .f32 = 32 ∨ (Rect.block (s := S1003520) S4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)

variable [Facts₀]

def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf
def dot_S2x1_S1x32_S2x32_1_0_0_1_n_n : DotDims S2x1 S1x32 S2x32 where
  lhsContracting := [1]
  rhsContracting := [0]
  lhsNonContracting := [0]
  rhsNonContracting := [1]
  lhsBatch := []
  rhsBatch := []
  wf := dot_S2x1_S1x32_S2x32_1_0_0_1_n_n_wf
def dot_S2x32_S32x32_S2x32_1_0_0_1_n_n : DotDims S2x32 S32x32 S2x32 where
  lhsContracting := [1]
  rhsContracting := [0]
  lhsNonContracting := [0]
  rhsNonContracting := [1]
  lhsBatch := []
  rhsBatch := []
  wf := dot_S2x32_S32x32_S2x32_1_0_0_1_n_n_wf
def dot_S2x32_S32x1_S2x1_1_0_0_1_n_n : DotDims S2x32 S32x1 S2x1 where
  lhsContracting := [1]
  rhsContracting := [0]
  lhsNonContracting := [0]
  rhsNonContracting := [1]
  lhsBatch := []
  rhsBatch := []
  wf := dot_S2x32_S32x1_S2x1_1_0_0_1_n_n_wf

abbrev win0_0 : Pipeline.Window sig grid0 :=
  Pipeline.Window.ofSpec (Memref.whole main_v0) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S1000000 : Shape := ⟨1, ![1000000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S2 : Shape := ⟨1, ![2]⟩
abbrev S_ : Shape := ⟨0, ![]⟩
abbrev S1000000x1 : Shape := ⟨2, ![1000000, 1]⟩
abbrev S1000000x32 : Shape := ⟨2, ![1000000, 32]⟩
abbrev S1x1 : Shape := ⟨2, ![1, 1]⟩
abbrev S2x1 : Shape := ⟨2, ![2, 1]⟩
abbrev S2x32 : Shape := ⟨2, ![2, 32]⟩

abbrev nBuf : Space → Nat
  | .hbm => 166
  | .vmem => 0
  | .smem => 0
  | _ => 0

abbrev hbmTy0_0 (i : Nat) : BufTy := match i % 128 with
  | 0 => ⟨S1000000, .f32⟩
  | 1 => ⟨S1x32, .f32⟩
  | 2 => ⟨S32, .f32⟩
  | 3 => ⟨S32x32, .f32⟩
  | 4 => ⟨S32, .f32⟩
  | 5 => ⟨S32x32, .f32⟩
  | 6 => ⟨S32, .f32⟩
  | 7 => ⟨S32x1, .f32⟩
  | 8 => ⟨S1, .f32⟩
  | 9 => ⟨S2, .f32⟩
  | 10 => ⟨S_, .f32⟩
  | 11 => ⟨S1000000, .f32⟩
  | 12 => ⟨S_, .f32⟩
  | 13 => ⟨S1000000, .f32⟩
  | 14 => ⟨S1000000x1, .f32⟩
  | 15 => ⟨S1000000x1, .f32⟩
  | 16 => ⟨S1000000x1, .f32⟩
  | 17 => ⟨S1000000x32, .f32⟩
  | 18 => ⟨S1000000x32, .f32⟩
  | 19 => ⟨S1000000x32, .f32⟩
  | 20 => ⟨S1x32, .f32⟩
  | 21 => ⟨S1000000x32, .f32⟩
  | 22 => ⟨S1000000x32, .f32⟩
  | 23 => ⟨S1000000x32, .f32⟩
  | 24 => ⟨S1000000x32, .f32⟩
  | 25 => ⟨S1000000x32, .f32⟩
  | 26 => ⟨S_, .f32⟩
  | 27 => ⟨S1000000x32, .f32⟩
  | 28 => ⟨S1000000x32, .f32⟩
  | 29 => ⟨S1000000x32, .f32⟩
  | 30 => ⟨S1000000x32, .f32⟩
  | 31 => ⟨S1000000x32, .f32⟩
  | 32 => ⟨S1000000x32, .f32⟩
  | 33 => ⟨S_, .f32⟩
  | 34 => ⟨S1000000x32, .f32⟩
  | 35 => ⟨S1000000x32, .f32⟩
  | 36 => ⟨S1000000x32, .f32⟩
  | 37 => ⟨S1000000x32, .f32⟩
  | 38 => ⟨S1000000x32, .f32⟩
  | 39 => ⟨S1000000x32, .f32⟩
  | 40 => ⟨S1000000x32, .f32⟩
  | 41 => ⟨S1000000x32, .f32⟩
  | 42 => ⟨S1000000x32, .f32⟩
  | 43 => ⟨S1000000x32, .f32⟩
  | 44 => ⟨S1000000x32, .f32⟩
  | 45 => ⟨S1x32, .f32⟩
  | 46 => ⟨S1000000x32, .f32⟩
  | 47 => ⟨S1000000x32, .f32⟩
  | 48 => ⟨S1000000x32, .f32⟩
  | 49 => ⟨S1000000x32, .f32⟩
  | 50 => ⟨S1000000x32, .f32⟩
  | 51 => ⟨S_, .f32⟩
  | 52 => ⟨S1000000x32, .f32⟩
  | 53 => ⟨S1000000x32, .f32⟩
  | 54 => ⟨S1000000x32, .f32⟩
  | 55 => ⟨S1000000x32, .f32⟩
  | 56 => ⟨S1000000x32, .f32⟩
  | 57 => ⟨S1000000x32, .f32⟩
  | 58 => ⟨S1000000x32, .f32⟩
  | 59 => ⟨S1000000x32, .f32⟩
  | 60 => ⟨S1000000x32, .f32⟩
  | 61 => ⟨S_, .f32⟩
  | 62 => ⟨S1000000x32, .f32⟩
  | 63 => ⟨S1000000x32, .f32⟩
  | 64 => ⟨S1000000x32, .f32⟩
  | 65 => ⟨S1000000x32, .f32⟩
  | 66 => ⟨S1000000x32, .f32⟩
  | 67 => ⟨S1000000x32, .f32⟩
  | 68 => ⟨S1000000x32, .f32⟩
  | 69 => ⟨S1000000x32, .f32⟩
  | 70 => ⟨S1000000x32, .f32⟩
  | 71 => ⟨S1000000x32, .f32⟩
  | 72 => ⟨S1000000x32, .f32⟩
  | 73 => ⟨S1x32, .f32⟩
  | 74 => ⟨S1000000x32, .f32⟩
  | 75 => ⟨S1000000x32, .f32⟩
  | 76 => ⟨S1000000x32, .f32⟩
  | 77 => ⟨S1000000x32, .f32⟩
  | 78 => ⟨S1000000x32, .f32⟩
  | 79 => ⟨S_, .f32⟩
  | 80 => ⟨S1000000x32, .f32⟩
  | 81 => ⟨S1000000x32, .f32⟩
  | 82 => ⟨S1000000x32, .f32⟩
  | 83 => ⟨S1000000x32, .f32⟩
  | 84 => ⟨S1000000x32, .f32⟩
  | 85 => ⟨S1000000x32, .f32⟩
  | 86 => ⟨S1000000x32, .f32⟩
  | 87 => ⟨S1000000x32, .f32⟩
  | 88 => ⟨S1000000x32, .f32⟩
  | 89 => ⟨S_, .f32⟩
  | 90 => ⟨S1000000x32, .f32⟩
  | 91 => ⟨S1000000x32, .f32⟩
  | 92 => ⟨S1000000x32, .f32⟩
  | 93 => ⟨S1000000x32, .f32⟩
  | 94 => ⟨S1000000x32, .f32⟩
  | 95 => ⟨S1000000x32, .f32⟩
  | 96 => ⟨S1000000x32, .f32⟩
  | 97 => ⟨S1000000x1, .f32⟩
  | 98 => ⟨S1000000x1, .f32⟩
  | 99 => ⟨S1000000x1, .f32⟩
  | 100 => ⟨S1000000x1, .f32⟩
  | 101 => ⟨S1x1, .f32⟩
  | 102 => ⟨S1000000x1, .f32⟩
  | 103 => ⟨S1000000x1, .f32⟩
  | 104 => ⟨S1000000x1, .f32⟩
  | 105 => ⟨S1000000x1, .f32⟩
  | 106 => ⟨S1000000x1, .f32⟩
  | 107 => ⟨S_, .f32⟩
  | 108 => ⟨S1000000x1, .f32⟩
  | 109 => ⟨S1000000x1, .f32⟩
  | 110 => ⟨S1000000x1, .f32⟩
  | 111 => ⟨S1000000x1, .f32⟩
  | 112 => ⟨S1000000x1, .f32⟩
  | 113 => ⟨S1000000x1, .f32⟩
  | 114 => ⟨S1000000x1, .f32⟩
  | 115 => ⟨S1000000x1, .f32⟩
  | 116 => ⟨S1000000x1, .f32⟩
  | 117 => ⟨S_, .f32⟩
  | 118 => ⟨S1000000x1, .f32⟩
  | 119 => ⟨S1000000x1, .f32⟩
  | 120 => ⟨S1000000x1, .f32⟩
  | 121 => ⟨S1000000x1, .f32⟩
  | 122 => ⟨S1000000x1, .f32⟩
  | 123 => ⟨S1000000x1, .f32⟩
  | 124 => ⟨S1000000x1, .f32⟩
  | 125 => ⟨S1000000, .f32⟩
  | 126 => ⟨S1000000, .f32⟩
  | 127 => ⟨S1000000, .f32⟩
  | _ => ⟨S1000000, .f32⟩

abbrev hbmTy0_1 (i : Nat) : BufTy := match i % 128 with
  | 0 => ⟨S1000000, .f32⟩
  | 1 => ⟨S1000000, .f32⟩
  | 2 => ⟨S1000000, .f32⟩
  | 3 => ⟨S1000000, .f32⟩
  | 4 => ⟨S_, .f32⟩
  | 5 => ⟨S_, .f32⟩
  | 6 => ⟨S_, .f32⟩
  | 7 => ⟨S_, .f32⟩
  | 8 => ⟨S2x1, .f32⟩
  | 9 => ⟨S2x32, .f32⟩
  | 10 => ⟨S1x32, .f32⟩
  | 11 => ⟨S2x32, .f32⟩
  | 12 => ⟨S2x32, .f32⟩
  | 13 => ⟨S2x32, .f32⟩
  | 14 => ⟨S2x32, .f32⟩
  | 15 => ⟨S1x32, .f32⟩
  | 16 => ⟨S2x32, .f32⟩
  | 17 => ⟨S2x32, .f32⟩
  | 18 => ⟨S2x32, .f32⟩
  | 19 => ⟨S2x32, .f32⟩
  | 20 => ⟨S1x32, .f32⟩
  | 21 => ⟨S2x32, .f32⟩
  | 22 => ⟨S2x32, .f32⟩
  | 23 => ⟨S2x32, .f32⟩
  | 24 => ⟨S2x1, .f32⟩
  | 25 => ⟨S1x1, .f32⟩
  | 26 => ⟨S2x1, .f32⟩
  | 27 => ⟨S2x1, .f32⟩
  | 28 => ⟨S2x1, .f32⟩
  | 29 => ⟨S2, .f32⟩
  | 30 => ⟨S1, .f32⟩
  | 31 => ⟨S_, .f32⟩
  | 32 => ⟨S_, .f32⟩
  | 33 => ⟨S_, .f32⟩
  | 34 => ⟨S1, .f32⟩
  | 35 => ⟨S_, .f32⟩
  | 36 => ⟨S_, .f32⟩
  | 37 => ⟨S_, .f32⟩
  | _ => ⟨S1000000, .f32⟩

abbrev hbmTy (i : Nat) : BufTy := match i / 128 with
  | 0 => hbmTy0_0 i
  | 1 => hbmTy0_1 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_8 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_9 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_10 : Ref sig .tc := ⟨.hbm, 132, rfl⟩
abbrev main_v112 : Ref sig .tc := ⟨.hbm, 133, rfl⟩
abbrev main_cst_11 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  reducesTo_S1000000_S_d0 : S1000000.ReducesTo [0] S_
  h_S_ : 0 < S_.numel
  bcast_S2_S2x1_0 : S2.BroadcastsInDim S2x1 (![0] : Fin 1 → Fin S2x1.rank)
  bcast_S1x32_S2x32_0_1 : S1x32.BroadcastsInDim S2x32 (![0, 1] : Fin 2 → Fin S2x32.rank)
  bcast_S1x1_S2x1_0_1 : S1x1.BroadcastsInDim S2x1 (![0, 1] : Fin 2 → Fin S2x1.rank)
  shapeCasts_S2x1_S2 : S2x1.ShapeCasts S2
  slices_S2_S1_0 : S2.Slices ![0] S1
  shapeCasts_S1_S_ : S1.ShapeCasts S_
  slices_S2_S1_1 : S2.Slices ![1] S1
  dot_S1000000x1_S1x32_S1000000x32_1_0_0_1_n_n_wf : DotDims.WF S1000000x1 S1x32 S1000000x32 [1] [0] [0] [1] [] []
  dot_S1000000x32_S32x32_S1000000x32_1_0_0_1_n_n_wf : DotDims.WF S1000000x32 S32x32 S1000000x32 [1] [0] [0] [1] [] []
  dot_S1000000x32_S32x1_S1000000x1_1_0_0_1_n_n_wf : DotDims.WF S1000000x32 S32x1 S1000000x1 [1] [0] [0] [1] [] []
  dot_S2x1_S1x32_S2x32_1_0_0_1_n_n_wf : DotDims.WF S2x1 S1x32 S2x32 [1] [0] [0] [1] [] []
  dot_S2x32_S32x32_S2x32_1_0_0_1_n_n_wf : DotDims.WF S2x32 S32x32 S2x32 [1] [0] [0] [1] [] []
  dot_S2x32_S32x1_S2x1_1_0_0_1_n_n_wf : DotDims.WF S2x32 S32x1 S2x1 [1] [0] [0] [1] [] []

variable [Facts₀]

def dot_S1000000x1_S1x32_S1000000x32_1_0_0_1_n_n : DotDims S1000000x1 S1x32 S1000000x32 where
  lhsContracting := [1]
  rhsContracting := [0]
  lhsNonContracting := [0]
  rhsNonContracting := [1]
  lhsBatch := []
  rhsBatch := []
  wf := dot_S1000000x1_S1x32_S1000000x32_1_0_0_1_n_n_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf
def dot_S2x1_S1x32_S2x32_1_0_0_1_n_n : DotDims S2x1 S1x32 S2x32 where
  lhsContracting := [1]
  rhsContracting := [0]
  lhsNonContracting := [0]
  rhsNonContracting := [1]
  lhsBatch := []
  rhsBatch := []
  wf := dot_S2x1_S1x32_S2x32_1_0_0_1_n_n_wf
def dot_S2x32_S32x32_S2x32_1_0_0_1_n_n : DotDims S2x32 S32x32 S2x32 where
  lhsContracting := [1]
  rhsContracting := [0]
  lhsNonContracting := [0]
  rhsNonContracting := [1]
  lhsBatch := []
  rhsBatch := []
  wf := dot_S2x32_S32x32_S2x32_1_0_0_1_n_n_wf
def dot_S2x32_S32x1_S2x1_1_0_0_1_n_n : DotDims S2x32 S32x1 S2x1 where
  lhsContracting := [1]
  rhsContracting := [0]
  lhsNonContracting := [0]
  rhsNonContracting := [1]
  lhsBatch := []
  rhsBatch := []
  wf := dot_S2x32_S32x1_S2x1_1_0_0_1_n_n_wf

class Facts : Prop extends Facts₀ where

variable [Facts]
-- ==== Proof.Point.lean ====
/-
  The mathematics of one collocation point, over the extended reals.

  A four-layer tanh network u(x) (widths 1 → 32 → 32 → 32 → 1) and its second derivative u''(x), computed two ways
  from the same weights:

  * the hand-derived way: through every layer carry the activation h, its first derivative dh and its second
    derivative ddh; with t = 1 - h·h the layer's tanh gives dh = t·dz and ddh = ((-2·h)·t)·(dz·dz) + t·ddz, where
    z, dz, ddz are the affine images of the previous layer's h, dh, ddh;
  * the way two nested forward-mode derivatives of tanh come out when the rule d tanh = (g + g·h)·(1 - h) is applied
    twice: dh = (a + a·h)·(1 - h) and ddh = (c + (c·h + b·dh))·(1 - h) + (b + b·h)·(-dh), where a and b are the two
    copies of dz (one per derivative pass) and c is ddz.

  On real numbers the two agree (both are u''); the statement here is on extended reals whose inputs are real.
-/
import Idealize.ShloMosaic.PureOps.Ideal
import Mathlib.Algebra.BigOperators.Fin

open scoped BigOperators

noncomputable section

namespace Cert.Pinn

open Idealize.ShloMosaic

/-- The float word of 1.0, read as an extended real. -/
abbrev one : EReal := Ideal.ofBits .f32 0x3F800000#32
/-- The float word of -2.0, read as an extended real. -/
abbrev negTwo : EReal := Ideal.ofBits .f32 0xC0000000#32
/-- The float word of +0.0, read as an extended real. -/
abbrev zero : EReal := Ideal.ofBits .f32 0x00000000#32

/-- The network's weights, entry by entry: W1 is the one row of the 1 × 32 first matrix, W4 the one column of the
    32 × 1 last matrix. -/
structure Wts where
  W1 : Fin 32 → EReal
  b1 : Fin 32 → EReal
  W2 : Fin 32 → Fin 32 → EReal
  b2 : Fin 32 → EReal
  W3 : Fin 32 → Fin 32 → EReal
  b3 : Fin 32 → EReal
  W4 : Fin 32 → EReal
  b4 : EReal

/-- Every weight is a real number. -/
def Wts.Real (w : Wts) : Prop :=
  (∀ j, ∃ r : ℝ, w.W1 j = r) ∧ (∀ j, ∃ r : ℝ, w.b1 j = r) ∧ (∀ k j, ∃ r : ℝ, w.W2 k j = r) ∧ (∀ j, ∃ r : ℝ, w.b2 j = r)
    ∧ (∀ k j, ∃ r : ℝ, w.W3 k j = r) ∧ (∀ j, ∃ r : ℝ, w.b3 j = r) ∧ (∀ k, ∃ r : ℝ, w.W4 k = r) ∧ ∃ r : ℝ, w.b4 = r

/-! ## The pieces of one layer -/

/-- A linear image: the sum over the previous layer's units. -/
def lin {K : ℕ} (v : Fin K → EReal) (W : Fin K → EReal) : EReal := ∑ k, v k * W k

/-- Hand-derived: t = 1 - h·h. -/
def kT (h : EReal) : EReal := one - h * h
/-- Hand-derived: dh = t·dz. -/
def kD (h dz : EReal) : EReal := kT h * dz
/-- Hand-derived: ddh = ((-2·h)·t)·(dz·dz) + t·ddz. -/
def kDD (h dz ddz : EReal) : EReal := ((negTwo * h) * kT h) * (dz * dz) + kT h * ddz
/-- Hand-derived, first layer (ddz = 0, its term dropped): ddh = ((-2·h)·t)·(dz·dz). -/
def kDD1 (h dz : EReal) : EReal := ((negTwo * h) * kT h) * (dz * dz)

/-- Nested rule: dh = (a + a·h)·(1 - h). -/
def rD (h a : EReal) : EReal := (a + a * h) * (one - h)
/-- Nested rule: ddh = (c + (c·h + b·dh_a))·(1 - h) + (b + b·h)·(-dh_a). -/
def rDD (h a b c : EReal) : EReal := (c + (c * h + b * rD h a)) * (one - h) + (b + b * h) * (-(rD h a))
/-- Nested rule, first layer (no c): ddh = (b·dh_a)·(1 - h) + (b + b·h)·(-dh_a). -/
def rDD1 (h a b : EReal) : EReal := (b * rD h a) * (one - h) + (b + b * h) * (-(rD h a))

/-! ## The hand-derived computation at a point x -/

def kH1 (w : Wts) (x : EReal) (j : Fin 32) : EReal := Ideal.tanh (x * w.W1 j + w.b1 j)
def kA1 (w : Wts) (x : EReal) (j : Fin 32) : EReal := kD (kH1 w x j) (w.W1 j)
def kC1 (w : Wts) (x : EReal) (j : Fin 32) : EReal := kDD1 (kH1 w x j) (w.W1 j)

def kH2 (w : Wts) (x : EReal) (j : Fin 32) : EReal := Ideal.tanh (lin (kH1 w x) (fun k => w.W2 k j) + w.b2 j)
def kZ2' (w : Wts) (x : EReal) (j : Fin 32) : EReal := lin (kA1 w x) (fun k => w.W2 k j)
def kZ2'' (w : Wts) (x : EReal) (j : Fin 32) : EReal := lin (kC1 w x) (fun k => w.W2 k j)
def kA2 (w : Wts) (x : EReal) (j : Fin 32) : EReal := kD (kH2 w x j) (kZ2' w x j)
def kC2 (w : Wts) (x : EReal) (j : Fin 32) : EReal := kDD (kH2 w x j) (kZ2' w x j) (kZ2'' w x j)

def kH3 (w : Wts) (x : EReal) (j : Fin 32) : EReal := Ideal.tanh (lin (kH2 w x) (fun k => w.W3 k j) + w.b3 j)
def kZ3' (w : Wts) (x : EReal) (j : Fin 32) : EReal := lin (kA2 w x) (fun k => w.W3 k j)
def kZ3'' (w : Wts) (x : EReal) (j : Fin 32) : EReal := lin (kC2 w x) (fun k => w.W3 k j)
def kA3 (w : Wts) (x : EReal) (j : Fin 32) : EReal := kD (kH3 w x j) (kZ3' w x j)
def kC3 (w : Wts) (x : EReal) (j : Fin 32) : EReal := kDD (kH3 w x j) (kZ3' w x j) (kZ3'' w x j)

def kH4 (w : Wts) (x : EReal) : EReal := Ideal.tanh (lin (kH3 w x) w.W4 + w.b4)
def kZ4' (w : Wts) (x : EReal) : EReal := lin (kA3 w x) w.W4
def kZ4'' (w : Wts) (x : EReal) : EReal := lin (kC3 w x) w.W4
/-- u''(x), hand-derived. Its last layer is written as the body has it: (((-2·h)·t)·(dz·dz)) + t·ddz. -/
def kUxx (w : Wts) (x : EReal) : EReal := kDD (kH4 w x) (kZ4' w x) (kZ4'' w x)
/-- The residual u''(x) - sin x, hand-derived. -/
def kRes (w : Wts) (x : EReal) : EReal := kUxx w x - Ideal.sin x

/-! ## The nested-rule computation at a point x -/

/-- First layer's pre-activation as a 1-term contraction, plus the bias. -/
def rH1 (w : Wts) (x : EReal) (j : Fin 32) : EReal := Ideal.tanh ((∑ _k : Fin 1, x * w.W1 j) + w.b1 j)
/-- First layer's dz: the tangent 1 through the same 1-term contraction. -/
def rZ1' (w : Wts) (j : Fin 32) : EReal := ∑ _k : Fin 1, one * w.W1 j
def rA1 (w : Wts) (x : EReal) (j : Fin 32) : EReal := rD (rH1 w x j) (rZ1' w j)
def rC1 (w : Wts) (x : EReal) (j : Fin 32) : EReal := rDD1 (rH1 w x j) (rZ1' w j) (rZ1' w j)

def rH2 (w : Wts) (x : EReal) (j : Fin 32) : EReal := Ideal.tanh (lin (rH1 w x) (fun k => w.W2 k j) + w.b2 j)
def rZ2' (w : Wts) (x : EReal) (j : Fin 32) : EReal := lin (rA1 w x) (fun k => w.W2 k j)
def rZ2'' (w : Wts) (x : EReal) (j : Fin 32) : EReal := lin (rC1 w x) (fun k => w.W2 k j)
def rA2 (w : Wts) (x : EReal) (j : Fin 32) : EReal := rD (rH2 w x j) (rZ2' w x j)
def rC2 (w : Wts) (x : EReal) (j : Fin 32) : EReal := rDD (rH2 w x j) (rZ2' w x j) (rZ2' w x j) (rZ2'' w x j)

def rH3 (w : Wts) (x : EReal) (j : Fin 32) : EReal := Ideal.tanh (lin (rH2 w x) (fun k => w.W3 k j) + w.b3 j)
def rZ3' (w : Wts) (x : EReal) (j : Fin 32) : EReal := lin (rA2 w x) (fun k => w.W3 k j)
def rZ3'' (w : Wts) (x : EReal) (j : Fin 32) : EReal := lin (rC2 w x) (fun k => w.W3 k j)
def rA3 (w : Wts) (x : EReal) (j : Fin 32) : EReal := rD (rH3 w x j) (rZ3' w x j)
def rC3 (w : Wts) (x : EReal) (j : Fin 32) : EReal := rDD (rH3 w x j) (rZ3' w x j) (rZ3' w x j) (rZ3'' w x j)

def rH4 (w : Wts) (x : EReal) : EReal := Ideal.tanh (lin (rH3 w x) w.W4 + w.b4)
def rZ4' (w : Wts) (x : EReal) : EReal := lin (rA3 w x) w.W4
def rZ4'' (w : Wts) (x : EReal) : EReal := lin (rC3 w x) w.W4
/-- u''(x), by the nested rule. -/
def rUxx (w : Wts) (x : EReal) : EReal := rDD (rH4 w x) (rZ4' w x) (rZ4' w x) (rZ4'' w x)
/-- The residual u''(x) - sin x, by the nested rule. -/
def rRes (w : Wts) (x : EReal) : EReal := rUxx w x - Ideal.sin x

/-! ## The sums -/

/-- One tile's contribution: the squared residuals of its 4096 lanes, a lane past the 1,000,000 points counting 0. -/
def tileSum (w : Wts) (t : ℕ) (xs : Fin 4096 → EReal) : EReal :=
  ∑ l : Fin 4096, if 4096 * t + l.val < 1000000 then kRes w (xs l) * kRes w (xs l) else 0

/-- The sum of the squared residuals over all 1,000,000 points, hand-derived. -/
def kTotal (w : Wts) (x : Fin 1000000 → EReal) : EReal := ∑ i : Fin 1000000, kRes w (x i) * kRes w (x i)
/-- The same by the nested rule. -/
def rTotal (w : Wts) (x : Fin 1000000 → EReal) : EReal := ∑ i : Fin 1000000, rRes w (x i) * rRes w (x i)

/-! ## Real values stay real, and on real values the two rules agree -/

/-- The float word of 1.0 denotes the real number 1. -/
private theorem one_eq : one = ((1 : ℝ) : EReal) := by
  simp [Ideal.ofBits, Ideal.ieee, -EReal.coe_mul]; norm_num

/-- The float word of -2.0 denotes the real number -2. -/
private theorem negTwo_eq : negTwo = ((-2 : ℝ) : EReal) := by
  simp [Ideal.ofBits, Ideal.ieee, -EReal.coe_mul]; norm_num

/-- Being the cast of a real number. -/
private def IsR (v : EReal) : Prop := ∃ r : ℝ, v = r

private theorem isR_one : IsR one := ⟨1, one_eq⟩
private theorem isR_negTwo : IsR negTwo := ⟨-2, negTwo_eq⟩

private theorem isR_add {a b : EReal} (ha : IsR a) (hb : IsR b) : IsR (a + b) := by
  obtain ⟨r, rfl⟩ := ha; obtain ⟨s, rfl⟩ := hb; exact ⟨r + s, (EReal.coe_add r s).symm⟩

private theorem isR_mul {a b : EReal} (ha : IsR a) (hb : IsR b) : IsR (a * b) := by
  obtain ⟨r, rfl⟩ := ha; obtain ⟨s, rfl⟩ := hb; exact ⟨r * s, (EReal.coe_mul r s).symm⟩

private theorem isR_sub {a b : EReal} (ha : IsR a) (hb : IsR b) : IsR (a - b) := by
  obtain ⟨r, rfl⟩ := ha; obtain ⟨s, rfl⟩ := hb; exact ⟨r - s, (EReal.coe_sub r s).symm⟩

private theorem isR_tanh {a : EReal} (ha : IsR a) : IsR (Ideal.tanh a) := by
  obtain ⟨r, rfl⟩ := ha; exact ⟨Real.tanh r, rfl⟩

/-- A finite sum of reals is real. -/
private theorem isR_sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact isR_add (h a) ih

private theorem isR_lin {K : ℕ} {v W : Fin K → EReal} (hv : ∀ k, IsR (v k)) (hW : ∀ k, IsR (W k)) : IsR (lin v W) := by
  unfold lin; exact isR_sum _ _ fun k => isR_mul (hv k) (hW k)

private theorem isR_kT {h : EReal} (hh : IsR h) : IsR (kT h) := by
  unfold kT; exact isR_sub isR_one (isR_mul hh hh)

private theorem isR_kD {h dz : EReal} (hh : IsR h) (hd : IsR dz) : IsR (kD h dz) := by
  unfold kD; exact isR_mul (isR_kT hh) hd

private theorem isR_kDD1 {h dz : EReal} (hh : IsR h) (hd : IsR dz) : IsR (kDD1 h dz) := by
  unfold kDD1; exact isR_mul (isR_mul (isR_mul isR_negTwo hh) (isR_kT hh)) (isR_mul hd hd)

private theorem isR_kDD {h dz ddz : EReal} (hh : IsR h) (hd : IsR dz) (hdd : IsR ddz) : IsR (kDD h dz ddz) := by
  unfold kDD
  exact isR_add (isR_mul (isR_mul (isR_mul isR_negTwo hh) (isR_kT hh)) (isR_mul hd hd)) (isR_mul (isR_kT hh) hdd)

/-- First derivative: (1 - h²)·dz = (dz + dz·h)·(1 - h). -/
private theorem kD_eq_rD {h dz : EReal} (hh : IsR h) (hd : IsR dz) : kD h dz = rD h dz := by
  obtain ⟨h, rfl⟩ := hh; obtain ⟨dz, rfl⟩ := hd
  unfold kD rD kT
  rw [one_eq]
  simp only [← EReal.coe_mul, ← EReal.coe_add, ← EReal.coe_sub, ← EReal.coe_neg]
  congr 1; ring

/-- Second derivative, first layer. -/
private theorem kDD1_eq_rDD1 {h dz : EReal} (hh : IsR h) (hd : IsR dz) : kDD1 h dz = rDD1 h dz dz := by
  obtain ⟨h, rfl⟩ := hh; obtain ⟨dz, rfl⟩ := hd
  unfold kDD1 rDD1 rD kT
  rw [one_eq, negTwo_eq]
  simp only [← EReal.coe_mul, ← EReal.coe_add, ← EReal.coe_sub, ← EReal.coe_neg]
  congr 1; ring

/-- Second derivative, later layers. -/
private theorem kDD_eq_rDD {h dz ddz : EReal} (hh : IsR h) (hd : IsR dz) (hdd : IsR ddz) :
    kDD h dz ddz = rDD h dz dz ddz := by
  obtain ⟨h, rfl⟩ := hh; obtain ⟨dz, rfl⟩ := hd; obtain ⟨ddz, rfl⟩ := hdd
  unfold kDD rDD rD kT
  rw [one_eq, negTwo_eq]
  simp only [← EReal.coe_mul, ← EReal.coe_add, ← EReal.coe_sub, ← EReal.coe_neg]
  congr 1; ring

/-- THE LAW: at real weights and a real point the two computations of the residual agree. -/
theorem kRes_eq_rRes (w : Wts) (hw : w.Real) (x : ℝ) : kRes w (x : EReal) = rRes w (x : EReal) := by
  obtain ⟨hW1, hb1, hW2, hb2, hW3, hb3, hW4, hb4⟩ := hw
  have hx : IsR (x : EReal) := ⟨x, rfl⟩
  -- layer 1
  have H1 : kH1 w x = rH1 w x := by
    funext j; simp only [kH1, rH1, Fin.sum_univ_one]
  have Z1 : ∀ j, rZ1' w j = w.W1 j := by
    intro j; simp only [rZ1', Fin.sum_univ_one, one_eq, EReal.coe_one, one_mul]
  have H1R : ∀ j, IsR (kH1 w x j) := fun j => isR_tanh (isR_add (isR_mul hx (hW1 j)) (hb1 j))
  have A1 : kA1 w x = rA1 w x := by
    funext j; simp only [kA1, rA1, ← H1, Z1]; exact kD_eq_rD (H1R j) (hW1 j)
  have C1 : kC1 w x = rC1 w x := by
    funext j; simp only [kC1, rC1, ← H1, Z1]; exact kDD1_eq_rDD1 (H1R j) (hW1 j)
  have A1R : ∀ j, IsR (kA1 w x j) := fun j => isR_kD (H1R j) (hW1 j)
  have C1R : ∀ j, IsR (kC1 w x j) := fun j => isR_kDD1 (H1R j) (hW1 j)
  -- layer 2
  have H2 : kH2 w x = rH2 w x := by funext j; simp only [kH2, rH2, H1]
  have Z2' : kZ2' w x = rZ2' w x := by funext j; simp only [kZ2', rZ2', A1]
  have Z2'' : kZ2'' w x = rZ2'' w x := by funext j; simp only [kZ2'', rZ2'', C1]
  have H2R : ∀ j, IsR (kH2 w x j) := fun j => isR_tanh (isR_add (isR_lin H1R (fun k => hW2 k j)) (hb2 j))
  have Z2'R : ∀ j, IsR (kZ2' w x j) := fun j => isR_lin A1R (fun k => hW2 k j)
  have Z2''R : ∀ j, IsR (kZ2'' w x j) := fun j => isR_lin C1R (fun k => hW2 k j)
  have A2 : kA2 w x = rA2 w x := by
    funext j; simp only [kA2, rA2, ← H2, ← Z2']; exact kD_eq_rD (H2R j) (Z2'R j)
  have C2 : kC2 w x = rC2 w x := by
    funext j; simp only [kC2, rC2, ← H2, ← Z2', ← Z2'']; exact kDD_eq_rDD (H2R j) (Z2'R j) (Z2''R j)
  have A2R : ∀ j, IsR (kA2 w x j) := fun j => isR_kD (H2R j) (Z2'R j)
  have C2R : ∀ j, IsR (kC2 w x j) := fun j => isR_kDD (H2R j) (Z2'R j) (Z2''R j)
  -- layer 3
  have H3 : kH3 w x = rH3 w x := by funext j; simp only [kH3, rH3, H2]
  have Z3' : kZ3' w x = rZ3' w x := by funext j; simp only [kZ3', rZ3', A2]
  have Z3'' : kZ3'' w x = rZ3'' w x := by funext j; simp only [kZ3'', rZ3'', C2]
  have H3R : ∀ j, IsR (kH3 w x j) := fun j => isR_tanh (isR_add (isR_lin H2R (fun k => hW3 k j)) (hb3 j))
  have Z3'R : ∀ j, IsR (kZ3' w x j) := fun j => isR_lin A2R (fun k => hW3 k j)
  have Z3''R : ∀ j, IsR (kZ3'' w x j) := fun j => isR_lin C2R (fun k => hW3 k j)
  have A3 : kA3 w x = rA3 w x := by
    funext j; simp only [kA3, rA3, ← H3, ← Z3']; exact kD_eq_rD (H3R j) (Z3'R j)
  have C3 : kC3 w x = rC3 w x := by
    funext j; simp only [kC3, rC3, ← H3, ← Z3', ← Z3'']; exact kDD_eq_rDD (H3R j) (Z3'R j) (Z3''R j)
  have A3R : ∀ j, IsR (kA3 w x j) := fun j => isR_kD (H3R j) (Z3'R j)
  have C3R : ∀ j, IsR (kC3 w x j) := fun j => isR_kDD (H3R j) (Z3'R j) (Z3''R j)
  -- layer 4
  have H4 : kH4 w x = rH4 w x := by simp only [kH4, rH4, H3]
  have Z4' : kZ4' w x = rZ4' w x := by simp only [kZ4', rZ4', A3]
  have Z4'' : kZ4'' w x = rZ4'' w x := by simp only [kZ4'', rZ4'', C3]
  have H4R : IsR (kH4 w x) := isR_tanh (isR_add (isR_lin H3R hW4) hb4)
  have Z4'R : IsR (kZ4' w x) := isR_lin A3R hW4
  have Z4''R : IsR (kZ4'' w x) := isR_lin C3R hW4
  unfold kRes rRes kUxx rUxx
  rw [← H4, ← Z4', ← Z4'', kDD_eq_rDD H4R Z4'R Z4''R]

/-- So the two totals agree when the weights and every point are real. -/
theorem kTotal_eq_rTotal (w : Wts) (hw : w.Real) (x : Fin 1000000 → EReal) (hx : ∀ i, ∃ r : ℝ, x i = r) :
    kTotal w x = rTotal w x := by
  unfold kTotal rTotal
  refine Finset.sum_congr rfl fun i _ => ?_
  obtain ⟨r, hr⟩ := hx i
  rw [hr, kRes_eq_rRes w hw r]

end Cert.Pinn

end
-- ==== Proof.KDefs.lean ====
/-
  What one run of the kernel's body leaves in its 1 × 1 accumulator, as ONE term of the loaded blocks, and the weights as
  the blocks hold them.
-/
import proofs.«131202_j3839700763115_1_alg».proof.Proof.Gen.KernelIdeal.Skeleton
import proofs.«131202_j3839700763115_1_alg».proof.Proof.Point
import Idealize.ShloMosaic.Lib.ValueIdx

noncomputable section

namespace Cert.KernelIdeal.KVal

open Cert.KernelIdeal Cert.KernelIdeal.Gen Idealize.ShloMosaic Idealize.ShloMosaic.ValueIdx

variable {F : FTy → Type} [FloatOps F]

/-- The store into the accumulator as ONE term of the nine loaded blocks (x0 the tile of points; x1 … x8 the weights W1,
    b1, W2, b2, W3, b3, W4, b4 as the windows hold them) and of what the accumulator held (`acc`): the body's payloads
    composed in the body's order. -/
def bodyVal (arg0 : BitVec 32) (x0 : Vec F S4096 .f32) (x1 x2 : Vec F S1x32 .f32) (x3 : Vec F S32x32 .f32)
    (x4 : Vec F S1x32 .f32) (x5 : Vec F S32x32 .f32) (x6 : Vec F S1x32 .f32) (x7 : Vec F S32x1 .f32) (x8 : Vec F S1x1 .f32)
    (acc : Vec F S1x1 .f32) : FVec F S1x1 .f32 :=
  k0_pay1 arg0 (k0_pay3 x0)
    (k0_pay16 (k0_pay7 x0 x1 x2 x3) (k0_pay8 x0 x1 x2 x3) (k0_pay9 x0 x1 x2 x3 x4) (k0_pay10 x0 x1 x2 x3 x4)
      (k0_pay11 x0 x1 x2 x3 x4) (k0_pay12 (F := F)) x5 x6 x7)
    (k0_pay18 (k0_pay9 x0 x1 x2 x3 x4) x5 x6 x7 x8)
    (k0_pay19 (k0_pay9 x0 x1 x2 x3 x4) x5 x6 x7 x8)
    (k0_pay20 (k0_pay9 x0 x1 x2 x3 x4) (k0_pay11 x0 x1 x2 x3 x4) x5 x6 x7)
    acc

/-- The weights as the eight blocks hold them. -/
def wtsOfBlocks (x1 x2 : Vec Ideal S1x32 .f32) (x3 : Vec Ideal S32x32 .f32) (x4 : Vec Ideal S1x32 .f32)
    (x5 : Vec Ideal S32x32 .f32) (x6 : Vec Ideal S1x32 .f32) (x7 : Vec Ideal S32x1 .f32) (x8 : Vec Ideal S1x1 .f32) : Cert.Pinn.Wts where
  W1 j := x1 (ix2 (0 : Fin 1) j)
  b1 j := x2 (ix2 (0 : Fin 1) j)
  W2 k j := x3 (ix2 k j)
  b2 j := x4 (ix2 (0 : Fin 1) j)
  W3 k j := x5 (ix2 k j)
  b3 j := x6 (ix2 (0 : Fin 1) j)
  W4 k := x7 (ix2 k (0 : Fin 1))
  b4 := x8 (ix2 (0 : Fin 1) (0 : Fin 1))

end Cert.KernelIdeal.KVal

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KLayers12.lean ====
/-
  The body's first two layers, lane by lane. At lane l (one point x = x0[l]) and unit j the loaded blocks give: the first
  layer's activation tanh(x·W1[j] + b1[j]) with dz = W1[j]; the second layer's three products with W2 (each a sum over the
  32 units of the first layer) of the first layer's activation, first derivative t·dz and second derivative
  ((-2·h)·t)·(dz·dz); and from them the second layer's activation, its t = 1 - h·h and its first derivative t·dz.
-/
import proofs.«131202_j3839700763115_1_alg».proof.Proof.KDefs
import proofs.«131202_j3839700763115_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.KVal

open Cert.KernelIdeal Cert.KernelIdeal.Gen Idealize.ShloMosaic Idealize.ShloMosaic.ValueIdx Cert.Pinn

/-- The tile as a column: the [4096] array cast to [4096, 1] reads, at (l, 0), the array at l. -/
private theorem cast_col_apply (x : FVec Ideal S4096 .f32) (h : S4096.ShapeCasts S4096x1) (l : Fin 4096) :
    shapeCast S4096x1 x h (ix2 l (0 : Fin 1)) = x (ix1 l) :=
  shapeCast_apply x h _ _ (by
    rw [Shape.rowMajor_val_two, Shape.rowMajor_val_one]
    show l.val = l.val * 1 + 0
    omega)

/-- The column spread over the 32 units: the [4096, 1] array broadcast to [4096, 32] reads, at (l, j), the column at l. -/
private theorem bcast_col_apply (v : FVec Ideal S4096x1 .f32) (h : S4096x1.Broadcasts S4096x32) (l : Fin 4096) (j : Fin 32) :
    broadcastTo S4096x32 v h (ix2 l j) = v (ix2 l (0 : Fin 1)) := by
  refine broadcastTo_apply v h (ix2 l j) (ix2 l (0 : Fin 1)) fun ax => ?_
  match ax with
  | ⟨0, _⟩ => rfl
  | ⟨1, _⟩ => rfl

/-- The tile as loaded, lane l. -/
theorem pay3_apply (x0 : Vec Ideal S4096 .f32) (l : Fin 4096) : k0_pay3 (F := Ideal) x0 (ix1 l) = x0 (ix1 l) := by
  unfold k0_pay3
  exact congrFun (shapeCast_self x0 _) (ix1 l)

/-- The constant -2 in every lane and unit. -/
theorem pay12_apply (l : Fin 4096) (j : Fin 32) : k0_pay12 (F := Ideal) (ix2 l j) = negTwo := by
  unfold k0_pay12
  rfl

/-- First layer's dz: the one row of W1 in every lane. -/
theorem pay4_apply (x1 : Vec Ideal S1x32 .f32) (l : Fin 4096) (j : Fin 32) :
    k0_pay4 (F := Ideal) x1 (ix2 l j) = x1 (ix2 (0 : Fin 1) j) := by
  unfold k0_pay4
  show broadcastTo S4096x32 (shapeCast S1x32 x1 _) _ (ix2 l j) = _
  rw [shapeCast_self]
  exact broadcastTo_1b_ab_apply x1 _ l j

/-- First layer's activation: tanh(x·W1[j] + b1[j]) at lane l, unit j. -/
theorem pay5_apply (x0 : Vec Ideal S4096 .f32) (x1 x2 : Vec Ideal S1x32 .f32) (x3 : Vec Ideal S32x32 .f32)
    (x4 : Vec Ideal S1x32 .f32) (x5 : Vec Ideal S32x32 .f32) (x6 : Vec Ideal S1x32 .f32) (x7 : Vec Ideal S32x1 .f32) (x8 : Vec Ideal S1x1 .f32) (l : Fin 4096) (j : Fin 32) :
    k0_pay5 (F := Ideal) x0 x1 x2 (ix2 l j) = kH1 (wtsOfBlocks x1 x2 x3 x4 x5 x6 x7 x8) (x0 (ix1 l)) j := by
  unfold k0_pay5 k0_pay3
  show Ideal.tanh (broadcastTo S4096x32 (shapeCast S4096x1 (shapeCast S4096 x0 _) _) _ (ix2 l j) * broadcastTo S4096x32 x1 _ (ix2 l j)
    + broadcastTo S4096x32 (shapeCast S1x32 x2 _) _ (ix2 l j)) = _
  rw [shapeCast_self, shapeCast_self, bcast_col_apply, cast_col_apply, broadcastTo_1b_ab_apply, broadcastTo_1b_ab_apply]
  rfl

/-- First layer's t = 1 - h·h. -/
theorem pay6_apply (x0 : Vec Ideal S4096 .f32) (x1 x2 : Vec Ideal S1x32 .f32) (x3 : Vec Ideal S32x32 .f32)
    (x4 : Vec Ideal S1x32 .f32) (x5 : Vec Ideal S32x32 .f32) (x6 : Vec Ideal S1x32 .f32) (x7 : Vec Ideal S32x1 .f32) (x8 : Vec Ideal S1x1 .f32) (l : Fin 4096) (j : Fin 32) :
    k0_pay6 (F := Ideal) x0 x1 x2 (ix2 l j) = kT (kH1 (wtsOfBlocks x1 x2 x3 x4 x5 x6 x7 x8) (x0 (ix1 l)) j) := by
  unfold k0_pay6
  show one - k0_pay5 (F := Ideal) x0 x1 x2 (ix2 l j) * k0_pay5 (F := Ideal) x0 x1 x2 (ix2 l j) = _
  rw [pay5_apply x0 x1 x2 x3 x4 x5 x6 x7 x8 l j]
  rfl

/-- Second layer's dz: the first layer's first derivative through W2. -/
theorem pay7_apply (x0 : Vec Ideal S4096 .f32) (x1 x2 : Vec Ideal S1x32 .f32) (x3 : Vec Ideal S32x32 .f32)
    (x4 : Vec Ideal S1x32 .f32) (x5 : Vec Ideal S32x32 .f32) (x6 : Vec Ideal S1x32 .f32) (x7 : Vec Ideal S32x1 .f32) (x8 : Vec Ideal S1x1 .f32) (l : Fin 4096) (j : Fin 32) :
    k0_pay7 (F := Ideal) x0 x1 x2 x3 (ix2 l j) = kZ2' (wtsOfBlocks x1 x2 x3 x4 x5 x6 x7 x8) (x0 (ix1 l)) j := by
  unfold k0_pay7
  refine (PlainMatmul.matmul_zero_apply _ _ rfl (some .fp32) _ x3 l j).trans ?_
  unfold kZ2' lin
  refine Finset.sum_congr rfl fun k _ => ?_
  show (k0_pay6 (F := Ideal) x0 x1 x2 (ix2 l k) * k0_pay4 (F := Ideal) x1 (ix2 l k)) * x3 (ix2 k j) = _
  rw [pay6_apply x0 x1 x2 x3 x4 x5 x6 x7 x8 l k, pay4_apply x1 l k]
  rfl

/-- Second layer's ddz: the first layer's second derivative through W2. -/
theorem pay8_apply (x0 : Vec Ideal S4096 .f32) (x1 x2 : Vec Ideal S1x32 .f32) (x3 : Vec Ideal S32x32 .f32)
    (x4 : Vec Ideal S1x32 .f32) (x5 : Vec Ideal S32x32 .f32) (x6 : Vec Ideal S1x32 .f32) (x7 : Vec Ideal S32x1 .f32) (x8 : Vec Ideal S1x1 .f32) (l : Fin 4096) (j : Fin 32) :
    k0_pay8 (F := Ideal) x0 x1 x2 x3 (ix2 l j) = kZ2'' (wtsOfBlocks x1 x2 x3 x4 x5 x6 x7 x8) (x0 (ix1 l)) j := by
  unfold k0_pay8
  refine (PlainMatmul.matmul_zero_apply _ _ rfl (some .fp32) _ x3 l j).trans ?_
  unfold kZ2'' lin
  refine Finset.sum_congr rfl fun k _ => ?_
  show (((negTwo * k0_pay5 (F := Ideal) x0 x1 x2 (ix2 l k)) * k0_pay6 (F := Ideal) x0 x1 x2 (ix2 l k))
    * (k0_pay4 (F := Ideal) x1 (ix2 l k) * k0_pay4 (F := Ideal) x1 (ix2 l k))) * x3 (ix2 k j) = _
  rw [pay5_apply x0 x1 x2 x3 x4 x5 x6 x7 x8 l k, pay6_apply x0 x1 x2 x3 x4 x5 x6 x7 x8 l k, pay4_apply x1 l k]
  rfl

/-- Second layer's activation. -/
theorem pay9_apply (x0 : Vec Ideal S4096 .f32) (x1 x2 : Vec Ideal S1x32 .f32) (x3 : Vec Ideal S32x32 .f32)
    (x4 : Vec Ideal S1x32 .f32) (x5 : Vec Ideal S32x32 .f32) (x6 : Vec Ideal S1x32 .f32) (x7 : Vec Ideal S32x1 .f32) (x8 : Vec Ideal S1x1 .f32) (l : Fin 4096) (j : Fin 32) :
    k0_pay9 (F := Ideal) x0 x1 x2 x3 x4 (ix2 l j) = kH2 (wtsOfBlocks x1 x2 x3 x4 x5 x6 x7 x8) (x0 (ix1 l)) j := by
  unfold k0_pay9
  show Ideal.tanh (matmul dot_S4096x32_S32x32_S4096x32_1_0_0_1_n_n (some .fp32) (k0_pay5 (F := Ideal) x0 x1 x2) x3
      (constant S4096x32 .f32 0x00000000#32) (ix2 l j)
    + broadcastTo S4096x32 (shapeCast S1x32 x4 _) _ (ix2 l j)) = _
  rw [shapeCast_self, broadcastTo_1b_ab_apply,
    PlainMatmul.matmul_zero_apply dot_S4096x32_S32x32_S4096x32_1_0_0_1_n_n _ rfl (some .fp32) (k0_pay5 (F := Ideal) x0 x1 x2) x3 l j]
  unfold kH2 lin
  refine congrArg (fun s => Ideal.tanh (s + x4 (ix2 (0 : Fin 1) j))) ?_
  refine Finset.sum_congr rfl fun k _ => ?_
  rw [pay5_apply x0 x1 x2 x3 x4 x5 x6 x7 x8 l k]
  rfl

/-- Second layer's t = 1 - h·h. -/
theorem pay10_apply (x0 : Vec Ideal S4096 .f32) (x1 x2 : Vec Ideal S1x32 .f32) (x3 : Vec Ideal S32x32 .f32)
    (x4 : Vec Ideal S1x32 .f32) (x5 : Vec Ideal S32x32 .f32) (x6 : Vec Ideal S1x32 .f32) (x7 : Vec Ideal S32x1 .f32) (x8 : Vec Ideal S1x1 .f32) (l : Fin 4096) (j : Fin 32) :
    k0_pay10 (F := Ideal) x0 x1 x2 x3 x4 (ix2 l j) = kT (kH2 (wtsOfBlocks x1 x2 x3 x4 x5 x6 x7 x8) (x0 (ix1 l)) j) := by
  unfold k0_pay10
  show one - k0_pay9 (F := Ideal) x0 x1 x2 x3 x4 (ix2 l j) * k0_pay9 (F := Ideal) x0 x1 x2 x3 x4 (ix2 l j) = _
  rw [pay9_apply x0 x1 x2 x3 x4 x5 x6 x7 x8 l j]
  rfl

/-- Second layer's first derivative t·dz. -/
theorem pay11_apply (x0 : Vec Ideal S4096 .f32) (x1 x2 : Vec Ideal S1x32 .f32) (x3 : Vec Ideal S32x32 .f32)
    (x4 : Vec Ideal S1x32 .f32) (x5 : Vec Ideal S32x32 .f32) (x6 : Vec Ideal S1x32 .f32) (x7 : Vec Ideal S32x1 .f32) (x8 : Vec Ideal S1x1 .f32) (l : Fin 4096) (j : Fin 32) :
    k0_pay11 (F := Ideal) x0 x1 x2 x3 x4 (ix2 l j) = kA2 (wtsOfBlocks x1 x2 x3 x4 x5 x6 x7 x8) (x0 (ix1 l)) j := by
  unfold k0_pay11
  show k0_pay10 (F := Ideal) x0 x1 x2 x3 x4 (ix2 l j) * k0_pay7 (F := Ideal) x0 x1 x2 x3 (ix2 l j) = _
  rw [pay10_apply x0 x1 x2 x3 x4 x5 x6 x7 x8 l j, pay7_apply x0 x1 x2 x3 x4 x5 x6 x7 x8 l j]
  rfl

end Cert.KernelIdeal.KVal

end
-- ==== Proof.KVal.lean ====
/-
  What one run of the kernel's body leaves in its 1 × 1 accumulator, as a value.

  The body at tile t loads the tile's 4096 points and the eight weight blocks, pushes the points through the four layers
  (activation, first and second derivative side by side), subtracts sin x, zeroes the lanes past the 1,000,000th point,
  squares, sums the 4096 lanes and adds the sum to what the accumulator held. Read at the extended reals this is
  "accumulator + the tile's sum of squared residuals" (`Cert.Pinn.tileSum`).
-/
import proofs.«131202_j3839700763115_1_alg».proof.Proof.KDefs
import proofs.«131202_j3839700763115_1_alg».proof.Proof.KLayers12
import proofs.«131202_j3839700763115_1_alg».proof.Proof.LibPlainMatmul
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

open scoped BigOperators

noncomputable section

namespace Cert.KernelIdeal.KVal

open Cert.KernelIdeal Cert.KernelIdeal.Gen Idealize.ShloMosaic Idealize.ShloMosaic.ValueIdx Cert.Pinn

/-- The block the reset stores is the zero block. -/
theorem pay2_apply (y : S1x1.Idx) : k0_pay2 (F := Ideal) y = (0 : EReal) := by
  unfold k0_pay2
  rw [shapeCast_self]
  exact Ideal.ofBits_zero_f32

/-! ## The layout reads the body needs -/

/-- A [1, 1] block broadcast to a column [a, 1] reads its one entry. -/
theorem broadcastTo_11_a1_apply {α : Type} {a : ℕ} (v : (⟨2, ![1, 1]⟩ : Shape).Idx → α) (h : (⟨2, ![1, 1]⟩ : Shape).Broadcasts ⟨2, ![a, 1]⟩)
    (p : Fin a) (c : Fin 1) : broadcastTo ⟨2, ![a, 1]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A column [a, 1] cast to [a] reads, at i, the column at (i, 0). -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An [a] array cast to a column [a, 1] reads, at (i, u), the array at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Summing the last axis of an [a, b] array: over row r, coordinate k sits at (r, k). -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-! ## The third and fourth layers read at a lane, over any second-layer arrays -/

/-- The body's product of a [4096, 32] array with a [32, 32] block, at (l, j). -/
theorem matmul32_apply (A : FVec Ideal S4096x32 .f32) (B : FVec Ideal S32x32 .f32) (l : Fin 4096) (j : Fin 32) :
    matmul dot_S4096x32_S32x32_S4096x32_1_0_0_1_n_n (some .fp32) A B (constant S4096x32 .f32 0x00000000#32) (ix2 l j)
      = ∑ k : Fin 32, A (ix2 l k) * B (ix2 k j) :=
  PlainMatmul.matmul_zero_apply _ _ rfl (some .fp32) A B l j

/-- The body's product of a [4096, 32] array with a [32, 1] block, at (l, 0). -/
theorem matmul1_apply (A : FVec Ideal S4096x32 .f32) (B : FVec Ideal S32x1 .f32) (l : Fin 4096) (j : Fin 1) :
    matmul dot_S4096x32_S32x1_S4096x1_1_0_0_1_n_n (some .fp32) A B (constant S4096x1 .f32 0x00000000#32) (ix2 l j)
      = ∑ k : Fin 32, A (ix2 l k) * B (ix2 k j) :=
  PlainMatmul.matmul_zero_apply _ _ rfl (some .fp32) A B l j

/-- A product with W3 at (l, j). -/
theorem pay13_read (v38 : FVec Ideal S4096x32 .f32) (x5 : Vec Ideal S32x32 .f32) (l : Fin 4096) (j : Fin 32) :
    k0_pay13 (F := Ideal) v38 x5 (ix2 l j) = ∑ k : Fin 32, v38 (ix2 l k) * x5 (ix2 k j) := by
  unfold k0_pay13
  exact matmul32_apply v38 x5 l j

/-- The third layer's activation at (l, j). -/
theorem pay14_read (v34 : FVec Ideal S4096x32 .f32) (x5 : Vec Ideal S32x32 .f32) (x6 : Vec Ideal S1x32 .f32) (l : Fin 4096) (j : Fin 32) :
    k0_pay14 (F := Ideal) v34 x5 x6 (ix2 l j)
      = Ideal.tanh ((∑ k : Fin 32, v34 (ix2 l k) * x5 (ix2 k j)) + x6 (ix2 (0 : Fin 1) j)) := by
  unfold k0_pay14
  rw [shapeCast_self]
  show Ideal.tanh (matmul _ _ v34 (x5 : FVec Ideal S32x32 .f32) _ (ix2 l j) + broadcastTo S4096x32 x6 _ (ix2 l j)) = _
  rw [matmul32_apply, broadcastTo_1b_ab_apply]

/-- The third layer's t at (l, j). -/
theorem pay15_read (v34 : FVec Ideal S4096x32 .f32) (x5 : Vec Ideal S32x32 .f32) (x6 : Vec Ideal S1x32 .f32) (l : Fin 4096) (j : Fin 32) :
    k0_pay15 (F := Ideal) v34 x5 x6 (ix2 l j) = kT (k0_pay14 (F := Ideal) v34 x5 x6 (ix2 l j)) := rfl

/-- The fourth layer's ddz at lane l: the third layer's second derivative through W4, the second layer's second
    derivative through W3 inside it. -/
theorem pay16_read (v32 v33 v34 v37 v38 v39 : FVec Ideal S4096x32 .f32) (x5 : Vec Ideal S32x32 .f32) (x6 : Vec Ideal S1x32 .f32)
    (x7 : Vec Ideal S32x1 .f32) (l : Fin 4096) :
    k0_pay16 (F := Ideal) v32 v33 v34 v37 v38 v39 x5 x6 x7 (ix2 l (0 : Fin 1))
      = ∑ j : Fin 32,
          (((negTwo * k0_pay14 (F := Ideal) v34 x5 x6 (ix2 l j)) * k0_pay15 (F := Ideal) v34 x5 x6 (ix2 l j))
              * (k0_pay13 (F := Ideal) v38 x5 (ix2 l j) * k0_pay13 (F := Ideal) v38 x5 (ix2 l j))
            + k0_pay15 (F := Ideal) v34 x5 x6 (ix2 l j)
              * ∑ k : Fin 32, ((((v39 (ix2 l k) * v34 (ix2 l k)) * v37 (ix2 l k)) * (v32 (ix2 l k) * v32 (ix2 l k)))
                  + v37 (ix2 l k) * v33 (ix2 l k)) * x5 (ix2 k j))
          * x7 (ix2 j (0 : Fin 1)) := by
  unfold k0_pay16
  refine (matmul1_apply _ x7 l 0).trans ?_
  refine Finset.sum_congr rfl fun j _ => ?_
  congr 1
  show _ + k0_pay15 (F := Ideal) v34 x5 x6 (ix2 l j) * matmul _ _ _ (x5 : FVec Ideal S32x32 .f32) _ (ix2 l j) = _
  rw [matmul32_apply]
  rfl

/-- The fourth layer's activation at lane l. -/
theorem pay17_read (v34 : FVec Ideal S4096x32 .f32) (x5 : Vec Ideal S32x32 .f32) (x6 : Vec Ideal S1x32 .f32)
    (x7 : Vec Ideal S32x1 .f32) (x8 : Vec Ideal S1x1 .f32) (l : Fin 4096) :
    k0_pay17 (F := Ideal) v34 x5 x6 x7 x8 (ix2 l (0 : Fin 1))
      = Ideal.tanh ((∑ k : Fin 32, k0_pay14 (F := Ideal) v34 x5 x6 (ix2 l k) * x7 (ix2 k (0 : Fin 1))) + x8 (ix2 (0 : Fin 1) (0 : Fin 1))) := by
  unfold k0_pay17
  rw [shapeCast_self]
  show Ideal.tanh (matmul _ _ (k0_pay14 (F := Ideal) v34 x5 x6) (x7 : FVec Ideal S32x1 .f32) _ (ix2 l (0 : Fin 1)) + broadcastTo S4096x1 x8 _ (ix2 l (0 : Fin 1))) = _
  rw [matmul1_apply, broadcastTo_11_a1_apply]

/-- The fourth layer's t. -/
theorem pay18_read (v34 : FVec Ideal S4096x32 .f32) (x5 : Vec Ideal S32x32 .f32) (x6 : Vec Ideal S1x32 .f32)
    (x7 : Vec Ideal S32x1 .f32) (x8 : Vec Ideal S1x1 .f32) (i : S4096x1.Idx) :
    k0_pay18 (F := Ideal) v34 x5 x6 x7 x8 i = kT (k0_pay17 (F := Ideal) v34 x5 x6 x7 x8 i) := rfl

/-- The fourth layer's (-2·h)·t. -/
theorem pay19_read (v34 : FVec Ideal S4096x32 .f32) (x5 : Vec Ideal S32x32 .f32) (x6 : Vec Ideal S1x32 .f32)
    (x7 : Vec Ideal S32x1 .f32) (x8 : Vec Ideal S1x1 .f32) (i : S4096x1.Idx) :
    k0_pay19 (F := Ideal) v34 x5 x6 x7 x8 i
      = (negTwo * k0_pay17 (F := Ideal) v34 x5 x6 x7 x8 i) * kT (k0_pay17 (F := Ideal) v34 x5 x6 x7 x8 i) := rfl

/-- The fourth layer's dz·dz at lane l: the third layer's first derivative through W4, squared. -/
theorem pay20_read (v34 v38 : FVec Ideal S4096x32 .f32) (x5 : Vec Ideal S32x32 .f32) (x6 : Vec Ideal S1x32 .f32)
    (x7 : Vec Ideal S32x1 .f32) (l : Fin 4096) :
    k0_pay20 (F := Ideal) v34 v38 x5 x6 x7 (ix2 l (0 : Fin 1))
      = (∑ k : Fin 32, (k0_pay15 (F := Ideal) v34 x5 x6 (ix2 l k) * k0_pay13 (F := Ideal) v38 x5 (ix2 l k)) * x7 (ix2 k (0 : Fin 1)))
        * (∑ k : Fin 32, (k0_pay15 (F := Ideal) v34 x5 x6 (ix2 l k) * k0_pay13 (F := Ideal) v38 x5 (ix2 l k)) * x7 (ix2 k (0 : Fin 1))) := by
  unfold k0_pay20
  rw [mulf_apply, matmul1_apply]
  rfl

/-! ## The rest of the body over the second layer's values -/

/-- What the first two layers hand on, lane by lane: the second layer's dz, ddz, activation, t and first derivative,
    and the constant -2. -/
structure Layer2 (w : Wts) (x0 : Vec Ideal S4096 .f32) (v32 v33 v34 v37 v38 v39 : FVec Ideal S4096x32 .f32) : Prop where
  dz : ∀ (l : Fin 4096) (j : Fin 32), v32 (ix2 l j) = kZ2' w (x0 (ix1 l)) j
  ddz : ∀ (l : Fin 4096) (j : Fin 32), v33 (ix2 l j) = kZ2'' w (x0 (ix1 l)) j
  h : ∀ (l : Fin 4096) (j : Fin 32), v34 (ix2 l j) = kH2 w (x0 (ix1 l)) j
  t : ∀ (l : Fin 4096) (j : Fin 32), v37 (ix2 l j) = kT (kH2 w (x0 (ix1 l)) j)
  a : ∀ (l : Fin 4096) (j : Fin 32), v38 (ix2 l j) = kA2 w (x0 (ix1 l)) j
  m : ∀ (l : Fin 4096) (j : Fin 32), v39 (ix2 l j) = negTwo

section Rest
variable {x0 : Vec Ideal S4096 .f32} {x1 x2 : Vec Ideal S1x32 .f32} {x3 : Vec Ideal S32x32 .f32} {x4 : Vec Ideal S1x32 .f32}
  {x5 : Vec Ideal S32x32 .f32} {x6 : Vec Ideal S1x32 .f32} {x7 : Vec Ideal S32x1 .f32} {x8 : Vec Ideal S1x1 .f32}
  {v32 v33 v34 v37 v38 v39 : FVec Ideal S4096x32 .f32}

/-- Third layer's activation. -/
theorem pay14_apply (L : Layer2 (wtsOfBlocks x1 x2 x3 x4 x5 x6 x7 x8) x0 v32 v33 v34 v37 v38 v39) (l : Fin 4096) (j : Fin 32) :
    k0_pay14 (F := Ideal) v34 x5 x6 (ix2 l j) = kH3 (wtsOfBlocks x1 x2 x3 x4 x5 x6 x7 x8) (x0 (ix1 l)) j := by
  rw [pay14_read]
  simp only [L.h]
  rfl

/-- Third layer's t. -/
theorem pay15_apply (L : Layer2 (wtsOfBlocks x1 x2 x3 x4 x5 x6 x7 x8) x0 v32 v33 v34 v37 v38 v39) (l : Fin 4096) (j : Fin 32) :
    k0_pay15 (F := Ideal) v34 x5 x6 (ix2 l j) = kT (kH3 (wtsOfBlocks x1 x2 x3 x4 x5 x6 x7 x8) (x0 (ix1 l)) j) := by
  rw [pay15_read, pay14_apply L]

/-- Third layer's dz: the second layer's first derivative through W3. -/
theorem pay13_apply (L : Layer2 (wtsOfBlocks x1 x2 x3 x4 x5 x6 x7 x8) x0 v32 v33 v34 v37 v38 v39) (l : Fin 4096) (j : Fin 32) :
    k0_pay13 (F := Ideal) v38 x5 (ix2 l j) = kZ3' (wtsOfBlocks x1 x2 x3 x4 x5 x6 x7 x8) (x0 (ix1 l)) j := by
  rw [pay13_read]
  simp only [L.a]
  rfl

/-- Fourth layer's ddz. -/
theorem pay16_apply (L : Layer2 (wtsOfBlocks x1 x2 x3 x4 x5 x6 x7 x8) x0 v32 v33 v34 v37 v38 v39) (l : Fin 4096) :
    k0_pay16 (F := Ideal) v32 v33 v34 v37 v38 v39 x5 x6 x7 (ix2 l (0 : Fin 1))
      = kZ4'' (wtsOfBlocks x1 x2 x3 x4 x5 x6 x7 x8) (x0 (ix1 l)) := by
  rw [pay16_read]
  simp only [pay14_apply L, pay15_apply L, pay13_apply L, L.dz, L.ddz, L.h, L.t, L.m]
  rfl

/-- Fourth layer's activation. -/
theorem pay17_apply (L : Layer2 (wtsOfBlocks x1 x2 x3 x4 x5 x6 x7 x8) x0 v32 v33 v34 v37 v38 v39) (l : Fin 4096) :
    k0_pay17 (F := Ideal) v34 x5 x6 x7 x8 (ix2 l (0 : Fin 1)) = kH4 (wtsOfBlocks x1 x2 x3 x4 x5 x6 x7 x8) (x0 (ix1 l)) := by
  rw [pay17_read]
  simp only [pay14_apply L]
  rfl

/-- Fourth layer's dz·dz. -/
theorem pay20_apply (L : Layer2 (wtsOfBlocks x1 x2 x3 x4 x5 x6 x7 x8) x0 v32 v33 v34 v37 v38 v39) (l : Fin 4096) :
    k0_pay20 (F := Ideal) v34 v38 x5 x6 x7 (ix2 l (0 : Fin 1))
      = kZ4' (wtsOfBlocks x1 x2 x3 x4 x5 x6 x7 x8) (x0 (ix1 l)) * kZ4' (wtsOfBlocks x1 x2 x3 x4 x5 x6 x7 x8) (x0 (ix1 l)) := by
  rw [pay20_read]
  simp only [pay15_apply L, pay13_apply L]
  rfl

end Rest

/-! ## The mask, the sum over the lanes and the accumulator -/

/-- Lane l of tile t holds the word of 4096·t + l, which is below the word of 1,000,000 exactly when the number is. -/
theorem lane_bit (t : ℕ) (ht : t < 245) (l : Fin 4096) :
    IntOp.cmpi .slt (IntOp.addi (BitVec.ofNat 32 l.val) (Scalar.muli (BitVec.ofNat 32 t) 4096#32)) 1000000#32 = 1#1
      ↔ 4096 * t + l.val < 1000000 := by
  have hl := l.isLt
  have e : IntOp.addi (BitVec.ofNat 32 l.val) (Scalar.muli (BitVec.ofNat 32 t) 4096#32) = BitVec.ofNat 32 (4096 * t + l.val) := by
    apply BitVec.eq_of_toNat_eq
    show (BitVec.ofNat 32 l.val + BitVec.ofNat 32 t * 4096#32).toNat = _
    simp only [BitVec.toNat_add, BitVec.toNat_mul, BitVec.toNat_ofNat]
    omega
  rw [e, StableHlo.Predicate.slt_iff_toNat (by simp only [BitVec.toNat_ofNat]; omega) (by decide)]
  simp only [BitVec.toNat_ofNat]
  omega

/-- The accumulator's new value over ANY fourth-layer columns: what it held plus the sum, over the lanes whose point
    exists, of the squared residual r l = (v80·v81 + v77·v73) - sin v4 at the lane. -/
theorem pay1_apply (t : ℕ) (ht : t < 245) (v4 : FVec Ideal S4096 .f32) (v73 v77 v80 v81 : FVec Ideal S4096x1 .f32)
    (acc : Vec Ideal S1x1 .f32) (r : Fin 4096 → EReal)
    (hr : ∀ l : Fin 4096, (v80 (ix2 l (0 : Fin 1)) * v81 (ix2 l (0 : Fin 1)) + v77 (ix2 l (0 : Fin 1)) * v73 (ix2 l (0 : Fin 1)))
      - Ideal.sin (v4 (ix1 l)) = r l) (y : S1x1.Idx) :
    k0_pay1 (F := Ideal) (BitVec.ofNat 32 t) v4 v73 v77 v80 v81 acc y
      = acc (ix2 (0 : Fin 1) (0 : Fin 1)) + ∑ l : Fin 4096, if 4096 * t + l.val < 1000000 then r l * r l else 0 := by
  have hy : y = ix2 (0 : Fin 1) (0 : Fin 1) :=
    Shape.idx_ext₂ (Nat.lt_one_iff.mp (y 0).isLt) (Nat.lt_one_iff.mp (y 1).isLt)
  subst hy
  unfold k0_pay1
  rw [shapeCast_self, addf_apply]
  congr 1
  rw [shapeCast_a_a1_apply]
  refine (Ideal.multiReduction_add_single _ _ reduces_S1x4096_S1 _ _ (ix1 (0 : Fin 1))).trans ?_
  refine Finset.sum_congr rfl fun (l : Fin 4096) _ => ?_
  have e : reduces_S1x4096_S1.lift (ix1 (0 : Fin 1)) l = ix2 (0 : Fin 1) l := lift_last_ix2 _ _ _
  rw [e, shapeCast_a_1a_apply, mulf_apply, select_apply]
  have hc : cmpi .slt (addi (shapeCast S4096 (iota .tc S1x4096 32 [1] iota_S1x4096_d1_w32) shapeCasts_S1x4096_S4096)
        (broadcast S4096 (Scalar.muli (BitVec.ofNat 32 t) 4096#32))) (broadcast S4096 1000000#32) (ix1 l) = 1#1
      ↔ 4096 * t + l.val < 1000000 := by
    have hi : shapeCast S4096 (iota .tc S1x4096 32 [1] iota_S1x4096_d1_w32) shapeCasts_S1x4096_S4096 (ix1 l)
        = BitVec.ofNat 32 l.val := by
      rw [shapeCast_1a_a_apply, iota_single_apply]
    show IntOp.cmpi .slt (IntOp.addi (shapeCast S4096 (iota .tc S1x4096 32 [1] iota_S1x4096_d1_w32) shapeCasts_S1x4096_S4096 (ix1 l)) _) _ = 1#1 ↔ _
    rw [hi]
    exact lane_bit t ht l
  have hv : subf (shapeCast S4096 (addf (mulf v80 v81) (mulf v77 v73)) shapeCasts_S4096x1_S4096) (sin v4) (ix1 l) = r l := by
    rw [subf_apply, shapeCast_a1_a_apply]
    exact hr l
  rw [hv]
  by_cases h : 4096 * t + l.val < 1000000
  · rw [hc.mpr h, select_one, if_pos h]
  · rw [eq_zero_of_ne_one (fun h' => h (hc.mp h')), select_zero, if_neg h]
    show Ideal.ofBits .f32 0x00000000#32 * Ideal.ofBits .f32 0x00000000#32 = 0
    rw [Ideal.ofBits_zero_f32, mul_zero]

/-- THE BODY'S VALUE at tile t: the accumulator plus the tile's sum of squared residuals. -/
theorem bodyVal_apply (t : ℕ) (ht : t < 245) (x0 : Vec Ideal S4096 .f32) (x1 x2 : Vec Ideal S1x32 .f32) (x3 : Vec Ideal S32x32 .f32)
    (x4 : Vec Ideal S1x32 .f32) (x5 : Vec Ideal S32x32 .f32) (x6 : Vec Ideal S1x32 .f32) (x7 : Vec Ideal S32x1 .f32) (x8 : Vec Ideal S1x1 .f32)
    (acc : Vec Ideal S1x1 .f32) (y : S1x1.Idx) :
    bodyVal (F := Ideal) (BitVec.ofNat 32 t) x0 x1 x2 x3 x4 x5 x6 x7 x8 acc y
      = acc (ix2 (0 : Fin 1) (0 : Fin 1)) + Cert.Pinn.tileSum (wtsOfBlocks x1 x2 x3 x4 x5 x6 x7 x8) t (fun l => x0 (ix1 l)) := by
  have L : Layer2 (wtsOfBlocks x1 x2 x3 x4 x5 x6 x7 x8) x0 (k0_pay7 (F := Ideal) x0 x1 x2 x3) (k0_pay8 (F := Ideal) x0 x1 x2 x3)
      (k0_pay9 (F := Ideal) x0 x1 x2 x3 x4) (k0_pay10 (F := Ideal) x0 x1 x2 x3 x4) (k0_pay11 (F := Ideal) x0 x1 x2 x3 x4)
      (k0_pay12 (F := Ideal)) :=
    ⟨pay7_apply x0 x1 x2 x3 x4 x5 x6 x7 x8, pay8_apply x0 x1 x2 x3 x4 x5 x6 x7 x8, pay9_apply x0 x1 x2 x3 x4 x5 x6 x7 x8,
      pay10_apply x0 x1 x2 x3 x4 x5 x6 x7 x8, pay11_apply x0 x1 x2 x3 x4 x5 x6 x7 x8, pay12_apply⟩
  unfold bodyVal
  refine (pay1_apply t ht _ _ _ _ _ acc (fun l => kRes (wtsOfBlocks x1 x2 x3 x4 x5 x6 x7 x8) (x0 (ix1 l))) (fun l => ?_) y).trans rfl
  rw [pay19_read, pay18_read, pay17_apply L, pay20_apply L, pay16_apply L, pay3_apply]
  rfl

end Cert.KernelIdeal.KVal

end
-- ==== Proof.KPieces.lean ====
/-
  The pieces the body's run leaves, read as values. At each of the three kinds of grid point (the first, which zeroes the
  accumulator before adding; a middle one; the last, which also copies the accumulator to the output block) the
  accumulator ends at the body's one value `bodyVal` of the point's blocks — over the zero block at the first point, over
  what the point before left otherwise — and at the last point the output block ends at the same value.
-/
import proofs.«131202_j3839700763115_1_alg».proof.Proof.Gen.KernelIdeal.Frame
import proofs.«131202_j3839700763115_1_alg».proof.Proof.KDefs
import Idealize.ShloMosaic.Lib.Pipeline.Value
import Idealize.ShloMosaic.Lib.Tactic

noncomputable section

namespace Cert.KernelIdeal.KVal

open Cert.KernelIdeal Cert.KernelIdeal.Gen Idealize.ShloMosaic Idealize.ShloMosaic.TcCoe Idealize.SL.Sem

variable {F : FTy → Type} [FloatOps F]

/-- The zero offset of a rank-2 block. -/
theorem hz : (![0, 0] : Fin 2 → Nat) = fun _ => 0 := funext fun a => by fin_cases a <;> rfl

/-- The zero offset of a rank-1 block. -/
theorem hz1 : (![0] : Fin 1 → Nat) = fun _ => 0 := funext fun a => by fin_cases a <;> rfl

/-- First point: the accumulator is zeroed, read back, and ends at the body's value over the zero block. -/
theorem sout_A (c : Dev nD) (i : grid0.Coords) (arg1 : Memref sig .tc .vmem S4096 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 : Vec F S4096 .f32) (x1 : Vec F S1x32 .f32) (x2 : Vec F S1x32 .f32) (x3 : Vec F S32x32 .f32) (x4 : Vec F S1x32 .f32) (x5 : Vec F S32x32 .f32) (x6 : Vec F S1x32 .f32) (x7 : Vec F S32x1 .f32) (x8 : Vec F S1x1 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8
      = bodyVal (BitVec.ofNat 32 (i 0).val) x0 x1 x2 x3 x4 x5 x6 x7 x8 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096) hz1, View.ld_unit_zero (S := S1x32) hz, View.ld_unit_zero (S := S32x32) hz, View.ld_unit_zero (S := S32x1) hz, View.ld_unit_zero (S := S1x1) hz]
  rfl

/-- A middle point: the accumulator ends at the body's value over what it held. -/
theorem sout_B (c : Dev nD) (i : grid0.Coords) (arg1 : Memref sig .tc .vmem S4096 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 : Vec F S4096 .f32) (x1 : Vec F S1x32 .f32) (x2 : Vec F S1x32 .f32) (x3 : Vec F S32x32 .f32) (x4 : Vec F S1x32 .f32) (x5 : Vec F S32x32 .f32) (x6 : Vec F S1x32 .f32) (x7 : Vec F S32x1 .f32) (x8 : Vec F S1x1 .f32) (xs0 : Vec F S1x1 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0
      = bodyVal (BitVec.ofNat 32 (i 0).val) x0 x1 x2 x3 x4 x5 x6 x7 x8 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun0_B
  dsimp only
  sl_unfold_words
  rw [View.canon_unit_zero (S := S1x1) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096) hz1, View.ld_unit_zero (S := S1x32) hz, View.ld_unit_zero (S := S32x32) hz, View.ld_unit_zero (S := S32x1) hz, View.ld_unit_zero (S := S1x1) hz]
  rfl

/-- The last point: the accumulator ends at the body's value over what it held, -/
theorem sout_C (c : Dev nD) (i : grid0.Coords) (arg1 : Memref sig .tc .vmem S4096 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S4096 .f32) (x1 : Vec F S1x32 .f32) (x2 : Vec F S1x32 .f32) (x3 : Vec F S32x32 .f32) (x4 : Vec F S1x32 .f32) (x5 : Vec F S32x32 .f32) (x6 : Vec F S1x32 .f32) (x7 : Vec F S32x1 .f32) (x8 : Vec F S1x1 .f32) (xs0 : Vec F S1x1 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0
      = bodyVal (BitVec.ofNat 32 (i 0).val) x0 x1 x2 x3 x4 x5 x6 x7 x8 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun0_C
  dsimp only
  sl_unfold_words
  rw [View.canon_unit_zero (S := S1x1) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096) hz1, View.ld_unit_zero (S := S1x32) hz, View.ld_unit_zero (S := S32x32) hz, View.ld_unit_zero (S := S32x1) hz, View.ld_unit_zero (S := S1x1) hz]
  rfl

/-- and the output block is the accumulator's copy. -/
theorem out_C (c : Dev nD) (i : grid0.Coords) (arg1 : Memref sig .tc .vmem S4096 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S4096 .f32) (x1 : Vec F S1x32 .f32) (x2 : Vec F S1x32 .f32) (x3 : Vec F S32x32 .f32) (x4 : Vec F S1x32 .f32) (x5 : Vec F S32x32 .f32) (x6 : Vec F S1x32 .f32) (x7 : Vec F S32x1 .f32) (x8 : Vec F S1x1 .f32) (xs0 : Vec F S1x1 .f32) :
    out0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0
      = bodyVal (BitVec.ofNat 32 (i 0).val) x0 x1 x2 x3 x4 x5 x6 x7 x8 xs0 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun0_C
  dsimp only
  sl_unfold_words
  rw [View.canon_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096) hz1, View.ld_unit_zero (S := S1x32) hz, View.ld_unit_zero (S := S32x32) hz, View.ld_unit_zero (S := S32x1) hz, View.ld_unit_zero (S := S1x1) hz]
  rfl

end Cert.KernelIdeal.KVal

end
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.Tiles.lean ====
/-
  The tiles make up the whole. The 1,000,000 points, followed by zeros up to 245 · 4096 = 1,003,520, are cut into 245 tiles
  of 4096 lanes; a tile's sum counts only the lanes below 1,000,000; so the 245 tile sums add up to the sum over the
  points. Only associativity and commutativity of + on the extended reals are used.
-/
import proofs.«131202_j3839700763115_1_alg».proof.Proof.Point
import proofs.«131202_j3839700763115_1_alg».proof.Proof.LibBlockSum

open scoped BigOperators

noncomputable section

namespace Cert.Pinn

/-- A family of 1,000,000 extended reals continued by zeros. -/
def pad (x : Fin 1000000 → EReal) (n : ℕ) : EReal := if h : n < 1000000 then x ⟨n, h⟩ else 0

/-- The squared residual at position `n` of the padded points: 0 from position 1,000,000 on. -/
def padSq (w : Wts) (x : Fin 1000000 → EReal) (n : ℕ) : EReal :=
  if h : n < 1000000 then kRes w (x ⟨n, h⟩) * kRes w (x ⟨n, h⟩) else 0

/-- A tile's sum over the padded points is the sum of the padded squared residuals at its 4096 positions. -/
theorem tileSum_pad (w : Wts) (x : Fin 1000000 → EReal) (s : ℕ) :
    tileSum w s (fun l => pad x (4096 * s + l.val)) = ∑ l : Fin 4096, padSq w x (4096 * s + l.val) := by
  unfold tileSum
  refine Finset.sum_congr rfl fun l _ => ?_
  by_cases hb : 4096 * s + l.val < 1000000
  · rw [if_pos hb]
    show kRes w (pad x (4096 * s + l.val)) * kRes w (pad x (4096 * s + l.val)) = padSq w x (4096 * s + l.val)
    unfold padSq pad
    rw [dif_pos hb, dif_pos hb]
  · rw [if_neg hb]
    unfold padSq
    rw [dif_neg hb]

/-- The 245 tile sums of the padded points add up to the total over the 1,000,000 points. -/
theorem sum_tiles (w : Wts) (x : Fin 1000000 → EReal) :
    ∑ s ∈ Finset.range 245, tileSum w s (fun l => pad x (4096 * s + l.val)) = kTotal w x := by
  rw [Finset.sum_congr rfl (fun s _ => tileSum_pad w x s)]
  rw [← Cert.Lib.sum_fin_blocks (padSq w x) 245 4096]
  rw [Fin.sum_univ_eq_sum_range (padSq w x) (245 * 4096)]
  have h1 : (245 * 4096 : ℕ) = 1000000 + 3520 := by norm_num
  rw [h1, Finset.sum_range_add]
  have hz : ∑ i ∈ Finset.range 3520, padSq w x (1000000 + i) = 0 := by
    refine Finset.sum_eq_zero fun i _ => ?_
    unfold padSq
    rw [dif_neg (by omega)]
  rw [hz, add_zero]
  unfold kTotal
  rw [← Fin.sum_univ_eq_sum_range (padSq w x) 1000000]
  refine Finset.sum_congr rfl fun i _ => ?_
  unfold padSq
  rw [dif_pos i.isLt]

end Cert.Pinn

end
-- ==== Proof.KBlocks.lean ====
/-
  What the region finds in its input windows. The eight weight windows hold the whole weight arrays at every grid point
  (the biases as the host's reshape made them: one row). The first window's block at tile t holds the points
  4096·t … 4096·t + 4095 of the padded point array, which is the point array followed by zeros.
-/
import proofs.«131202_j3839700763115_1_alg».proof.Proof.Gen.KernelIdeal.Frame
import proofs.«131202_j3839700763115_1_alg».proof.Proof.KDefs
import proofs.«131202_j3839700763115_1_alg».proof.Proof.Tiles
import Idealize.ShloMosaic.Lib.Pipeline.Value
import Idealize.ShloMosaic.Lib.StableHlo.Run
import Idealize.ShloMosaic.Lib.ValueIdx
import Idealize.ShloMosaic.Lib.KernelVsHost

noncomputable section

namespace Cert.KernelIdeal.KVal

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The argument arrays at the launch, by their literal types. -/
abbrev a0 (c : Dev nD) : Vec Ideal S1000000 .f32 := m ((c.tc : Thread nD τ).loc main_arg0)
abbrev a1 (c : Dev nD) : Vec Ideal S1x32 .f32 := m ((c.tc : Thread nD τ).loc main_arg1)
abbrev a2 (c : Dev nD) : Vec Ideal S32 .f32 := m ((c.tc : Thread nD τ).loc main_arg2)
abbrev a3 (c : Dev nD) : Vec Ideal S32x32 .f32 := m ((c.tc : Thread nD τ).loc main_arg3)
abbrev a4 (c : Dev nD) : Vec Ideal S32 .f32 := m ((c.tc : Thread nD τ).loc main_arg4)
abbrev a5 (c : Dev nD) : Vec Ideal S32x32 .f32 := m ((c.tc : Thread nD τ).loc main_arg5)
abbrev a6 (c : Dev nD) : Vec Ideal S32 .f32 := m ((c.tc : Thread nD τ).loc main_arg6)
abbrev a7 (c : Dev nD) : Vec Ideal S32x1 .f32 := m ((c.tc : Thread nD τ).loc main_arg7)
abbrev a8 (c : Dev nD) : Vec Ideal S1 .f32 := m ((c.tc : Thread nD τ).loc main_arg8)

/-- The network's weights as the launch memory holds them. -/
def wtsOfMem (c : Dev nD) : Cert.Pinn.Wts where
  W1 j := a1 m c (ix2 (0 : Fin 1) j)
  b1 j := a2 m c (ix1 j)
  W2 k j := a3 m c (ix2 k j)
  b2 j := a4 m c (ix1 j)
  W3 k j := a5 m c (ix2 k j)
  b3 j := a6 m c (ix1 j)
  W4 k := a7 m c (ix2 k (0 : Fin 1))
  b4 := a8 m c (ix1 (0 : Fin 1))

/-- The 1,000,000 collocation points as the launch memory holds them. -/
def ptsOfMem (c : Dev nD) : Fin 1000000 → EReal := fun i => a0 m c (ix1 i)

/-- The padded points: the points, then zeros. -/
abbrev padPts (c : Dev nD) (n : ℕ) : EReal := Cert.Pinn.pad (ptsOfMem m c) n

/-! ## The arrays the host operations before the region wrote -/

/-- The first bias as one row. -/
theorem V_v1 (c : Dev nD) : (V m c main_v1 : S1x32.Idx → EReal) = shapeCast S1x32 (a2 m c) shapeCasts_S32_S1x32 := by
  dsimp only [Gen.V, Gen.V0]
  simp only [Gen.hostOps0, Gen.hostOps0_1, Gen.hostOps0_2, List.flatten_cons, List.flatten_nil, List.append_nil, List.cons_append, List.nil_append]
  after_results
  rfl

/-- The second bias as one row. -/
theorem V_v2 (c : Dev nD) : (V m c main_v2 : S1x32.Idx → EReal) = shapeCast S1x32 (a4 m c) shapeCasts_S32_S1x32 := by
  dsimp only [Gen.V, Gen.V0]
  simp only [Gen.hostOps0, Gen.hostOps0_1, Gen.hostOps0_2, List.flatten_cons, List.flatten_nil, List.append_nil, List.cons_append, List.nil_append]
  after_results
  rfl

/-- The third bias as one row. -/
theorem V_v3 (c : Dev nD) : (V m c main_v3 : S1x32.Idx → EReal) = shapeCast S1x32 (a6 m c) shapeCasts_S32_S1x32 := by
  dsimp only [Gen.V, Gen.V0]
  simp only [Gen.hostOps0, Gen.hostOps0_1, Gen.hostOps0_2, List.flatten_cons, List.flatten_nil, List.append_nil, List.cons_append, List.nil_append]
  after_results
  rfl

/-- The last bias as a 1 × 1 matrix. -/
theorem V_v4 (c : Dev nD) : (V m c main_v4 : S1x1.Idx → EReal) = shapeCast S1x1 (a8 m c) shapeCasts_S1_S1x1 := by
  dsimp only [Gen.V, Gen.V0]
  simp only [Gen.hostOps0, Gen.hostOps0_1, Gen.hostOps0_2, List.flatten_cons, List.flatten_nil, List.append_nil, List.cons_append, List.nil_append]
  after_results
  rfl

/-- The point array padded at the high end with 3520 copies of the converted integer zero. -/
theorem V_v0 (c : Dev nD) : (V m c main_v0 : S1003520.Idx → EReal)
    = pad S1003520 ![0] ![3520] ![0] (a0 m c) (sitofp (F := Ideal) .f32 (constantI S_ 32 0#32)) pads_S1000000_S1003520_035200 h_S_ := by
  dsimp only [Gen.V, Gen.V0]
  simp only [Gen.hostOps0, Gen.hostOps0_1, Gen.hostOps0_2, List.flatten_cons, List.flatten_nil, List.append_nil, List.cons_append, List.nil_append]
  after_results
  rfl

/-- A bias row read at column j is the bias's entry j. -/
theorem row_apply (b : S32.Idx → EReal) (j : Fin 32) :
    shapeCast S1x32 b shapeCasts_S32_S1x32 (ix2 (0 : Fin 1) j) = b (ix1 j) := by
  rw [shapeCast_addUnit_apply]
  exact congrArg b (funext fun a => match a with | ⟨0, _⟩ => rfl)

/-- The 1 × 1 cast of a one-entry vector holds its entry. -/
theorem one_apply (b : S1.Idx → EReal) :
    shapeCast S1x1 b shapeCasts_S1_S1x1 (ix2 (0 : Fin 1) (0 : Fin 1)) = b (ix1 (0 : Fin 1)) := by
  rw [shapeCast_addUnit_apply]
  exact congrArg b (funext fun a => match a with | ⟨0, _⟩ => rfl)

/-- The padded array read at position n is the padded points' entry n. -/
theorem padded_apply (c : Dev nD) (n : Fin 1003520) :
    pad S1003520 ![0] ![3520] ![0] (a0 m c) (sitofp (F := Ideal) .f32 (constantI S_ 32 0#32)) pads_S1000000_S1003520_035200 h_S_ (ix1 n)
      = padPts m c n.val := by
  show _ = Cert.Pinn.pad (ptsOfMem m c) n.val
  unfold Cert.Pinn.pad
  by_cases h : n.val < 1000000
  · rw [dif_pos h]
    exact pad_apply_of_inside _ _ _ _ _ _ _ (ix1 n) (ix1 ⟨n.val, h⟩) (fun a => match a with
      | ⟨0, _⟩ => by show n.val = 0 + n.val * (0 + 1); omega)
  · rw [dif_neg h]
    rw [pad_apply_of_not_inside _ _ _ _ _ _ _ (ix1 n) (0 : Fin 1) (by
      show ¬(0 ≤ n.val ∧ (n.val - 0) % (0 + 1) = 0 ∧ (n.val - 0) / (0 + 1) < 1000000)
      omega)]
    exact sitofp_zero (φ := .f32)

/-! ## The blocks -/

/-- Window 0's block index is the grid point; the weight windows' is 0 on both axes. -/
theorem idx_facts : ∀ t : Fin cfg0.N, win0_0.index t (0 : Fin 1) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Window 1's block is the first matrix. -/
theorem blk1 (c : Dev nD) (t : Fin cfg0.N) (y : S1x32.Idx) : (iblk m c 1 t : Vec Ideal S1x32 .f32) y = a1 m c y := by
  have hi := idx_facts t
  unfold iblk
  rw [View.read_apply]
  show V m c main_arg1 _ = a1 m c y
  rw [V_main_arg1]
  show a1 m c _ = a1 m c y
  congr 1
  funext a
  apply Fin.ext
  match a with
  | ⟨0, _⟩ => show win0_1.index t (0 : Fin 2) * 1 + 1 * (y 0).val = (y 0).val; omega
  | ⟨1, _⟩ => show win0_1.index t (1 : Fin 2) * 32 + 1 * (y 1).val = (y 1).val; omega

/-- Window 3's block is the second matrix. -/
theorem blk3 (c : Dev nD) (t : Fin cfg0.N) (y : S32x32.Idx) : (iblk m c 3 t : Vec Ideal S32x32 .f32) y = a3 m c y := by
  have hi := idx_facts t
  unfold iblk
  rw [View.read_apply]
  show V m c main_arg3 _ = a3 m c y
  rw [V_main_arg3]
  show a3 m c _ = a3 m c y
  congr 1
  funext a
  apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- Window 5's block is the third matrix. -/
theorem blk5 (c : Dev nD) (t : Fin cfg0.N) (y : S32x32.Idx) : (iblk m c 5 t : Vec Ideal S32x32 .f32) y = a5 m c y := by
  have hi := idx_facts t
  unfold iblk
  rw [View.read_apply]
  show V m c main_arg5 _ = a5 m c y
  rw [V_main_arg5]
  show a5 m c _ = a5 m c y
  congr 1
  funext a
  apply Fin.ext
  match a with
  | ⟨0, _⟩ => show win0_5.index t (0 : Fin 2) * 32 + 1 * (y 0).val = (y 0).val; omega
  | ⟨1, _⟩ => show win0_5.index t (1 : Fin 2) * 32 + 1 * (y 1).val = (y 1).val; omega

/-- Window 7's block is the last matrix. -/
theorem blk7 (c : Dev nD) (t : Fin cfg0.N) (y : S32x1.Idx) : (iblk m c 7 t : Vec Ideal S32x1 .f32) y = a7 m c y := by
  have hi := idx_facts t
  unfold iblk
  rw [View.read_apply]
  show V m c main_arg7 _ = a7 m c y
  rw [V_main_arg7]
  show a7 m c _ = a7 m c y
  congr 1
  funext a
  apply Fin.ext
  match a with
  | ⟨0, _⟩ => show win0_7.index t (0 : Fin 2) * 32 + 1 * (y 0).val = (y 0).val; omega
  | ⟨1, _⟩ => show win0_7.index t (1 : Fin 2) * 1 + 1 * (y 1).val = (y 1).val; omega

/-- Window 2's block is the first bias's row. -/
theorem blk2 (c : Dev nD) (t : Fin cfg0.N) (y : S1x32.Idx) :
    (iblk m c 2 t : Vec Ideal S1x32 .f32) y = shapeCast S1x32 (a2 m c) shapeCasts_S32_S1x32 y := by
  have hi := idx_facts t
  unfold iblk
  rw [View.read_apply]
  show (V m c main_v1 : S1x32.Idx → EReal) _ = _
  rw [V_v1]
  congr 1
  funext a
  apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- Window 4's block is the second bias's row. -/
theorem blk4 (c : Dev nD) (t : Fin cfg0.N) (y : S1x32.Idx) :
    (iblk m c 4 t : Vec Ideal S1x32 .f32) y = shapeCast S1x32 (a4 m c) shapeCasts_S32_S1x32 y := by
  have hi := idx_facts t
  unfold iblk
  rw [View.read_apply]
  show (V m c main_v2 : S1x32.Idx → EReal) _ = _
  rw [V_v2]
  congr 1
  funext a
  apply Fin.ext
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- Window 6's block is the third bias's row. -/
theorem blk6 (c : Dev nD) (t : Fin cfg0.N) (y : S1x32.Idx) :
    (iblk m c 6 t : Vec Ideal S1x32 .f32) y = shapeCast S1x32 (a6 m c) shapeCasts_S32_S1x32 y := by
  have hi := idx_facts t
  unfold iblk
  rw [View.read_apply]
  show (V m c main_v3 : S1x32.Idx → EReal) _ = _
  rw [V_v3]
  congr 1
  funext a
  apply Fin.ext
  match a with
  | ⟨0, _⟩ => show win0_6.index t (0 : Fin 2) * 1 + 1 * (y 0).val = (y 0).val; omega
  | ⟨1, _⟩ => show win0_6.index t (1 : Fin 2) * 32 + 1 * (y 1).val = (y 1).val; omega

/-- Window 8's block is the last bias as a 1 × 1 matrix. -/
theorem blk8 (c : Dev nD) (t : Fin cfg0.N) (y : S1x1.Idx) :
    (iblk m c 8 t : Vec Ideal S1x1 .f32) y = shapeCast S1x1 (a8 m c) shapeCasts_S1_S1x1 y := by
  have hi := idx_facts t
  unfold iblk
  rw [View.read_apply]
  show (V m c main_v4 : S1x1.Idx → EReal) _ = _
  rw [V_v4]
  congr 1
  funext a
  apply Fin.ext
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- Window 0's block at grid point t, read at lane l, is the padded array at position 4096·t + l. -/
theorem blk0 (c : Dev nD) (t : Fin cfg0.N) (l : Fin 4096) (n : Fin 1003520) (hn : n.val = 4096 * t.val + l.val) :
    (iblk m c 0 t : Vec Ideal S4096 .f32) (ix1 l)
      = pad S1003520 ![0] ![3520] ![0] (a0 m c) (sitofp (F := Ideal) .f32 (constantI S_ 32 0#32)) pads_S1000000_S1003520_035200 h_S_ (ix1 n) := by
  have hi := idx_facts t
  unfold iblk
  rw [View.read_apply]
  show (V m c main_v0 : S1003520.Idx → EReal) _ = _
  rw [V_v0]
  congr 1
  funext a
  apply Fin.ext
  match a with
  | ⟨0, _⟩ => show win0_0.index t (0 : Fin 1) * 4096 + 1 * l.val = n.val; omega

/-- The weight blocks at any grid point are the launch weights. -/
theorem wts_blocks (c : Dev nD) (t : Fin cfg0.N) :
    wtsOfBlocks (iblk m c 1 t) (iblk m c 2 t) (iblk m c 3 t) (iblk m c 4 t) (iblk m c 5 t) (iblk m c 6 t) (iblk m c 7 t) (iblk m c 8 t)
      = wtsOfMem m c := by
  unfold wtsOfBlocks wtsOfMem
  congr 1
  · funext j; exact blk1 m c t _
  · funext j; exact (blk2 m c t _).trans (row_apply _ j)
  · funext k j; exact blk3 m c t _
  · funext j; exact (blk4 m c t _).trans (row_apply _ j)
  · funext k j; exact blk5 m c t _
  · funext j; exact (blk6 m c t _).trans (row_apply _ j)
  · funext k; exact blk7 m c t _
  · exact (blk8 m c t _).trans (one_apply _)

/-- Lane l of tile t is point 4096·t + l of the padded points. -/
theorem tile_lane (c : Dev nD) (t : Fin cfg0.N) (l : Fin 4096) :
    (iblk m c 0 t : Vec Ideal S4096 .f32) (ix1 l) = padPts m c (4096 * t.val + l.val) := by
  have ht : t.val < 245 := t.isLt
  have hl : l.val < 4096 := l.isLt
  exact (blk0 m c t l ⟨4096 * t.val + l.val, by omega⟩ rfl).trans (padded_apply m c _)

end Cert.KernelIdeal.KVal

end
-- ==== Proof.KAccum.lean ====
/-
  The accumulation across the grid. After the body at point n the accumulator holds the sum of the tile sums of tiles
  0 … n: the first point starts from the zero block, every later point adds its tile to what the point before left. The
  output window is written back once, after the last point, with the accumulator's copy; so the output array ends at the
  sum of all 245 tile sums, which is the sum of the squared residuals over the 1,000,000 points.
-/
import proofs.«131202_j3839700763115_1_alg».proof.Proof.Gen.KernelIdeal.Frame
import proofs.«131202_j3839700763115_1_alg».proof.Proof.KVal
import proofs.«131202_j3839700763115_1_alg».proof.Proof.KPieces
import proofs.«131202_j3839700763115_1_alg».proof.Proof.KBlocks
import proofs.«131202_j3839700763115_1_alg».proof.Proof.Tiles
import Idealize.ShloMosaic.Lib.Pipeline.Value
import Idealize.ShloMosaic.Lib.ValueIdx

open scoped BigOperators

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The tile sum of tile s of the padded points at the launch weights. -/
abbrev tileAt (c : Dev nD) (s : ℕ) : EReal :=
  Cert.Pinn.tileSum (wtsOfMem m c) s (fun l => padPts m c (4096 * s + l.val))

/-- The one grid axis: point t sits at coordinate t. -/
theorem coord_val (t : Fin cfg0.N) : ((grid0.coords t) 0).val = t.val :=
  (by decide +kernel : ∀ t : Fin grid0.N, ((grid0.coords t) 0).val = t.val) t

theorem lt_245 (t : Fin cfg0.N) : t.val < 245 := lt_of_lt_of_eq t.isLt (show cfg0.N = 245 from N_0)

/-- The body's value at tile t over an accumulator, for blocks holding the launch weights and the tile's padded points: the
    accumulator plus the tile's sum. -/
theorem body_gen (c : Dev nD) (t k : ℕ) (hk : k = t) (ht : t < 245) (x0 : Vec Ideal S4096 .f32) (x1 x2 : Vec Ideal S1x32 .f32) (x3 : Vec Ideal S32x32 .f32)
    (x4 : Vec Ideal S1x32 .f32) (x5 : Vec Ideal S32x32 .f32) (x6 : Vec Ideal S1x32 .f32) (x7 : Vec Ideal S32x1 .f32) (x8 : Vec Ideal S1x1 .f32)
    (hw : wtsOfBlocks x1 x2 x3 x4 x5 x6 x7 x8 = wtsOfMem m c) (hx : ∀ l : Fin 4096, x0 (ix1 l) = padPts m c (4096 * t + l.val))
    (acc : Vec Ideal S1x1 .f32) (y : S1x1.Idx) :
    bodyVal (F := Ideal) (BitVec.ofNat 32 k) x0 x1 x2 x3 x4 x5 x6 x7 x8 acc y
      = acc (ix2 (0 : Fin 1) (0 : Fin 1)) + tileAt m c t := by
  subst hk
  have hx' : (fun l : Fin 4096 => x0 (ix1 l)) = fun l => padPts m c (4096 * k + l.val) := funext hx
  rw [bodyVal_apply k ht x0 x1 x2 x3 x4 x5 x6 x7 x8 acc y, hw, hx']

/-- The same at grid point t, on the point's blocks. -/
theorem body_at (c : Dev nD) (t : Fin cfg0.N) (acc : Vec Ideal S1x1 .f32) (y : S1x1.Idx) :
    bodyVal (F := Ideal) (BitVec.ofNat 32 ((grid0.coords t) 0).val) (iblk m c 0 t) (iblk m c 1 t) (iblk m c 2 t) (iblk m c 3 t) (iblk m c 4 t) (iblk m c 5 t) (iblk m c 6 t) (iblk m c 7 t) (iblk m c 8 t) acc y
      = acc (ix2 (0 : Fin 1) (0 : Fin 1)) + tileAt m c t.val :=
  body_gen m c t.val _ (coord_val t) (lt_245 t) (iblk m c 0 t) (iblk m c 1 t) (iblk m c 2 t) (iblk m c 3 t) (iblk m c 4 t) (iblk m c 5 t) (iblk m c 6 t) (iblk m c 7 t) (iblk m c 8 t) (wts_blocks m c t) (tile_lane m c t) acc y

/-- The first point: the accumulator ends at tile 0's sum. -/
theorem acc_first (c : Dev nD) (t : Fin cfg0.N) (h0 : t.val % 245 = 0) (h1 : ¬t.val % 245 = 244) (y : S1x1.Idx) :
    (outsAt0 (F := Ideal) m c t.val t.isLt).2 y = tileAt m c t.val := by
  rw [outsAt0_A m c t h0 h1]
  dsimp only
  rw [sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)]
  rw [body_at m c t (k0_pay2 (F := Ideal)) y, pay2_apply, zero_add]

/-- A middle point: the accumulator ends at what the point before left plus this tile's sum. -/
theorem acc_mid (c : Dev nD) (t : Fin cfg0.N) (h0 : ¬t.val % 245 = 0) (h1 : ¬t.val % 245 = 244) (y : S1x1.Idx) :
    (outsAt0 (F := Ideal) m c t.val t.isLt).2 y
      = (outsAt0 (F := Ideal) m c (t.val - 1) (Nat.lt_of_le_of_lt (Nat.sub_le _ _) t.isLt)).2 (ix2 (0 : Fin 1) (0 : Fin 1)) + tileAt m c t.val := by
  rw [outsAt0_B m c t h0 h1]
  dsimp only
  rw [sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 (F := Ideal) m c (t.val - 1) (Nat.lt_of_le_of_lt (Nat.sub_le _ _) t.isLt)).2]
  exact body_at m c t _ y

/-- The last point: the same for the accumulator, -/
theorem acc_end (c : Dev nD) (t : Fin cfg0.N) (h0 : ¬t.val % 245 = 0) (h1 : t.val % 245 = 244) (y : S1x1.Idx) :
    (outsAt0 (F := Ideal) m c t.val t.isLt).2 y
      = (outsAt0 (F := Ideal) m c (t.val - 1) (Nat.lt_of_le_of_lt (Nat.sub_le _ _) t.isLt)).2 (ix2 (0 : Fin 1) (0 : Fin 1)) + tileAt m c t.val := by
  rw [outsAt0_C m c t h0 h1]
  dsimp only
  rw [sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 (F := Ideal) m c (t.val - 1) (Nat.lt_of_le_of_lt (Nat.sub_le _ _) t.isLt)).2]
  exact body_at m c t _ y

/-- and the output block holds the same value. -/
theorem out_end (c : Dev nD) (t : Fin cfg0.N) (h0 : ¬t.val % 245 = 0) (h1 : t.val % 245 = 244) (y : S1x1.Idx) :
    (outsAt0 (F := Ideal) m c t.val t.isLt).1 y
      = (outsAt0 (F := Ideal) m c (t.val - 1) (Nat.lt_of_le_of_lt (Nat.sub_le _ _) t.isLt)).2 (ix2 (0 : Fin 1) (0 : Fin 1)) + tileAt m c t.val := by
  rw [outsAt0_C m c t h0 h1]
  dsimp only
  rw [out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 (F := Ideal) m c (t.val - 1) (Nat.lt_of_le_of_lt (Nat.sub_le _ _) t.isLt)).2]
  exact body_at m c t _ y

/-- After the body at point n the accumulator holds the sum of the tile sums of tiles 0 … n. -/
theorem acc_at (c : Dev nD) (n : ℕ) (hn : n < cfg0.N) (y : S1x1.Idx) :
    (outsAt0 (F := Ideal) m c n hn).2 y = ∑ s ∈ Finset.range (n + 1), tileAt m c s := by
  induction n generalizing y with
  | zero =>
    rw [Finset.sum_range_one]
    exact acc_first m c ⟨0, hn⟩ rfl (by dsimp only; omega) y
  | succ n ih =>
    have hN : n + 1 < 245 := lt_of_lt_of_eq hn (show cfg0.N = 245 from N_0)
    rw [Finset.sum_range_succ, ← ih (Nat.lt_of_succ_lt hn) (ix2 (0 : Fin 1) (0 : Fin 1))]
    have h0 : ¬(⟨n + 1, hn⟩ : Fin cfg0.N).val % 245 = 0 := by dsimp only; omega
    by_cases h1 : (⟨n + 1, hn⟩ : Fin cfg0.N).val % 245 = 244
    · exact acc_end m c ⟨n + 1, hn⟩ h0 h1 y
    · exact acc_mid m c ⟨n + 1, hn⟩ h0 h1 y

/-- At a point of the last kind the output block and the accumulator agree, so the block holds the sum of the tile sums so
    far. -/
theorem out_at (c : Dev nD) (n : ℕ) (hn : n < cfg0.N) (h0 : ¬n % 245 = 0) (h1 : n % 245 = 244) (y : S1x1.Idx) :
    (outsAt0 (F := Ideal) m c n hn).1 y = ∑ s ∈ Finset.range (n + 1), tileAt m c s :=
  ((out_end m c ⟨n, hn⟩ h0 h1 y).trans (acc_end m c ⟨n, hn⟩ h0 h1 y).symm).trans (acc_at m c n hn y)

/-- At the last point the output block is the accumulator's copy. -/
theorem out_last (c : Dev nD) (hn : 244 < cfg0.N) (y : S1x1.Idx) :
    (outsAt0 (F := Ideal) m c 244 hn).1 y = ∑ s ∈ Finset.range 245, tileAt m c s :=
  out_at m c 244 hn (by decide) rfl y

/-- The last grid point. -/
abbrev tLast : Fin cfg0.N := ⟨244, by rw [show cfg0.N = 245 from N_0]; decide⟩

/-- A 1 × 1 shape has one index. -/
theorem idx_one (a b : S1x1.Idx) : a = b :=
  (eq_ix2 a).trans ((congrArg₂ (ix2 (n0 := 1) (n1 := 1)) (Subsingleton.elim _ _) (Subsingleton.elim _ _)).trans (eq_ix2 b).symm)

/-- The sum of all 245 tile sums, as contents of the 1 × 1 output array. -/
abbrev total (c : Dev nD) : Vec Ideal S1x1 .f32 := fun _ => ∑ s ∈ Finset.range 245, tileAt m c s

/-- What a write-back of the output window writes: only the last point writes back, and there every element of the block is
    the sum of all the tile sums. -/
theorem flushed_at (c : Dev nD) (t : Fin cfg0.N) (hf : (cfg0.win 9).flush t = true)
    (j : ((cfg0.win 9).xblock (cfg0.grid.coords t)).Idx) :
    (dats (F := Ideal) m 0 c).flushed 9 t j = ∑ s ∈ Finset.range 245, tileAt m c s := by
  have h1 : t.val % 245 = 244 := (flush0_9 t).mp hf
  have hlt := lt_245 t
  have h0 : ¬t.val % 245 = 0 := by omega
  have hv : t.val + 1 = 245 := by omega
  show (cfg0.win 9).cut (grid0.coords t) ((dats m 0 c).after 9 t) j = _
  rw [after0_9, ← hv]
  exact out_at m c t.val t.isLt h0 h1 _

theorem flushed_eq (c : Dev nD) (t : Fin cfg0.N) (hf : (cfg0.win 9).flush t = true) :
    (dats (F := Ideal) m 0 c).flushed 9 t = ((cfg0.win 9).blk t).view.read (Elt Ideal) (total m c) := by
  funext j
  rw [flushed_at m c t hf j, View.read_apply]
  exact (cast_eq _ _).symm

/-- The last point's block covers the 1 × 1 array. -/
theorem cover_last (c : Dev nD) (i : ((cfg0.win 9).arr.view.loc (c.tc : Thread nD τ)).2.ty.Idx) :
    ∃ t : Fin cfg0.N, (cfg0.win 9).flush t = true ∧ i ∈ ((cfg0.win 9).blk t).view.set :=
  ⟨tLast, (flush0_9 tLast).mpr rfl, by
    have hi : i = ((cfg0.win 9).blk tLast).view.emb (ix2 (0 : Fin 1) (0 : Fin 1)) := idx_one _ _
    rw [hi]; exact View.emb_mem_set _ _⟩

/-- The output array after the run: the sum of the squared residuals over the 1,000,000 points. -/
theorem out_final (c : Dev nD) (y : S1x1.Idx) :
    ((dats (F := Ideal) m 0 c).arrAt 9 cfg0.N : Vec Ideal S1x1 .f32) y = Cert.Pinn.kTotal (wtsOfMem m c) (ptsOfMem m c) :=
  (congrFun ((dats (F := Ideal) m 0 c).arrAt_eq_of_cover 9 (total m c) (flushed_eq m c) (cover_last c)) y).trans
    (Cert.Pinn.sum_tiles (wtsOfMem m c) (ptsOfMem m c))

end Cert.KernelIdeal.KVal

end
-- ==== Proof.RefOps.lean ====
import proofs.«131202_j3839700763115_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Chunk A of @main: 32 operations, in order. -/
abbrev opsA : List (HloOp τ sig (Elt F)) :=
  [ StableHlo.nullary main_cst (fun i => FloatOps.ofBits .f32 (lit0 (S2.rowMajor i))),
    StableHlo.nullary main_cst_0 (constant S_ .f32 0x3F800000#32),
    StableHlo.unary main_cst_0 main_v0 (broadcastInDim S1000000 ![] bcast_S_S1000000 : (⟨S_, .f32⟩ : BufTy).Contents (Elt F) → (⟨S1000000, .f32⟩ : BufTy).Contents (Elt F)),
    StableHlo.nullary main_cst_1 (constant S_ .f32 0x3F800000#32),
    StableHlo.unary main_cst_1 main_v1 (broadcastInDim S1000000 ![] bcast_S_S1000000 : (⟨S_, .f32⟩ : BufTy).Contents (Elt F) → (⟨S1000000, .f32⟩ : BufTy).Contents (Elt F)),
    StableHlo.unary main_arg0 main_v2 (broadcastInDim S1000000x1 ![0] bcast_S1000000_S1000000x1_0 : (⟨S1000000, .f32⟩ : BufTy).Contents (Elt F) → (⟨S1000000x1, .f32⟩ : BufTy).Contents (Elt F)),
    StableHlo.unary main_v0 main_v3 (broadcastInDim S1000000x1 ![0] bcast_S1000000_S1000000x1_0 : (⟨S1000000, .f32⟩ : BufTy).Contents (Elt F) → (⟨S1000000x1, .f32⟩ : BufTy).Contents (Elt F)),
    StableHlo.unary main_v1 main_v4 (broadcastInDim S1000000x1 ![0] bcast_S1000000_S1000000x1_0 : (⟨S1000000, .f32⟩ : BufTy).Contents (Elt F) → (⟨S1000000x1, .f32⟩ : BufTy).Contents (Elt F)),
    StableHlo.binary main_v2 main_arg1 main_v5 ((fun l r => Host.dotGeneral dot_S1000000x1_S1x32_S1000000x32_1_0_0_1_n_n none l r) : (⟨S1000000x1, .f32⟩ : BufTy).Contents (Elt F) → (⟨S1x32, .f32⟩ : BufTy).Contents (Elt F) → (⟨S1000000x32, .f32⟩ : BufTy).Contents (Elt F)),
    StableHlo.binary main_v3 main_arg1 main_v6 ((fun l r => Host.dotGeneral dot_S1000000x1_S1x32_S1000000x32_1_0_0_1_n_n none l r) : (⟨S1000000x1, .f32⟩ : BufTy).Contents (Elt F) → (⟨S1x32, .f32⟩ : BufTy).Contents (Elt F) → (⟨S1000000x32, .f32⟩ : BufTy).Contents (Elt F)),
    StableHlo.binary main_v4 main_arg1 main_v7 ((fun l r => Host.dotGeneral dot_S1000000x1_S1x32_S1000000x32_1_0_0_1_n_n none l r) : (⟨S1000000x1, .f32⟩ : BufTy).Contents (Elt F) → (⟨S1x32, .f32⟩ : BufTy).Contents (Elt F) → (⟨S1000000x32, .f32⟩ : BufTy).Contents (Elt F)),
    StableHlo.unary main_arg2 main_v8 (broadcastInDim S1x32 ![1] bcast_S32_S1x32_1 : (⟨S32, .f32⟩ : BufTy).Contents (Elt F) → (⟨S1x32, .f32⟩ : BufTy).Contents (Elt F)),
    StableHlo.unary main_v8 main_v9 (broadcastInDim S1000000x32 ![0, 1] bcast_S1x32_S1000000x32_0_1 : (⟨S1x32, .f32⟩ : BufTy).Contents (Elt F) → (⟨S1000000x32, .f32⟩ : BufTy).Contents (Elt F)),
    StableHlo.binary main_v5 main_v9 main_v10 (addf : (⟨S1000000x32, .f32⟩ : BufTy).Contents (Elt F) → (⟨S1000000x32, .f32⟩ : BufTy).Contents (Elt F) → (⟨S1000000x32, .f32⟩ : BufTy).Contents (Elt F)),
    StableHlo.unary main_v10 main_v11 (Host.tanh : (⟨S1000000x32, .f32⟩ : BufTy).Contents (Elt F) → (⟨S1000000x32, .f32⟩ : BufTy).Contents (Elt F)),
    StableHlo.binary main_v6 main_v11 main_v12 (mulf : (⟨S1000000x32, .f32⟩ : BufTy).Contents (Elt F) → (⟨S1000000x32, .f32⟩ : BufTy).Contents (Elt F) → (⟨S1000000x32, .f32⟩ : BufTy).Contents (Elt F)),
    StableHlo.binary main_v6 main_v12 main_v13 (addf : (⟨S1000000x32, .f32⟩ : BufTy).Contents (Elt F) → (⟨S1000000x32, .f32⟩ : BufTy).Contents (Elt F) → (⟨S1000000x32, .f32⟩ : BufTy).Contents (Elt F)),
    StableHlo.nullary main_cst_2 (constant S_ .f32 0x3F800000#32),
    StableHlo.unary main_cst_2 main_v14 (broadcastInDim S1000000x32 ![] bcast_S_S1000000x32 : (⟨S_, .f32⟩ : BufTy).Contents (Elt F) → (⟨S1000000x32, .f32⟩ : BufTy).Contents (Elt F)),
    StableHlo.binary main_v14 main_v11 main_v15 (subf : (⟨S1000000x32, .f32⟩ : BufTy).Contents (Elt F) → (⟨S1000000x32, .f32⟩ : BufTy).Contents (Elt F) → (⟨S1000000x32, .f32⟩ : BufTy).Contents (Elt F)),
    StableHlo.binary main_v13 main_v15 main_v16 (mulf : (⟨S1000000x32, .f32⟩ : BufTy).Contents (Elt F) → (⟨S1000000x32, .f32⟩ : BufTy).Contents (Elt F) → (⟨S1000000x32, .f32⟩ : BufTy).Contents (Elt F)),
    StableHlo.binary main_v7 main_v11 main_v17 (mulf : (⟨S1000000x32, .f32⟩ : BufTy).Contents (Elt F) → (⟨S1000000x32, .f32⟩ : BufTy).Contents (Elt F) → (⟨S1000000x32, .f32⟩ : BufTy).Contents (Elt F)),
    StableHlo.binary main_v7 main_v16 main_v18 (mulf : (⟨S1000000x32, .f32⟩ : BufTy).Contents (Elt F) → (⟨S1000000x32, .f32⟩ : BufTy).Contents (Elt F) → (⟨S1000000x32, .f32⟩ : BufTy).Contents (Elt F)),
    StableHlo.binary main_v7 main_v17 main_v19 (addf : (⟨S1000000x32, .f32⟩ : BufTy).Contents (Elt F) → (⟨S1000000x32, .f32⟩ : BufTy).Contents (Elt F) → (⟨S1000000x32, .f32⟩ : BufTy).Contents (Elt F)),
    StableHlo.nullary main_cst_3 (constant S_ .f32 0x3F800000#32),
    StableHlo.unary main_cst_3 main_v20 (broadcastInDim S1000000x32 ![] bcast_S_S1000000x32 : (⟨S_, .f32⟩ : BufTy).Contents (Elt F) → (⟨S1000000x32, .f32⟩ : BufTy).Contents (Elt F)),
    StableHlo.binary main_v20 main_v11 main_v21 (subf : (⟨S1000000x32, .f32⟩ : BufTy).Contents (Elt F) → (⟨S1000000x32, .f32⟩ : BufTy).Contents (Elt F) → (⟨S1000000x32, .f32⟩ : BufTy).Contents (Elt F)),
    StableHlo.unary main_v16 main_v22 (Host.negf : (⟨S1000000x32, .f32⟩ : BufTy).Contents (Elt F) → (⟨S1000000x32, .f32⟩ : BufTy).Contents (Elt F)),
    StableHlo.binary main_v19 main_v21 main_v23 (mulf : (⟨S1000000x32, .f32⟩ : BufTy).Contents (Elt F) → (⟨S1000000x32, .f32⟩ : BufTy).Contents (Elt F) → (⟨S1000000x32, .f32⟩ : BufTy).Contents (Elt F)),
    StableHlo.binary main_v18 main_v21 main_v24 (mulf : (⟨S1000000x32, .f32⟩ : BufTy).Contents (Elt F) → (⟨S1000000x32, .f32⟩ : BufTy).Contents (Elt F) → (⟨S1000000x32, .f32⟩ : BufTy).Contents (Elt F)),
    StableHlo.binary main_v19 main_v22 main_v25 (mulf : (⟨S1000000x32, .f32⟩ : BufTy).Contents (Elt F) → (⟨S1000000x32, .f32⟩ : BufTy).Contents (Elt F) → (⟨S1000000x32, .f32⟩ : BufTy).Contents (Elt F)),
    StableHlo.binary main_v24 main_v25 main_v26 (addf : (⟨S1000000x32, .f32⟩ : BufTy).Contents (Elt F) → (⟨S1000000x32, .f32⟩ : BufTy).Contents (Elt F) → (⟨S1000000x32, .f32⟩ : BufTy).Contents (Elt F)) ]

theorem opsA_sub : (opsA : List (HloOp τ sig (Elt F))).Forall fun op => op.bufs ⊆ tcRefs τ sig :=
  ⟨nullary_bufs_sub .., nullary_bufs_sub .., unary_bufs_sub .., nullary_bufs_sub .., unary_bufs_sub .., unary_bufs_sub .., unary_bufs_sub .., unary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub ..⟩

/-- Chunk B of @main: 28 operations, in order. -/
abbrev opsB : List (HloOp τ sig (Elt F)) :=
  [ StableHlo.binary main_v11 main_arg3 main_v27 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.binary main_v16 main_arg3 main_v28 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.binary main_v23 main_arg3 main_v29 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.binary main_v26 main_arg3 main_v30 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg4 main_v31 (broadcastInDim S1x32 ![1] bcast_S32_S1x32_1 : (⟨S32, .f32⟩ : BufTy).Contents (Elt F) → (⟨S1x32, .f32⟩ : BufTy).Contents (Elt F)),
    StableHlo.unary main_v31 main_v32 (broadcastInDim S1000000x32 ![0, 1] bcast_S1x32_S1000000x32_0_1 : (⟨S1x32, .f32⟩ : BufTy).Contents (Elt F) → (⟨S1000000x32, .f32⟩ : BufTy).Contents (Elt F)),
    StableHlo.binary main_v27 main_v32 main_v33 (addf : (⟨S1000000x32, .f32⟩ : BufTy).Contents (Elt F) → (⟨S1000000x32, .f32⟩ : BufTy).Contents (Elt F) → (⟨S1000000x32, .f32⟩ : BufTy).Contents (Elt F)),
    StableHlo.unary main_v33 main_v34 (Host.tanh : (⟨S1000000x32, .f32⟩ : BufTy).Contents (Elt F) → (⟨S1000000x32, .f32⟩ : BufTy).Contents (Elt F)),
    StableHlo.binary main_v28 main_v34 main_v35 (mulf : (⟨S1000000x32, .f32⟩ : BufTy).Contents (Elt F) → (⟨S1000000x32, .f32⟩ : BufTy).Contents (Elt F) → (⟨S1000000x32, .f32⟩ : BufTy).Contents (Elt F)),
    StableHlo.binary main_v28 main_v35 main_v36 (addf : (⟨S1000000x32, .f32⟩ : BufTy).Contents (Elt F) → (⟨S1000000x32, .f32⟩ : BufTy).Contents (Elt F) → (⟨S1000000x32, .f32⟩ : BufTy).Contents (Elt F)),
    StableHlo.nullary main_cst_4 (constant S_ .f32 0x3F800000#32),
    StableHlo.unary main_cst_4 main_v37 (broadcastInDim S1000000x32 ![] bcast_S_S1000000x32 : (⟨S_, .f32⟩ : BufTy).Contents (Elt F) → (⟨S1000000x32, .f32⟩ : BufTy).Contents (Elt F)),
    StableHlo.binary main_v37 main_v34 main_v38 (subf : (⟨S1000000x32, .f32⟩ : BufTy).Contents (Elt F) → (⟨S1000000x32, .f32⟩ : BufTy).Contents (Elt F) → (⟨S1000000x32, .f32⟩ : BufTy).Contents (Elt F)),
    StableHlo.binary main_v36 main_v38 main_v39 (mulf : (⟨S1000000x32, .f32⟩ : BufTy).Contents (Elt F) → (⟨S1000000x32, .f32⟩ : BufTy).Contents (Elt F) → (⟨S1000000x32, .f32⟩ : BufTy).Contents (Elt F)),
    StableHlo.binary main_v29 main_v34 main_v40 (mulf : (⟨S1000000x32, .f32⟩ : BufTy).Contents (Elt F) → (⟨S1000000x32, .f32⟩ : BufTy).Contents (Elt F) → (⟨S1000000x32, .f32⟩ : BufTy).Contents (Elt F)),
    StableHlo.binary main_v30 main_v34 main_v41 (mulf : (⟨S1000000x32, .f32⟩ : BufTy).Contents (Elt F) → (⟨S1000000x32, .f32⟩ : BufTy).Contents (Elt F) → (⟨S1000000x32, .f32⟩ : BufTy).Contents (Elt F)),
    StableHlo.binary main_v29 main_v39 main_v42 (mulf : (⟨S1000000x32, .f32⟩ : BufTy).Contents (Elt F) → (⟨S1000000x32, .f32⟩ : BufTy).Contents (Elt F) → (⟨S1000000x32, .f32⟩ : BufTy).Contents (Elt F)),
    StableHlo.binary main_v41 main_v42 main_v43 (addf : (⟨S1000000x32, .f32⟩ : BufTy).Contents (Elt F) → (⟨S1000000x32, .f32⟩ : BufTy).Contents (Elt F) → (⟨S1000000x32, .f32⟩ : BufTy).Contents (Elt F)),
    StableHlo.binary main_v29 main_v40 main_v44 (addf : (⟨S1000000x32, .f32⟩ : BufTy).Contents (Elt F) → (⟨S1000000x32, .f32⟩ : BufTy).Contents (Elt F) → (⟨S1000000x32, .f32⟩ : BufTy).Contents (Elt F)),
    StableHlo.binary main_v30 main_v43 main_v45 (addf : (⟨S1000000x32, .f32⟩ : BufTy).Contents (Elt F) → (⟨S1000000x32, .f32⟩ : BufTy).Contents (Elt F) → (⟨S1000000x32, .f32⟩ : BufTy).Contents (Elt F)),
    StableHlo.nullary main_cst_5 (constant S_ .f32 0x3F800000#32),
    StableHlo.unary main_cst_5 main_v46 (broadcastInDim S1000000x32 ![] bcast_S_S1000000x32 : (⟨S_, .f32⟩ : BufTy).Contents (Elt F) → (⟨S1000000x32, .f32⟩ : BufTy).Contents (Elt F)),
    StableHlo.binary main_v46 main_v34 main_v47 (subf : (⟨S1000000x32, .f32⟩ : BufTy).Contents (Elt F) → (⟨S1000000x32, .f32⟩ : BufTy).Contents (Elt F) → (⟨S1000000x32, .f32⟩ : BufTy).Contents (Elt F)),
    StableHlo.unary main_v39 main_v48 (Host.negf : (⟨S1000000x32, .f32⟩ : BufTy).Contents (Elt F) → (⟨S1000000x32, .f32⟩ : BufTy).Contents (Elt F)),
    StableHlo.binary main_v44 main_v47 main_v49 (mulf : (⟨S1000000x32, .f32⟩ : BufTy).Contents (Elt F) → (⟨S1000000x32, .f32⟩ : BufTy).Contents (Elt F) → (⟨S1000000x32, .f32⟩ : BufTy).Contents (Elt F)),
    StableHlo.binary main_v45 main_v47 main_v50 (mulf : (⟨S1000000x32, .f32⟩ : BufTy).Contents (Elt F) → (⟨S1000000x32, .f32⟩ : BufTy).Contents (Elt F) → (⟨S1000000x32, .f32⟩ : BufTy).Contents (Elt F)),
    StableHlo.binary main_v44 main_v48 main_v51 (mulf : (⟨S1000000x32, .f32⟩ : BufTy).Contents (Elt F) → (⟨S1000000x32, .f32⟩ : BufTy).Contents (Elt F) → (⟨S1000000x32, .f32⟩ : BufTy).Contents (Elt F)),
    StableHlo.binary main_v50 main_v51 main_v52 (addf : (⟨S1000000x32, .f32⟩ : BufTy).Contents (Elt F) → (⟨S1000000x32, .f32⟩ : BufTy).Contents (Elt F) → (⟨S1000000x32, .f32⟩ : BufTy).Contents (Elt F)) ]

theorem opsB_sub : (opsB : List (HloOp τ sig (Elt F))).Forall fun op => op.bufs ⊆ tcRefs τ sig :=
  ⟨binary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub ..⟩

/-- Chunk C of @main: 28 operations, in order. -/
abbrev opsC : List (HloOp τ sig (Elt F)) :=
  [ StableHlo.binary main_v34 main_arg5 main_v53 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.binary main_v39 main_arg5 main_v54 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.binary main_v49 main_arg5 main_v55 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.binary main_v52 main_arg5 main_v56 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg6 main_v57 (broadcastInDim S1x32 ![1] bcast_S32_S1x32_1 : (⟨S32, .f32⟩ : BufTy).Contents (Elt F) → (⟨S1x32, .f32⟩ : BufTy).Contents (Elt F)),
    StableHlo.unary main_v57 main_v58 (broadcastInDim S1000000x32 ![0, 1] bcast_S1x32_S1000000x32_0_1 : (⟨S1x32, .f32⟩ : BufTy).Contents (Elt F) → (⟨S1000000x32, .f32⟩ : BufTy).Contents (Elt F)),
    StableHlo.binary main_v53 main_v58 main_v59 (addf : (⟨S1000000x32, .f32⟩ : BufTy).Contents (Elt F) → (⟨S1000000x32, .f32⟩ : BufTy).Contents (Elt F) → (⟨S1000000x32, .f32⟩ : BufTy).Contents (Elt F)),
    StableHlo.unary main_v59 main_v60 (Host.tanh : (⟨S1000000x32, .f32⟩ : BufTy).Contents (Elt F) → (⟨S1000000x32, .f32⟩ : BufTy).Contents (Elt F)),
    StableHlo.binary main_v54 main_v60 main_v61 (mulf : (⟨S1000000x32, .f32⟩ : BufTy).Contents (Elt F) → (⟨S1000000x32, .f32⟩ : BufTy).Contents (Elt F) → (⟨S1000000x32, .f32⟩ : BufTy).Contents (Elt F)),
    StableHlo.binary main_v54 main_v61 main_v62 (addf : (⟨S1000000x32, .f32⟩ : BufTy).Contents (Elt F) → (⟨S1000000x32, .f32⟩ : BufTy).Contents (Elt F) → (⟨S1000000x32, .f32⟩ : BufTy).Contents (Elt F)),
    StableHlo.nullary main_cst_6 (constant S_ .f32 0x3F800000#32),
    StableHlo.unary main_cst_6 main_v63 (broadcastInDim S1000000x32 ![] bcast_S_S1000000x32 : (⟨S_, .f32⟩ : BufTy).Contents (Elt F) → (⟨S1000000x32, .f32⟩ : BufTy).Contents (Elt F)),
    StableHlo.binary main_v63 main_v60 main_v64 (subf : (⟨S1000000x32, .f32⟩ : BufTy).Contents (Elt F) → (⟨S1000000x32, .f32⟩ : BufTy).Contents (Elt F) → (⟨S1000000x32, .f32⟩ : BufTy).Contents (Elt F)),
    StableHlo.binary main_v62 main_v64 main_v65 (mulf : (⟨S1000000x32, .f32⟩ : BufTy).Contents (Elt F) → (⟨S1000000x32, .f32⟩ : BufTy).Contents (Elt F) → (⟨S1000000x32, .f32⟩ : BufTy).Contents (Elt F)),
    StableHlo.binary main_v55 main_v60 main_v66 (mulf : (⟨S1000000x32, .f32⟩ : BufTy).Contents (Elt F) → (⟨S1000000x32, .f32⟩ : BufTy).Contents (Elt F) → (⟨S1000000x32, .f32⟩ : BufTy).Contents (Elt F)),
    StableHlo.binary main_v56 main_v60 main_v67 (mulf : (⟨S1000000x32, .f32⟩ : BufTy).Contents (Elt F) → (⟨S1000000x32, .f32⟩ : BufTy).Contents (Elt F) → (⟨S1000000x32, .f32⟩ : BufTy).Contents (Elt F)),
    StableHlo.binary main_v55 main_v65 main_v68 (mulf : (⟨S1000000x32, .f32⟩ : BufTy).Contents (Elt F) → (⟨S1000000x32, .f32⟩ : BufTy).Contents (Elt F) → (⟨S1000000x32, .f32⟩ : BufTy).Contents (Elt F)),
    StableHlo.binary main_v67 main_v68 main_v69 (addf : (⟨S1000000x32, .f32⟩ : BufTy).Contents (Elt F) → (⟨S1000000x32, .f32⟩ : BufTy).Contents (Elt F) → (⟨S1000000x32, .f32⟩ : BufTy).Contents (Elt F)),
    StableHlo.binary main_v55 main_v66 main_v70 (addf : (⟨S1000000x32, .f32⟩ : BufTy).Contents (Elt F) → (⟨S1000000x32, .f32⟩ : BufTy).Contents (Elt F) → (⟨S1000000x32, .f32⟩ : BufTy).Contents (Elt F)),
    StableHlo.binary main_v56 main_v69 main_v71 (addf : (⟨S1000000x32, .f32⟩ : BufTy).Contents (Elt F) → (⟨S1000000x32, .f32⟩ : BufTy).Contents (Elt F) → (⟨S1000000x32, .f32⟩ : BufTy).Contents (Elt F)),
    StableHlo.nullary main_cst_7 (constant S_ .f32 0x3F800000#32),
    StableHlo.unary main_cst_7 main_v72 (broadcastInDim S1000000x32 ![] bcast_S_S1000000x32 : (⟨S_, .f32⟩ : BufTy).Contents (Elt F) → (⟨S1000000x32, .f32⟩ : BufTy).Contents (Elt F)),
    StableHlo.binary main_v72 main_v60 main_v73 (subf : (⟨S1000000x32, .f32⟩ : BufTy).Contents (Elt F) → (⟨S1000000x32, .f32⟩ : BufTy).Contents (Elt F) → (⟨S1000000x32, .f32⟩ : BufTy).Contents (Elt F)),
    StableHlo.unary main_v65 main_v74 (Host.negf : (⟨S1000000x32, .f32⟩ : BufTy).Contents (Elt F) → (⟨S1000000x32, .f32⟩ : BufTy).Contents (Elt F)),
    StableHlo.binary main_v70 main_v73 main_v75 (mulf : (⟨S1000000x32, .f32⟩ : BufTy).Contents (Elt F) → (⟨S1000000x32, .f32⟩ : BufTy).Contents (Elt F) → (⟨S1000000x32, .f32⟩ : BufTy).Contents (Elt F)),
    StableHlo.binary main_v71 main_v73 main_v76 (mulf : (⟨S1000000x32, .f32⟩ : BufTy).Contents (Elt F) → (⟨S1000000x32, .f32⟩ : BufTy).Contents (Elt F) → (⟨S1000000x32, .f32⟩ : BufTy).Contents (Elt F)),
    StableHlo.binary main_v70 main_v74 main_v77 (mulf : (⟨S1000000x32, .f32⟩ : BufTy).Contents (Elt F) → (⟨S1000000x32, .f32⟩ : BufTy).Contents (Elt F) → (⟨S1000000x32, .f32⟩ : BufTy).Contents (Elt F)),
    StableHlo.binary main_v76 main_v77 main_v78 (addf : (⟨S1000000x32, .f32⟩ : BufTy).Contents (Elt F) → (⟨S1000000x32, .f32⟩ : BufTy).Contents (Elt F) → (⟨S1000000x32, .f32⟩ : BufTy).Contents (Elt F)) ]

theorem opsC_sub : (opsC : List (HloOp τ sig (Elt F))).Forall fun op => op.bufs ⊆ tcRefs τ sig :=
  ⟨binary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub ..⟩

/-- Chunk D of @main: 37 operations, in order. -/
abbrev opsD : List (HloOp τ sig (Elt F)) :=
  [ StableHlo.binary main_v60 main_arg7 main_v79 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    StableHlo.binary main_v65 main_arg7 main_v80 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    StableHlo.binary main_v75 main_arg7 main_v81 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    StableHlo.binary main_v78 main_arg7 main_v82 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    StableHlo.unary main_arg8 main_v83 (broadcastInDim S1x1 ![1] bcast_S1_S1x1_1 : (⟨S1, .f32⟩ : BufTy).Contents (Elt F) → (⟨S1x1, .f32⟩ : BufTy).Contents (Elt F)),
    StableHlo.unary main_v83 main_v84 (broadcastInDim S1000000x1 ![0, 1] bcast_S1x1_S1000000x1_0_1 : (⟨S1x1, .f32⟩ : BufTy).Contents (Elt F) → (⟨S1000000x1, .f32⟩ : BufTy).Contents (Elt F)),
    StableHlo.binary main_v79 main_v84 main_v85 (addf : (⟨S1000000x1, .f32⟩ : BufTy).Contents (Elt F) → (⟨S1000000x1, .f32⟩ : BufTy).Contents (Elt F) → (⟨S1000000x1, .f32⟩ : BufTy).Contents (Elt F)),
    StableHlo.unary main_v85 main_v86 (Host.tanh : (⟨S1000000x1, .f32⟩ : BufTy).Contents (Elt F) → (⟨S1000000x1, .f32⟩ : BufTy).Contents (Elt F)),
    StableHlo.binary main_v80 main_v86 main_v87 (mulf : (⟨S1000000x1, .f32⟩ : BufTy).Contents (Elt F) → (⟨S1000000x1, .f32⟩ : BufTy).Contents (Elt F) → (⟨S1000000x1, .f32⟩ : BufTy).Contents (Elt F)),
    StableHlo.binary main_v80 main_v87 main_v88 (addf : (⟨S1000000x1, .f32⟩ : BufTy).Contents (Elt F) → (⟨S1000000x1, .f32⟩ : BufTy).Contents (Elt F) → (⟨S1000000x1, .f32⟩ : BufTy).Contents (Elt F)),
    StableHlo.nullary main_cst_8 (constant S_ .f32 0x3F800000#32),
    StableHlo.unary main_cst_8 main_v89 (broadcastInDim S1000000x1 ![] bcast_S_S1000000x1 : (⟨S_, .f32⟩ : BufTy).Contents (Elt F) → (⟨S1000000x1, .f32⟩ : BufTy).Contents (Elt F)),
    StableHlo.binary main_v89 main_v86 main_v90 (subf : (⟨S1000000x1, .f32⟩ : BufTy).Contents (Elt F) → (⟨S1000000x1, .f32⟩ : BufTy).Contents (Elt F) → (⟨S1000000x1, .f32⟩ : BufTy).Contents (Elt F)),
    StableHlo.binary main_v88 main_v90 main_v91 (mulf : (⟨S1000000x1, .f32⟩ : BufTy).Contents (Elt F) → (⟨S1000000x1, .f32⟩ : BufTy).Contents (Elt F) → (⟨S1000000x1, .f32⟩ : BufTy).Contents (Elt F)),
    StableHlo.binary main_v81 main_v86 main_v92 (mulf : (⟨S1000000x1, .f32⟩ : BufTy).Contents (Elt F) → (⟨S1000000x1, .f32⟩ : BufTy).Contents (Elt F) → (⟨S1000000x1, .f32⟩ : BufTy).Contents (Elt F)),
    StableHlo.binary main_v82 main_v86 main_v93 (mulf : (⟨S1000000x1, .f32⟩ : BufTy).Contents (Elt F) → (⟨S1000000x1, .f32⟩ : BufTy).Contents (Elt F) → (⟨S1000000x1, .f32⟩ : BufTy).Contents (Elt F)),
    StableHlo.binary main_v81 main_v91 main_v94 (mulf : (⟨S1000000x1, .f32⟩ : BufTy).Contents (Elt F) → (⟨S1000000x1, .f32⟩ : BufTy).Contents (Elt F) → (⟨S1000000x1, .f32⟩ : BufTy).Contents (Elt F)),
    StableHlo.binary main_v93 main_v94 main_v95 (addf : (⟨S1000000x1, .f32⟩ : BufTy).Contents (Elt F) → (⟨S1000000x1, .f32⟩ : BufTy).Contents (Elt F) → (⟨S1000000x1, .f32⟩ : BufTy).Contents (Elt F)),
    StableHlo.binary main_v81 main_v92 main_v96 (addf : (⟨S1000000x1, .f32⟩ : BufTy).Contents (Elt F) → (⟨S1000000x1, .f32⟩ : BufTy).Contents (Elt F) → (⟨S1000000x1, .f32⟩ : BufTy).Contents (Elt F)),
    StableHlo.binary main_v82 main_v95 main_v97 (addf : (⟨S1000000x1, .f32⟩ : BufTy).Contents (Elt F) → (⟨S1000000x1, .f32⟩ : BufTy).Contents (Elt F) → (⟨S1000000x1, .f32⟩ : BufTy).Contents (Elt F)),
    StableHlo.nullary main_cst_9 (constant S_ .f32 0x3F800000#32),
    StableHlo.unary main_cst_9 main_v98 (broadcastInDim S1000000x1 ![] bcast_S_S1000000x1 : (⟨S_, .f32⟩ : BufTy).Contents (Elt F) → (⟨S1000000x1, .f32⟩ : BufTy).Contents (Elt F)),
    StableHlo.binary main_v98 main_v86 main_v99 (subf : (⟨S1000000x1, .f32⟩ : BufTy).Contents (Elt F) → (⟨S1000000x1, .f32⟩ : BufTy).Contents (Elt F) → (⟨S1000000x1, .f32⟩ : BufTy).Contents (Elt F)),
    StableHlo.unary main_v91 main_v100 (Host.negf : (⟨S1000000x1, .f32⟩ : BufTy).Contents (Elt F) → (⟨S1000000x1, .f32⟩ : BufTy).Contents (Elt F)),
    StableHlo.binary main_v96 main_v99 main_v101 (mulf : (⟨S1000000x1, .f32⟩ : BufTy).Contents (Elt F) → (⟨S1000000x1, .f32⟩ : BufTy).Contents (Elt F) → (⟨S1000000x1, .f32⟩ : BufTy).Contents (Elt F)),
    StableHlo.binary main_v97 main_v99 main_v102 (mulf : (⟨S1000000x1, .f32⟩ : BufTy).Contents (Elt F) → (⟨S1000000x1, .f32⟩ : BufTy).Contents (Elt F) → (⟨S1000000x1, .f32⟩ : BufTy).Contents (Elt F)),
    StableHlo.binary main_v96 main_v100 main_v103 (mulf : (⟨S1000000x1, .f32⟩ : BufTy).Contents (Elt F) → (⟨S1000000x1, .f32⟩ : BufTy).Contents (Elt F) → (⟨S1000000x1, .f32⟩ : BufTy).Contents (Elt F)),
    StableHlo.binary main_v102 main_v103 main_v104 (addf : (⟨S1000000x1, .f32⟩ : BufTy).Contents (Elt F) → (⟨S1000000x1, .f32⟩ : BufTy).Contents (Elt F) → (⟨S1000000x1, .f32⟩ : BufTy).Contents (Elt F)),
    StableHlo.reshape main_v86 main_v105 rfl shapeCasts_S1000000x1_S1000000,
    StableHlo.reshape main_v91 main_v106 rfl shapeCasts_S1000000x1_S1000000,
    StableHlo.reshape main_v101 main_v107 rfl shapeCasts_S1000000x1_S1000000,
    StableHlo.reshape main_v104 main_v108 rfl shapeCasts_S1000000x1_S1000000,
    StableHlo.unary main_arg0 main_v109 (Host.sin : (⟨S1000000, .f32⟩ : BufTy).Contents (Elt F) → (⟨S1000000, .f32⟩ : BufTy).Contents (Elt F)),
    StableHlo.binary main_v108 main_v109 main_v110 (subf : (⟨S1000000, .f32⟩ : BufTy).Contents (Elt F) → (⟨S1000000, .f32⟩ : BufTy).Contents (Elt F) → (⟨S1000000, .f32⟩ : BufTy).Contents (Elt F)),
    StableHlo.binary main_v110 main_v110 main_v111 (mulf : (⟨S1000000, .f32⟩ : BufTy).Contents (Elt F) → (⟨S1000000, .f32⟩ : BufTy).Contents (Elt F) → (⟨S1000000, .f32⟩ : BufTy).Contents (Elt F)),
    StableHlo.nullary main_cst_10 (constant S_ .f32 0x00000000#32),
    StableHlo.binary main_v111 main_cst_10 main_v112 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)) ]

theorem opsD_sub : (opsD : List (HloOp τ sig (Elt F))).Forall fun op => op.bufs ⊆ tcRefs τ sig :=
  ⟨binary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub .., reshape_bufs_sub .., reshape_bufs_sub .., reshape_bufs_sub .., reshape_bufs_sub .., unary_bufs_sub .., binary_bufs_sub .., binary_bufs_sub .., nullary_bufs_sub .., binary_bufs_sub ..⟩

/-- Chunk E of @main: 32 operations, in order. -/
abbrev opsE : List (HloOp τ sig (Elt F)) :=
  [ StableHlo.nullary main_cst_11 (constant S_ .f32 0x49742400#32),
    StableHlo.binary main_v112 main_cst_11 main_v113 (Host.divf : (⟨S_, .f32⟩ : BufTy).Contents (Elt F) → (⟨S_, .f32⟩ : BufTy).Contents (Elt F) → (⟨S_, .f32⟩ : BufTy).Contents (Elt F)),
    StableHlo.unary main_cst main_v114 (broadcastInDim S2x1 ![0] bcast_S2_S2x1_0 : (⟨S2, .f32⟩ : BufTy).Contents (Elt F) → (⟨S2x1, .f32⟩ : BufTy).Contents (Elt F)),
    StableHlo.binary main_v114 main_arg1 main_v115 ((fun l r => Host.dotGeneral dot_S2x1_S1x32_S2x32_1_0_0_1_n_n none l r) : (⟨S2x1, .f32⟩ : BufTy).Contents (Elt F) → (⟨S1x32, .f32⟩ : BufTy).Contents (Elt F) → (⟨S2x32, .f32⟩ : BufTy).Contents (Elt F)),
    StableHlo.unary main_arg2 main_v116 (broadcastInDim S1x32 ![1] bcast_S32_S1x32_1 : (⟨S32, .f32⟩ : BufTy).Contents (Elt F) → (⟨S1x32, .f32⟩ : BufTy).Contents (Elt F)),
    StableHlo.unary main_v116 main_v117 (broadcastInDim S2x32 ![0, 1] bcast_S1x32_S2x32_0_1 : (⟨S1x32, .f32⟩ : BufTy).Contents (Elt F) → (⟨S2x32, .f32⟩ : BufTy).Contents (Elt F)),
    StableHlo.binary main_v115 main_v117 main_v118 (addf : (⟨S2x32, .f32⟩ : BufTy).Contents (Elt F) → (⟨S2x32, .f32⟩ : BufTy).Contents (Elt F) → (⟨S2x32, .f32⟩ : BufTy).Contents (Elt F)),
    StableHlo.unary main_v118 main_v119 (Host.tanh : (⟨S2x32, .f32⟩ : BufTy).Contents (Elt F) → (⟨S2x32, .f32⟩ : BufTy).Contents (Elt F)),
    StableHlo.binary main_v119 main_arg3 main_v120 ((fun l r => Host.dotGeneral dot_S2x32_S32x32_S2x32_1_0_0_1_n_n none l r) : (⟨S2x32, .f32⟩ : BufTy).Contents (Elt F) → (⟨S32x32, .f32⟩ : BufTy).Contents (Elt F) → (⟨S2x32, .f32⟩ : BufTy).Contents (Elt F)),
    StableHlo.unary main_arg4 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S2x32 ![0, 1] bcast_S1x32_S2x32_0_1 : (⟨S1x32, .f32⟩ : BufTy).Contents (Elt F) → (⟨S2x32, .f32⟩ : BufTy).Contents (Elt F)),
    StableHlo.binary main_v120 main_v122 main_v123 (addf : (⟨S2x32, .f32⟩ : BufTy).Contents (Elt F) → (⟨S2x32, .f32⟩ : BufTy).Contents (Elt F) → (⟨S2x32, .f32⟩ : BufTy).Contents (Elt F)),
    StableHlo.unary main_v123 main_v124 (Host.tanh : (⟨S2x32, .f32⟩ : BufTy).Contents (Elt F) → (⟨S2x32, .f32⟩ : BufTy).Contents (Elt F)),
    StableHlo.binary main_v124 main_arg5 main_v125 ((fun l r => Host.dotGeneral dot_S2x32_S32x32_S2x32_1_0_0_1_n_n none l r) : (⟨S2x32, .f32⟩ : BufTy).Contents (Elt F) → (⟨S32x32, .f32⟩ : BufTy).Contents (Elt F) → (⟨S2x32, .f32⟩ : BufTy).Contents (Elt F)),
    StableHlo.unary main_arg6 main_v126 (broadcastInDim S1x32 ![1] bcast_S32_S1x32_1 : (⟨S32, .f32⟩ : BufTy).Contents (Elt F) → (⟨S1x32, .f32⟩ : BufTy).Contents (Elt F)),
    StableHlo.unary main_v126 main_v127 (broadcastInDim S2x32 ![0, 1] bcast_S1x32_S2x32_0_1 : (⟨S1x32, .f32⟩ : BufTy).Contents (Elt F) → (⟨S2x32, .f32⟩ : BufTy).Contents (Elt F)),
    StableHlo.binary main_v125 main_v127 main_v128 (addf : (⟨S2x32, .f32⟩ : BufTy).Contents (Elt F) → (⟨S2x32, .f32⟩ : BufTy).Contents (Elt F) → (⟨S2x32, .f32⟩ : BufTy).Contents (Elt F)),
    StableHlo.unary main_v128 main_v129 (Host.tanh : (⟨S2x32, .f32⟩ : BufTy).Contents (Elt F) → (⟨S2x32, .f32⟩ : BufTy).Contents (Elt F)),
    StableHlo.binary main_v129 main_arg7 main_v130 ((fun l r => Host.dotGeneral dot_S2x32_S32x1_S2x1_1_0_0_1_n_n none l r) : (⟨S2x32, .f32⟩ : BufTy).Contents (Elt F) → (⟨S32x1, .f32⟩ : BufTy).Contents (Elt F) → (⟨S2x1, .f32⟩ : BufTy).Contents (Elt F)),
    StableHlo.unary main_arg8 main_v131 (broadcastInDim S1x1 ![1] bcast_S1_S1x1_1 : (⟨S1, .f32⟩ : BufTy).Contents (Elt F) → (⟨S1x1, .f32⟩ : BufTy).Contents (Elt F)),
    StableHlo.unary main_v131 main_v132 (broadcastInDim S2x1 ![0, 1] bcast_S1x1_S2x1_0_1 : (⟨S1x1, .f32⟩ : BufTy).Contents (Elt F) → (⟨S2x1, .f32⟩ : BufTy).Contents (Elt F)),
    StableHlo.binary main_v130 main_v132 main_v133 (addf : (⟨S2x1, .f32⟩ : BufTy).Contents (Elt F) → (⟨S2x1, .f32⟩ : BufTy).Contents (Elt F) → (⟨S2x1, .f32⟩ : BufTy).Contents (Elt F)),
    StableHlo.unary main_v133 main_v134 (Host.tanh : (⟨S2x1, .f32⟩ : BufTy).Contents (Elt F) → (⟨S2x1, .f32⟩ : BufTy).Contents (Elt F)),
    StableHlo.reshape main_v134 main_v135 rfl shapeCasts_S2x1_S2,
    StableHlo.unary main_v135 main_v136 ((extractStridedSlice S1 ![0] · slices_S2_S1_0) : (⟨S2, .f32⟩ : BufTy).Contents (Elt F) → (⟨S1, .f32⟩ : BufTy).Contents (Elt F)),
    StableHlo.reshape main_v136 main_v137 rfl shapeCasts_S1_S_,
    StableHlo.binary main_v137 main_v137 main_v138 (mulf : (⟨S_, .f32⟩ : BufTy).Contents (Elt F) → (⟨S_, .f32⟩ : BufTy).Contents (Elt F) → (⟨S_, .f32⟩ : BufTy).Contents (Elt F)),
    StableHlo.binary main_v113 main_v138 main_v139 (addf : (⟨S_, .f32⟩ : BufTy).Contents (Elt F) → (⟨S_, .f32⟩ : BufTy).Contents (Elt F) → (⟨S_, .f32⟩ : BufTy).Contents (Elt F)),
    StableHlo.unary main_v135 main_v140 ((extractStridedSlice S1 ![1] · slices_S2_S1_1) : (⟨S2, .f32⟩ : BufTy).Contents (Elt F) → (⟨S1, .f32⟩ : BufTy).Contents (Elt F)),
    StableHlo.reshape main_v140 main_v141 rfl shapeCasts_S1_S_,
    StableHlo.binary main_v141 main_v141 main_v142 (mulf : (⟨S_, .f32⟩ : BufTy).Contents (Elt F) → (⟨S_, .f32⟩ : BufTy).Contents (Elt F) → (⟨S_, .f32⟩ : BufTy).Contents (Elt F)),
    StableHlo.binary main_v139 main_v142 main_v143 (addf : (⟨S_, .f32⟩ : BufTy).Contents (Elt F) → (⟨S_, .f32⟩ : BufTy).Contents (Elt F) → (⟨S_, .f32⟩ : BufTy).Contents (Elt F)) ]

theorem opsE_sub : (opsE : List (HloOp τ sig (Elt F))).Forall fun op => op.bufs ⊆ tcRefs τ sig :=
  ⟨nullary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., reshape_bufs_sub .., unary_bufs_sub .., reshape_bufs_sub .., binary_bufs_sub .., binary_bufs_sub .., unary_bufs_sub .., reshape_bufs_sub .., binary_bufs_sub .., binary_bufs_sub ..⟩

/-- @main's operations, in order: the chunks one after the other. -/
abbrev ops : List (HloOp τ sig (Elt F)) := opsA ++ opsB ++ opsC ++ opsD ++ opsE

end Cert.ReferenceIdeal.RefRun

end
-- ==== Proof.Tail.lean ====
/-
  The part both programs share after the sum of squared residuals. From the error sum s (a scalar array), the two-point
  table [π, 0] and the eight weights, both programs compute s / 1e6 + u(π)² + u(0)², where u is the network's forward pass
  (four tanh layers) on the two boundary points — by the same host operations in the same order. The function is written
  once, as those operations composed, and is never opened: each program's tail is shown to BE this function of its own
  buffers, and equal arguments then give equal results.
-/
import proofs.«131202_j3839700763115_1_alg».proof.Proof.Gen.KernelIdeal.Launch
import proofs.«131202_j3839700763115_1_alg».proof.Proof.RefOps
import Idealize.ShloMosaic.Lib.StableHlo.Run
import Idealize.ShloMosaic.PureOps.Ideal

noncomputable section

namespace Cert.KernelIdeal.Tail

open Cert.KernelIdeal Cert.KernelIdeal.Gen Idealize.ShloMosaic Idealize.ShloMosaic.TcCoe Idealize.SL.Sem Idealize.ShloMosaic.StableHlo

/-- The two boundary points π and 0, as both programs' constant holds them. -/
abbrev table : FVec Ideal S2 .f32 := fun i => FloatOps.ofBits (F := Ideal) .f32 (lit0 (S2.rowMajor i))

/-- The shared tail: s / 1e6 + u(π)² + u(0)² as the host operations compose it. -/
def tailFn (cst : FVec Ideal S2 .f32) (a1 : FVec Ideal S1x32 .f32) (a2 : FVec Ideal S32 .f32) (a3 : FVec Ideal S32x32 .f32)
    (a4 : FVec Ideal S32 .f32) (a5 : FVec Ideal S32x32 .f32) (a6 : FVec Ideal S32 .f32) (a7 : FVec Ideal S32x1 .f32)
    (a8 : FVec Ideal S1 .f32) (s : FVec Ideal S_ .f32) : FVec Ideal S_ .f32 :=
  let v7 : FVec Ideal S_ .f32 := Host.divf s (constant (F := Ideal) S_ .f32 0x49742400#32)
  let v8 : FVec Ideal S2x1 .f32 := broadcastInDim S2x1 ![0] bcast_S2_S2x1_0 cst
  let v9 : FVec Ideal S2x32 .f32 := Host.dotGeneral dot_S2x1_S1x32_S2x32_1_0_0_1_n_n none v8 a1
  let v11 : FVec Ideal S2x32 .f32 := broadcastInDim S2x32 ![0, 1] bcast_S1x32_S2x32_0_1 (broadcastInDim S1x32 ![1] bcast_S32_S1x32_1 a2)
  let v13 : FVec Ideal S2x32 .f32 := Host.tanh (addf v9 v11)
  let v14 : FVec Ideal S2x32 .f32 := Host.dotGeneral dot_S2x32_S32x32_S2x32_1_0_0_1_n_n none v13 a3
  let v16 : FVec Ideal S2x32 .f32 := broadcastInDim S2x32 ![0, 1] bcast_S1x32_S2x32_0_1 (broadcastInDim S1x32 ![1] bcast_S32_S1x32_1 a4)
  let v18 : FVec Ideal S2x32 .f32 := Host.tanh (addf v14 v16)
  let v19 : FVec Ideal S2x32 .f32 := Host.dotGeneral dot_S2x32_S32x32_S2x32_1_0_0_1_n_n none v18 a5
  let v21 : FVec Ideal S2x32 .f32 := broadcastInDim S2x32 ![0, 1] bcast_S1x32_S2x32_0_1 (broadcastInDim S1x32 ![1] bcast_S32_S1x32_1 a6)
  let v23 : FVec Ideal S2x32 .f32 := Host.tanh (addf v19 v21)
  let v24 : FVec Ideal S2x1 .f32 := Host.dotGeneral dot_S2x32_S32x1_S2x1_1_0_0_1_n_n none v23 a7
  let v26 : FVec Ideal S2x1 .f32 := broadcastInDim S2x1 ![0, 1] bcast_S1x1_S2x1_0_1 (broadcastInDim S1x1 ![1] bcast_S1_S1x1_1 a8)
  let v28 : FVec Ideal S2x1 .f32 := Host.tanh (addf v24 v26)
  let v29 : FVec Ideal S2 .f32 := shapeCast S2 v28 shapeCasts_S2x1_S2
  let v31 : FVec Ideal S_ .f32 := shapeCast S_ (extractStridedSlice S1 ![0] v29 slices_S2_S1_0) shapeCasts_S1_S_
  let v33 : FVec Ideal S_ .f32 := addf v7 (mulf v31 v31)
  let v35 : FVec Ideal S_ .f32 := shapeCast S_ (extractStridedSlice S1 ![1] v29 slices_S2_S1_1) shapeCasts_S1_S_
  addf v33 (mulf v35 v35)

/-- The kernel program's host operations after the region leave the shared tail of the output block's scalar. -/
theorem kernel_tail (W : Valuation τ sig (Elt Ideal)) :
    (after (hostOps1 (F := Ideal)) W (Proc.devRef .tc main_v37) : FVec Ideal S_ .f32)
      = tailFn (W (Proc.devRef .tc main_cst)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8))
          (shapeCast S_ (W (Proc.devRef .tc main_v5) : FVec Ideal S1x1 .f32) shapeCasts_S1x1_S_) := by
  after_results_simp
  rfl

/-- The reference's last 32 operations leave the same function of its own buffers: its error sum, its table and its
    weights. (The two programs name the same shapes, dimension records and shape facts each in its own namespace; they are
    the same terms.) -/
theorem ref_tail (W : Valuation Cert.ReferenceIdeal.τ Cert.ReferenceIdeal.sig (Elt Ideal)) :
    (after (Cert.ReferenceIdeal.RefRun.opsE (F := Ideal)) W (Proc.devRef .tc Cert.ReferenceIdeal.main_v143) : FVec Ideal S_ .f32)
      = tailFn (W (Proc.devRef .tc Cert.ReferenceIdeal.main_cst)) (W (Proc.devRef .tc Cert.ReferenceIdeal.main_arg1))
          (W (Proc.devRef .tc Cert.ReferenceIdeal.main_arg2)) (W (Proc.devRef .tc Cert.ReferenceIdeal.main_arg3))
          (W (Proc.devRef .tc Cert.ReferenceIdeal.main_arg4)) (W (Proc.devRef .tc Cert.ReferenceIdeal.main_arg5))
          (W (Proc.devRef .tc Cert.ReferenceIdeal.main_arg6)) (W (Proc.devRef .tc Cert.ReferenceIdeal.main_arg7))
          (W (Proc.devRef .tc Cert.ReferenceIdeal.main_arg8)) (W (Proc.devRef .tc Cert.ReferenceIdeal.main_v112)) := by
  after_results_simp
  rfl

end Cert.KernelIdeal.Tail

end
-- ==== Proof.KRun.lean ====
/-
  The kernel program's run, as a value. Every weakly fair execution terminates; the result buffer ends at the shared tail
  of the total of the squared residuals (of the launch's points at the launch's weights), and the arguments end as
  launched. The frame run supplies the termination and each array after the run; the output array is the total
  (the accumulation across the grid), the host operations after the region are the shared tail, and the weights and the
  table reach the tail unchanged.
-/
import proofs.«131202_j3839700763115_1_alg».proof.Proof.Gen.KernelIdeal.Frame
import proofs.«131202_j3839700763115_1_alg».proof.Proof.KAccum
import proofs.«131202_j3839700763115_1_alg».proof.Proof.Tail
import Idealize.ShloMosaic.Lib.Pipeline.Value
import Idealize.ShloMosaic.Lib.StableHlo.Run

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result the kernel program ends with on core c. -/
def result (c : Dev nD) : FVec Ideal S_ .f32 :=
  Cert.KernelIdeal.Tail.tailFn Cert.KernelIdeal.Tail.table (a1 m c) (a2 m c) (a3 m c) (a4 m c) (a5 m c) (a6 m c) (a7 m c) (a8 m c)
    (fun _ => Cert.Pinn.kTotal (wtsOfMem m c) (ptsOfMem m c))

/-- The buffer contents the host operations after the region start from: the region's arrays as the run leaves them,
    every other buffer as the region found it. -/
abbrev Wend (c : Dev nD) : Valuation τ sig (Elt Ideal) :=
  Pipeline.withArrays (cfgs 0).spec c (V0 m c) fun w => (dats (F := Ideal) m 0 c).arrAt w (cfgs 0).N

/-- The two-point table is what the host operations before the region leave in its buffer. -/
theorem V_cst (c : Dev nD) : (V m c main_cst : FVec Ideal S2 .f32) = Cert.KernelIdeal.Tail.table := by
  dsimp only [Gen.V, Gen.V0]
  simp only [Gen.hostOps0, Gen.hostOps0_1, Gen.hostOps0_2, List.flatten_cons, List.flatten_nil, List.append_nil, List.cons_append, List.nil_append]
  after_results
  rfl

theorem Wend_cst (c : Dev nD) : (Wend m c (Proc.devRef .tc main_cst) : FVec Ideal S2 .f32) = Cert.KernelIdeal.Tail.table :=
  (Pipeline.withArrays_of_ne _ c (V0 m c) _ main_cst (by exact (by decide : ∀ w, Pipeline.arrRef spec0 w ≠ main_cst))).trans (V_cst m c)

theorem Wend_arg1 (c : Dev nD) : (Wend m c (Proc.devRef .tc main_arg1) : FVec Ideal S1x32 .f32) = a1 m c :=
  (Pipeline.withArrays_arr spec0 launch0.win.arr_inj c _ _ 1).trans
    (((dats m 0 c).arrAt_in 1 rfl _).trans ((A_eq m c 1).trans (V_main_arg1 m c)))

theorem Wend_arg2 (c : Dev nD) : (Wend m c (Proc.devRef .tc main_arg2) : FVec Ideal S32 .f32) = a2 m c :=
  (Pipeline.withArrays_of_ne _ c (V0 m c) _ main_arg2 (by exact (by decide : ∀ w, Pipeline.arrRef spec0 w ≠ main_arg2))).trans (V_main_arg2 m c)

theorem Wend_arg3 (c : Dev nD) : (Wend m c (Proc.devRef .tc main_arg3) : FVec Ideal S32x32 .f32) = a3 m c :=
  (Pipeline.withArrays_arr spec0 launch0.win.arr_inj c _ _ 3).trans
    (((dats m 0 c).arrAt_in 3 rfl _).trans ((A_eq m c 3).trans (V_main_arg3 m c)))

theorem Wend_arg4 (c : Dev nD) : (Wend m c (Proc.devRef .tc main_arg4) : FVec Ideal S32 .f32) = a4 m c :=
  (Pipeline.withArrays_of_ne _ c (V0 m c) _ main_arg4 (by exact (by decide : ∀ w, Pipeline.arrRef spec0 w ≠ main_arg4))).trans (V_main_arg4 m c)

theorem Wend_arg5 (c : Dev nD) : (Wend m c (Proc.devRef .tc main_arg5) : FVec Ideal S32x32 .f32) = a5 m c :=
  (Pipeline.withArrays_arr spec0 launch0.win.arr_inj c _ _ 5).trans
    (((dats m 0 c).arrAt_in 5 rfl _).trans ((A_eq m c 5).trans (V_main_arg5 m c)))

theorem Wend_arg6 (c : Dev nD) : (Wend m c (Proc.devRef .tc main_arg6) : FVec Ideal S32 .f32) = a6 m c :=
  (Pipeline.withArrays_of_ne _ c (V0 m c) _ main_arg6 (by exact (by decide : ∀ w, Pipeline.arrRef spec0 w ≠ main_arg6))).trans (V_main_arg6 m c)

theorem Wend_arg7 (c : Dev nD) : (Wend m c (Proc.devRef .tc main_arg7) : FVec Ideal S32x1 .f32) = a7 m c :=
  (Pipeline.withArrays_arr spec0 launch0.win.arr_inj c _ _ 7).trans
    (((dats m 0 c).arrAt_in 7 rfl _).trans ((A_eq m c 7).trans (V_main_arg7 m c)))

theorem Wend_arg8 (c : Dev nD) : (Wend m c (Proc.devRef .tc main_arg8) : FVec Ideal S1 .f32) = a8 m c :=
  (Pipeline.withArrays_of_ne _ c (V0 m c) _ main_arg8 (by exact (by decide : ∀ w, Pipeline.arrRef spec0 w ≠ main_arg8))).trans (V_main_arg8 m c)

/-- The output array reaches the host operations after the region as the run leaves it. -/
theorem Wend_v5 (c : Dev nD) :
    (Wend m c (Proc.devRef .tc main_v5) : FVec Ideal S1x1 .f32) = ((dats (F := Ideal) m 0 c).arrAt 9 cfg0.N : Vec Ideal S1x1 .f32) :=
  Pipeline.withArrays_arr spec0 launch0.win.arr_inj c _ _ 9

/-- The output array's one entry, as a scalar array, is the total of the squared residuals. -/
theorem Wend_v5_cast (c : Dev nD) :
    shapeCast S_ (Wend m c (Proc.devRef .tc main_v5) : FVec Ideal S1x1 .f32) shapeCasts_S1x1_S_
      = fun _ => Cert.Pinn.kTotal (wtsOfMem m c) (ptsOfMem m c) := by
  funext j
  exact (congrFun (Wend_v5 m c) _).trans (out_final m c _)

/-- The result buffer after the host operations that follow the region. -/
theorem tail_value (c : Dev nD) :
    (Pipeline.afterTail₀ cfgs (dats (F := Ideal) m) 0 (V0 m) [hostOps1] c main_v37 : FVec Ideal S_ .f32) = result m c := by
  unfold Pipeline.afterTail₀
  show StableHlo.after (hostOps1 (F := Ideal)) (Wend m c) (Proc.devRef .tc main_v37) = _
  rw [Cert.KernelIdeal.Tail.kernel_tail, Wend_cst, Wend_arg1, Wend_arg2, Wend_arg3, Wend_arg4, Wend_arg5, Wend_arg6, Wend_arg7,
    Wend_arg8, Wend_v5_cast]
  rfl

/-- The kernel program's run with its result named. -/
theorem run_value : θ_run defs (onTc (τ := τ) (main (F := Ideal))) ⟨m, fun _ => 0, ρ⟩ (fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ⟨?_,
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩) (run_main m ρ)
  exact ((h c).2 main_v37 (Pipeline.mem_restRefs_of main_v37 (by decide) (by decide))).trans (tail_value m c)

end Cert.KernelIdeal.KVal

end
-- ==== Proof.RefRun.lean ====
/-
  The reference's run. Its @main is a straight line of host operations; the library's theorem for such a line says that
  every weakly fair execution terminates and leaves each buffer at the fold of the operations' results over the launch
  contents. Here that theorem is instantiated at the transcribed operation list.
-/
import proofs.«131202_j3839700763115_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- @main is the line of its operations. -/
theorem main_eq (c : Dev nD) : main (F := F) c = seq ops := by
  first
  | rfl
  | (simp only [main, main_part0, main_part1, main_part2, ops, opsA, opsB, opsC, opsD, opsE, seq_append, seq, bind_assoc, pure_bind]; rfl)
  | (simp only [main, main_part0, main_part1, main_part2, ops, opsA, opsB, opsC, opsD, opsE, seq_append, seq, bind_assoc, pure_bind])

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨⟨⟨⟨opsA_sub, opsB_sub⟩, opsC_sub⟩, opsD_sub⟩, opsE_sub⟩

theorem ops_fresh : ∀ op ∈ (ops : List (HloOp τ sig (Elt F))), op.fresh = ∅ := by
  intro op h
  simp only [ops, List.mem_append] at h
  rcases h with (((h | h) | h) | h) | h <;>
    ((repeat (cases h with | head => rfl | tail _ h => ?_)); exact nomatch h)

/-- Every weakly fair execution of the reference terminates, and each buffer ends at the fold of the operations over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefValDefs.lean ====
/-
  Vocabulary for reading the reference's host operations row by row. Every [1000000, 32] intermediate of the reference
  is "row-local": its row i depends only on the point x i and on the weights. After the first, second and third layer's
  operations the buffers that later operations read hold, row by row, the layer's activation, the two copies of its first
  derivative (one per differentiation pass: equal values, different buffers) and its second derivative, as
  `Cert.Pinn` names them.
-/
import proofs.«131202_j3839700763115_1_alg».proof.Proof.RefOps
import proofs.«131202_j3839700763115_1_alg».proof.Proof.Point
import Idealize.ShloMosaic.Lib.ValueIdx

noncomputable section

namespace Cert.ReferenceIdeal.RefVal

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

/-- The argument arrays in a valuation, by their literal types. -/
abbrev v0 (V : Valuation τ sig (Elt Ideal)) : Vec Ideal S1000000 .f32 := V (Proc.devRef .tc main_arg0)
abbrev v1 (V : Valuation τ sig (Elt Ideal)) : Vec Ideal S1x32 .f32 := V (Proc.devRef .tc main_arg1)
abbrev v2 (V : Valuation τ sig (Elt Ideal)) : Vec Ideal S32 .f32 := V (Proc.devRef .tc main_arg2)
abbrev v3 (V : Valuation τ sig (Elt Ideal)) : Vec Ideal S32x32 .f32 := V (Proc.devRef .tc main_arg3)
abbrev v4 (V : Valuation τ sig (Elt Ideal)) : Vec Ideal S32 .f32 := V (Proc.devRef .tc main_arg4)
abbrev v5 (V : Valuation τ sig (Elt Ideal)) : Vec Ideal S32x32 .f32 := V (Proc.devRef .tc main_arg5)
abbrev v6 (V : Valuation τ sig (Elt Ideal)) : Vec Ideal S32 .f32 := V (Proc.devRef .tc main_arg6)
abbrev v7 (V : Valuation τ sig (Elt Ideal)) : Vec Ideal S32x1 .f32 := V (Proc.devRef .tc main_arg7)
abbrev v8 (V : Valuation τ sig (Elt Ideal)) : Vec Ideal S1 .f32 := V (Proc.devRef .tc main_arg8)

/-- The network's weights as a valuation's argument buffers hold them. -/
def wtsOfVal (V : Valuation τ sig (Elt Ideal)) : Cert.Pinn.Wts where
  W1 j := v1 V (ix2 (0 : Fin 1) j)
  b1 j := v2 V (ix1 j)
  W2 k j := v3 V (ix2 k j)
  b2 j := v4 V (ix1 j)
  W3 k j := v5 V (ix2 k j)
  b3 j := v6 V (ix1 j)
  W4 k := v7 V (ix2 k (0 : Fin 1))
  b4 := v8 V (ix1 (0 : Fin 1))

/-- The 1,000,000 collocation points as a valuation's first argument buffer holds them. -/
def ptsOfVal (V : Valuation τ sig (Elt Ideal)) : Fin 1000000 → EReal := fun i => v0 V (ix1 i)

/-- The valuation holds the first layer's results (activation in %11, first derivatives in %16 and %23, second
    derivative in %26) of the points x at the weights w, and still holds the weights the later layers read. -/
structure Layer1 (V : Valuation τ sig (Elt Ideal)) (w : Cert.Pinn.Wts) (x : Fin 1000000 → EReal) : Prop where
  h : ∀ (i : Fin 1000000) (j : Fin 32), (V (Proc.devRef .tc main_v11) : Vec Ideal S1000000x32 .f32) (ix2 i j) = Cert.Pinn.rH1 w (x i) j
  a : ∀ (i : Fin 1000000) (j : Fin 32), (V (Proc.devRef .tc main_v16) : Vec Ideal S1000000x32 .f32) (ix2 i j) = Cert.Pinn.rA1 w (x i) j
  b : ∀ (i : Fin 1000000) (j : Fin 32), (V (Proc.devRef .tc main_v23) : Vec Ideal S1000000x32 .f32) (ix2 i j) = Cert.Pinn.rA1 w (x i) j
  c : ∀ (i : Fin 1000000) (j : Fin 32), (V (Proc.devRef .tc main_v26) : Vec Ideal S1000000x32 .f32) (ix2 i j) = Cert.Pinn.rC1 w (x i) j

/-- The same after the second layer: %34, %39, %49, %52. -/
structure Layer2 (V : Valuation τ sig (Elt Ideal)) (w : Cert.Pinn.Wts) (x : Fin 1000000 → EReal) : Prop where
  h : ∀ (i : Fin 1000000) (j : Fin 32), (V (Proc.devRef .tc main_v34) : Vec Ideal S1000000x32 .f32) (ix2 i j) = Cert.Pinn.rH2 w (x i) j
  a : ∀ (i : Fin 1000000) (j : Fin 32), (V (Proc.devRef .tc main_v39) : Vec Ideal S1000000x32 .f32) (ix2 i j) = Cert.Pinn.rA2 w (x i) j
  b : ∀ (i : Fin 1000000) (j : Fin 32), (V (Proc.devRef .tc main_v49) : Vec Ideal S1000000x32 .f32) (ix2 i j) = Cert.Pinn.rA2 w (x i) j
  c : ∀ (i : Fin 1000000) (j : Fin 32), (V (Proc.devRef .tc main_v52) : Vec Ideal S1000000x32 .f32) (ix2 i j) = Cert.Pinn.rC2 w (x i) j

/-- The same after the third layer: %60, %65, %75, %78. -/
structure Layer3 (V : Valuation τ sig (Elt Ideal)) (w : Cert.Pinn.Wts) (x : Fin 1000000 → EReal) : Prop where
  h : ∀ (i : Fin 1000000) (j : Fin 32), (V (Proc.devRef .tc main_v60) : Vec Ideal S1000000x32 .f32) (ix2 i j) = Cert.Pinn.rH3 w (x i) j
  a : ∀ (i : Fin 1000000) (j : Fin 32), (V (Proc.devRef .tc main_v65) : Vec Ideal S1000000x32 .f32) (ix2 i j) = Cert.Pinn.rA3 w (x i) j
  b : ∀ (i : Fin 1000000) (j : Fin 32), (V (Proc.devRef .tc main_v75) : Vec Ideal S1000000x32 .f32) (ix2 i j) = Cert.Pinn.rA3 w (x i) j
  c : ∀ (i : Fin 1000000) (j : Fin 32), (V (Proc.devRef .tc main_v78) : Vec Ideal S1000000x32 .f32) (ix2 i j) = Cert.Pinn.rC3 w (x i) j

/-- A valuation still holds the weights w (in the argument buffers) and the points x. -/
structure Holds (V : Valuation τ sig (Elt Ideal)) (w : Cert.Pinn.Wts) (x : Fin 1000000 → EReal) : Prop where
  w : wtsOfVal V = w
  x : ptsOfVal V = x

end Cert.ReferenceIdeal.RefVal

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«131202_j3839700763115_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.RefValA.lean ====
/-
  The reference's first layer, row by row. Its first 32 operations compute, from the points and the first weight row and
  bias, the first layer's activation tanh(x·W1 + b1) (the product a contraction over one coordinate), the tangent 1
  through the same contraction twice (once per differentiation pass), and from these the layer's first derivative (in two
  buffers) and second derivative by the nested rule for tanh. They write no argument buffer.

  The road: each buffer read later is first written as one term over the argument buffers (the activation, the first
  derivative, the second derivative, built from the two products and the bias copied down the rows); each such array is
  then read at row i, column j, where every pointwise operation acts on the entries, a product is the one-term sum over
  the contracted coordinate, and a broadcast reads its operand; the rows are the nested-rule terms by unfolding.
-/
import proofs.«131202_j3839700763115_1_alg».proof.Proof.RefValDefs
import proofs.«131202_j3839700763115_1_alg».proof.Proof.LibPlainDot
import Idealize.ShloMosaic.Lib.StableHlo.Run
import Idealize.ShloMosaic.Lib.ValueIdx
import Idealize.ShloMosaic.Lib.Pipeline.Value
import Idealize.ShloMosaic.PureOps.Ideal.Laws

open scoped BigOperators

noncomputable section

namespace Cert.ReferenceIdeal.RefVal

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

namespace OpsA

/-! ## The chunk's arrays, as terms over the argument buffers -/

/-- %5: the points, as a one-column matrix, times the first weight row. -/
abbrev aZ (V : Valuation τ sig (Elt Ideal)) : FVec Ideal S1000000x32 .f32 :=
  Host.dotGeneral (φ₁ := .f32) (φ₂ := .f32) dot_S1000000x1_S1x32_S1000000x32_1_0_0_1_n_n none
    (broadcastInDim S1000000x1 ![0] bcast_S1000000_S1000000x1_0 (v0 V) : FVec Ideal S1000000x1 .f32)
    (v1 V : FVec Ideal S1x32 .f32)

/-- %6 and %7: the tangent 1, as a one-column matrix, times the first weight row. -/
abbrev aT (V : Valuation τ sig (Elt Ideal)) : FVec Ideal S1000000x32 .f32 :=
  Host.dotGeneral (φ₁ := .f32) (φ₂ := .f32) dot_S1000000x1_S1x32_S1000000x32_1_0_0_1_n_n none
    (broadcastInDim S1000000x1 ![0] bcast_S1000000_S1000000x1_0
      (broadcastInDim S1000000 ![] bcast_S_S1000000 (constant (F := Ideal) S_ .f32 0x3F800000#32)) : FVec Ideal S1000000x1 .f32)
    (v1 V : FVec Ideal S1x32 .f32)

/-- %9: the first bias, copied down the rows. -/
abbrev aB (V : Valuation τ sig (Elt Ideal)) : FVec Ideal S1000000x32 .f32 :=
  broadcastInDim S1000000x32 ![0, 1] bcast_S1x32_S1000000x32_0_1 (broadcastInDim S1x32 ![1] bcast_S32_S1x32_1 (v2 V))

/-- %14 and %20: the constant 1 everywhere. -/
abbrev aOne : FVec Ideal S1000000x32 .f32 :=
  broadcastInDim S1000000x32 ![] bcast_S_S1000000x32 (constant (F := Ideal) S_ .f32 0x3F800000#32)

/-- %11: the activation. -/
abbrev aH (V : Valuation τ sig (Elt Ideal)) : FVec Ideal S1000000x32 .f32 := Host.tanh (addf (aZ V) (aB V))

/-- %16 and %23: the first derivative. -/
abbrev aA (V : Valuation τ sig (Elt Ideal)) : FVec Ideal S1000000x32 .f32 :=
  mulf (addf (aT V) (mulf (aT V) (aH V))) (subf aOne (aH V))

/-- %26: the second derivative. -/
abbrev aC (V : Valuation τ sig (Elt Ideal)) : FVec Ideal S1000000x32 .f32 :=
  addf (mulf (mulf (aT V) (aA V)) (subf aOne (aH V))) (mulf (addf (aT V) (mulf (aT V) (aH V))) (Host.negf (aA V)))

theorem v11_eq (V : Valuation τ sig (Elt Ideal)) :
    (after opsA V (Proc.devRef .tc main_v11) : Vec Ideal S1000000x32 .f32) = aH V := by
  simp only [opsA]
  after_results_simp

theorem v16_eq (V : Valuation τ sig (Elt Ideal)) :
    (after opsA V (Proc.devRef .tc main_v16) : Vec Ideal S1000000x32 .f32) = aA V := by
  simp only [opsA]
  after_results_simp

theorem v23_eq (V : Valuation τ sig (Elt Ideal)) :
    (after opsA V (Proc.devRef .tc main_v23) : Vec Ideal S1000000x32 .f32) = aA V := by
  simp only [opsA]
  after_results_simp

theorem v26_eq (V : Valuation τ sig (Elt Ideal)) :
    (after opsA V (Proc.devRef .tc main_v26) : Vec Ideal S1000000x32 .f32) = aC V := by
  simp only [opsA]
  after_results_simp

/-! ## Their rows -/

theorem aZ_apply (V : Valuation τ sig (Elt Ideal)) (i : Fin 1000000) (j : Fin 32) :
    aZ V (ix2 i j) = ∑ _k : Fin 1, ptsOfVal V i * (wtsOfVal V).W1 j := by
  refine (Idealize.ShloMosaic.PlainMatmul.dotGeneral_apply dot_S1000000x1_S1x32_S1000000x32_1_0_0_1_n_n
    dot_S1000000x1_S1x32_S1000000x32_1_0_0_1_n_n.wf rfl none _ _ _ i j).trans ?_
  refine Finset.sum_congr rfl fun c _ => ?_
  obtain rfl : c = 0 := Subsingleton.elim _ _
  congr 1
  exact broadcastInDim_apply ![0] bcast_S1000000_S1000000x1_0 (v0 V) (ix2 i (0 : Fin 1)) (ix1 i)
    (fun a => match a with | ⟨0, _⟩ => rfl)

theorem aT_apply (V : Valuation τ sig (Elt Ideal)) (i : Fin 1000000) (j : Fin 32) :
    aT V (ix2 i j) = ∑ _k : Fin 1, Cert.Pinn.one * (wtsOfVal V).W1 j := by
  refine (Idealize.ShloMosaic.PlainMatmul.dotGeneral_apply dot_S1000000x1_S1x32_S1000000x32_1_0_0_1_n_n
    dot_S1000000x1_S1x32_S1000000x32_1_0_0_1_n_n.wf rfl none _ _ _ i j).trans ?_
  refine Finset.sum_congr rfl fun c _ => ?_
  obtain rfl : c = 0 := Subsingleton.elim _ _
  rfl

theorem aB_apply (V : Valuation τ sig (Elt Ideal)) (i : Fin 1000000) (j : Fin 32) :
    aB V (ix2 i j) = (wtsOfVal V).b1 j := by
  refine (broadcastInDim_apply ![0, 1] bcast_S1x32_S1000000x32_0_1 _ (ix2 i j) (ix2 (0 : Fin 1) j)
    (fun a => match a with | ⟨0, _⟩ => rfl | ⟨1, _⟩ => rfl)).trans ?_
  exact broadcastInDim_apply ![1] bcast_S32_S1x32_1 (v2 V) (ix2 (0 : Fin 1) j) (ix1 j)
    (fun a => match a with | ⟨0, _⟩ => rfl)

theorem aOne_apply (i : Fin 1000000) (j : Fin 32) : aOne (ix2 i j) = Cert.Pinn.one := rfl

theorem aH_apply (V : Valuation τ sig (Elt Ideal)) (i : Fin 1000000) (j : Fin 32) :
    aH V (ix2 i j) = Cert.Pinn.rH1 (wtsOfVal V) (ptsOfVal V i) j := by
  show Ideal.tanh (aZ V (ix2 i j) + aB V (ix2 i j)) = _
  rw [aZ_apply, aB_apply]
  rfl

theorem aA_apply (V : Valuation τ sig (Elt Ideal)) (i : Fin 1000000) (j : Fin 32) :
    aA V (ix2 i j) = Cert.Pinn.rA1 (wtsOfVal V) (ptsOfVal V i) j := by
  show (aT V (ix2 i j) + aT V (ix2 i j) * aH V (ix2 i j)) * (aOne (ix2 i j) - aH V (ix2 i j)) = _
  rw [aT_apply, aH_apply, aOne_apply]
  rfl

theorem aC_apply (V : Valuation τ sig (Elt Ideal)) (i : Fin 1000000) (j : Fin 32) :
    aC V (ix2 i j) = Cert.Pinn.rC1 (wtsOfVal V) (ptsOfVal V i) j := by
  show (aT V (ix2 i j) * aA V (ix2 i j)) * (aOne (ix2 i j) - aH V (ix2 i j))
      + (aT V (ix2 i j) + aT V (ix2 i j) * aH V (ix2 i j)) * (-(aA V (ix2 i j))) = _
  rw [aA_apply, aT_apply, aH_apply, aOne_apply]
  rfl

/-! ## The argument buffers are not written -/

theorem arg0_eq (V : Valuation τ sig (Elt Ideal)) : v0 (after opsA V) = v0 V := by
  show after opsA V (Proc.devRef .tc main_arg0) = V (Proc.devRef .tc main_arg0)
  simp only [opsA]
  after_results_simp

theorem arg1_eq (V : Valuation τ sig (Elt Ideal)) : v1 (after opsA V) = v1 V := by
  show after opsA V (Proc.devRef .tc main_arg1) = V (Proc.devRef .tc main_arg1)
  simp only [opsA]
  after_results_simp

theorem arg2_eq (V : Valuation τ sig (Elt Ideal)) : v2 (after opsA V) = v2 V := by
  show after opsA V (Proc.devRef .tc main_arg2) = V (Proc.devRef .tc main_arg2)
  simp only [opsA]
  after_results_simp

theorem arg3_eq (V : Valuation τ sig (Elt Ideal)) : v3 (after opsA V) = v3 V := by
  show after opsA V (Proc.devRef .tc main_arg3) = V (Proc.devRef .tc main_arg3)
  simp only [opsA]
  after_results_simp

theorem arg4_eq (V : Valuation τ sig (Elt Ideal)) : v4 (after opsA V) = v4 V := by
  show after opsA V (Proc.devRef .tc main_arg4) = V (Proc.devRef .tc main_arg4)
  simp only [opsA]
  after_results_simp

theorem arg5_eq (V : Valuation τ sig (Elt Ideal)) : v5 (after opsA V) = v5 V := by
  show after opsA V (Proc.devRef .tc main_arg5) = V (Proc.devRef .tc main_arg5)
  simp only [opsA]
  after_results_simp

theorem arg6_eq (V : Valuation τ sig (Elt Ideal)) : v6 (after opsA V) = v6 V := by
  show after opsA V (Proc.devRef .tc main_arg6) = V (Proc.devRef .tc main_arg6)
  simp only [opsA]
  after_results_simp

theorem arg7_eq (V : Valuation τ sig (Elt Ideal)) : v7 (after opsA V) = v7 V := by
  show after opsA V (Proc.devRef .tc main_arg7) = V (Proc.devRef .tc main_arg7)
  simp only [opsA]
  after_results_simp

theorem arg8_eq (V : Valuation τ sig (Elt Ideal)) : v8 (after opsA V) = v8 V := by
  show after opsA V (Proc.devRef .tc main_arg8) = V (Proc.devRef .tc main_arg8)
  simp only [opsA]
  after_results_simp

end OpsA

open OpsA

/-! ## The two statements -/

/-- After the first 32 operations the valuation holds layer 1's results of the points and weights it started with. -/
theorem layer1 (V : Valuation τ sig (Elt Ideal)) : Layer1 (after opsA V) (wtsOfVal V) (ptsOfVal V) where
  h i j := (congrFun (v11_eq V) (ix2 i j)).trans (aH_apply V i j)
  a i j := (congrFun (v16_eq V) (ix2 i j)).trans (aA_apply V i j)
  b i j := (congrFun (v23_eq V) (ix2 i j)).trans (aA_apply V i j)
  c i j := (congrFun (v26_eq V) (ix2 i j)).trans (aC_apply V i j)

/-- They leave the argument buffers as they were. -/
theorem holdsA (V : Valuation τ sig (Elt Ideal)) : Holds (after opsA V) (wtsOfVal V) (ptsOfVal V) where
  w := by
    unfold wtsOfVal
    rw [arg1_eq, arg2_eq, arg3_eq, arg4_eq, arg5_eq, arg6_eq, arg7_eq, arg8_eq]
  x := by
    unfold ptsOfVal
    rw [arg0_eq]

end Cert.ReferenceIdeal.RefVal

end
-- ==== Proof.RefValBC.lean ====
/-
  The reference's second and third layers, row by row. Each layer's 28 operations take the previous layer's activation,
  two first-derivative copies and second derivative through the layer's matrix (four products, each a sum over the 32
  units of the previous layer), add the bias to the first, apply tanh, and form the layer's first derivative (twice) and
  second derivative by the nested rule. They write no argument buffer.
-/
import proofs.«131202_j3839700763115_1_alg».proof.Proof.RefValDefs
import proofs.«131202_j3839700763115_1_alg».proof.Proof.LibPlainDot
import Idealize.ShloMosaic.Lib.StableHlo.Run
import Idealize.ShloMosaic.Lib.ValueIdx
import Idealize.ShloMosaic.Lib.Pipeline.Value
import Idealize.ShloMosaic.PureOps.Ideal.Laws

open scoped BigOperators

noncomputable section

namespace Cert.ReferenceIdeal.RefVal

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

namespace BC

/-! ## One layer's operations on whole arrays, and their entries -/

/-- The product of a [1000000, 32] array by a [32, 32] matrix, as the reference's operation has it. -/
abbrev dotW (L : FVec Ideal S1000000x32 .f32) (W : FVec Ideal S32x32 .f32) : FVec Ideal S1000000x32 .f32 :=
  Host.dotGeneral (F := Ideal) dot_S1000000x32_S32x32_S1000000x32_1_0_0_1_n_n none L W

/-- The bias broadcast to every row: [32] → [1, 32] → [1000000, 32]. -/
abbrev biasRows (b : FVec Ideal S32 .f32) : FVec Ideal S1000000x32 .f32 :=
  broadcastInDim S1000000x32 ![0, 1] bcast_S1x32_S1000000x32_0_1 (broadcastInDim S1x32 ![1] bcast_S32_S1x32_1 b)

/-- The constant 1 broadcast to [1000000, 32]. -/
abbrev oneRows : FVec Ideal S1000000x32 .f32 :=
  broadcastInDim S1000000x32 ![] bcast_S_S1000000x32 (constant (F := Ideal) S_ .f32 0x3F800000#32)

/-- The layer's activation. -/
abbrev actL (H : FVec Ideal S1000000x32 .f32) (W : FVec Ideal S32x32 .f32) (b : FVec Ideal S32 .f32) : FVec Ideal S1000000x32 .f32 :=
  Host.tanh (F := Ideal) (addf (dotW H W) (biasRows b))

/-- The layer's first derivative from a copy G of the previous layer's. -/
abbrev d1L (H G : FVec Ideal S1000000x32 .f32) (W : FVec Ideal S32x32 .f32) (b : FVec Ideal S32 .f32) : FVec Ideal S1000000x32 .f32 :=
  mulf (addf (dotW G W) (mulf (dotW G W) (actL H W b))) (subf oneRows (actL H W b))

/-- The layer's second derivative. -/
abbrev d2L (H A B C : FVec Ideal S1000000x32 .f32) (W : FVec Ideal S32x32 .f32) (b : FVec Ideal S32 .f32) : FVec Ideal S1000000x32 .f32 :=
  addf
    (mulf (addf (dotW C W) (addf (mulf (dotW C W) (actL H W b)) (mulf (dotW B W) (d1L H A W b)))) (subf oneRows (actL H W b)))
    (mulf (addf (dotW B W) (mulf (dotW B W) (actL H W b))) (Host.negf (F := Ideal) (d1L H A W b)))

theorem dotW_at (L : FVec Ideal S1000000x32 .f32) (W : FVec Ideal S32x32 .f32) (i : Fin 1000000) (j : Fin 32) :
    dotW L W (ix2 i j) = ∑ k : Fin 32, L (ix2 i k) * W (ix2 k j) :=
  Idealize.ShloMosaic.PlainMatmul.dotGeneral_apply dot_S1000000x32_S32x32_S1000000x32_1_0_0_1_n_n
    dot_S1000000x32_S32x32_S1000000x32_1_0_0_1_n_n.wf rfl none _ L W i j

theorem biasRows_at (b : FVec Ideal S32 .f32) (i : Fin 1000000) (j : Fin 32) : biasRows b (ix2 i j) = b (ix1 j) := by
  refine (broadcastInDim_apply _ _ _ (ix2 i j) (ix2 (0 : Fin 1) j) (fun a => ?_)).trans ?_
  · match a with
    | ⟨0, _⟩ => rfl
    | ⟨1, _⟩ => rfl
  · refine broadcastInDim_apply _ _ _ (ix2 (0 : Fin 1) j) (ix1 j) (fun a => ?_)
    match a with
    | ⟨0, _⟩ => rfl

theorem oneRows_at (i : Fin 1000000) (j : Fin 32) : oneRows (ix2 i j) = Cert.Pinn.one := rfl

theorem actL_at (H : FVec Ideal S1000000x32 .f32) (W : FVec Ideal S32x32 .f32) (b : FVec Ideal S32 .f32) (i : Fin 1000000) (j : Fin 32) :
    actL H W b (ix2 i j) = Ideal.tanh ((∑ k : Fin 32, H (ix2 i k) * W (ix2 k j)) + b (ix1 j)) := by
  show Ideal.tanh (dotW H W (ix2 i j) + biasRows b (ix2 i j)) = _
  rw [dotW_at, biasRows_at]

theorem d1L_at (H G : FVec Ideal S1000000x32 .f32) (W : FVec Ideal S32x32 .f32) (b : FVec Ideal S32 .f32) (i : Fin 1000000) (j : Fin 32) :
    d1L H G W b (ix2 i j) = Cert.Pinn.rD (actL H W b (ix2 i j)) (∑ k : Fin 32, G (ix2 i k) * W (ix2 k j)) := by
  show (dotW G W (ix2 i j) + dotW G W (ix2 i j) * actL H W b (ix2 i j)) * (oneRows (ix2 i j) - actL H W b (ix2 i j)) = _
  rw [dotW_at, oneRows_at]
  rfl

theorem d2L_at (H A B C : FVec Ideal S1000000x32 .f32) (W : FVec Ideal S32x32 .f32) (b : FVec Ideal S32 .f32) (i : Fin 1000000) (j : Fin 32) :
    d2L H A B C W b (ix2 i j) = Cert.Pinn.rDD (actL H W b (ix2 i j)) (∑ k : Fin 32, A (ix2 i k) * W (ix2 k j))
      (∑ k : Fin 32, B (ix2 i k) * W (ix2 k j)) (∑ k : Fin 32, C (ix2 i k) * W (ix2 k j)) := by
  show (dotW C W (ix2 i j) + (dotW C W (ix2 i j) * actL H W b (ix2 i j) + dotW B W (ix2 i j) * d1L H A W b (ix2 i j)))
        * (oneRows (ix2 i j) - actL H W b (ix2 i j))
      + (dotW B W (ix2 i j) + dotW B W (ix2 i j) * actL H W b (ix2 i j)) * (-(d1L H A W b (ix2 i j))) = _
  rw [d1L_at, dotW_at, dotW_at, oneRows_at]
  rfl

/-! ## Layer 2 -/

theorem v34_eq (V : Valuation τ sig (Elt Ideal)) :
    (after opsB V (Proc.devRef .tc main_v34) : Vec Ideal S1000000x32 .f32)
      = actL (V (Proc.devRef .tc main_v11)) (v3 V) (v4 V) := by
  simp only [opsB]
  after_results_simp

theorem v39_eq (V : Valuation τ sig (Elt Ideal)) :
    (after opsB V (Proc.devRef .tc main_v39) : Vec Ideal S1000000x32 .f32)
      = d1L (V (Proc.devRef .tc main_v11)) (V (Proc.devRef .tc main_v16)) (v3 V) (v4 V) := by
  simp only [opsB]
  after_results_simp

theorem v49_eq (V : Valuation τ sig (Elt Ideal)) :
    (after opsB V (Proc.devRef .tc main_v49) : Vec Ideal S1000000x32 .f32)
      = d1L (V (Proc.devRef .tc main_v11)) (V (Proc.devRef .tc main_v23)) (v3 V) (v4 V) := by
  simp only [opsB]
  after_results_simp

theorem v52_eq (V : Valuation τ sig (Elt Ideal)) :
    (after opsB V (Proc.devRef .tc main_v52) : Vec Ideal S1000000x32 .f32)
      = d2L (V (Proc.devRef .tc main_v11)) (V (Proc.devRef .tc main_v16)) (V (Proc.devRef .tc main_v23))
          (V (Proc.devRef .tc main_v26)) (v3 V) (v4 V) := by
  simp only [opsB]
  after_results_simp

/-- The buffers layer 2's operations write. -/
abbrev opsB_W : List (Ref sig .tc) :=
  [main_v27, main_v28, main_v29, main_v30, main_v31, main_v32, main_v33, main_v34, main_v35, main_v36, main_cst_4, main_v37,
   main_v38, main_v39, main_v40, main_v41, main_v42, main_v43, main_v44, main_v45, main_cst_5, main_v46, main_v47, main_v48,
   main_v49, main_v50, main_v51, main_v52]

theorem opsB_writes :
    (opsB : List (HloOp τ sig (Elt Ideal))).Forall fun op => op.writes ⊆ (opsB_W.map (Proc.devRef (τ := τ) .tc)).toFinset := by
  simp only [opsB, List.Forall]
  simp only [nullary_writes, unary_writes, binary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    exact List.mem_map_of_mem (by decide)

/-- A buffer layer 2's operations do not write keeps its contents. -/
theorem keepB (V : Valuation τ sig (Elt Ideal)) (r : Ref sig .tc) (h : r ∉ opsB_W) :
    after opsB V (Proc.devRef .tc r) = V (Proc.devRef .tc r) :=
  after_of_writes_sub opsB V opsB_writes h

/-! ## Layer 3 -/

theorem v60_eq (V : Valuation τ sig (Elt Ideal)) :
    (after opsC V (Proc.devRef .tc main_v60) : Vec Ideal S1000000x32 .f32)
      = actL (V (Proc.devRef .tc main_v34)) (v5 V) (v6 V) := by
  simp only [opsC]
  after_results_simp

theorem v65_eq (V : Valuation τ sig (Elt Ideal)) :
    (after opsC V (Proc.devRef .tc main_v65) : Vec Ideal S1000000x32 .f32)
      = d1L (V (Proc.devRef .tc main_v34)) (V (Proc.devRef .tc main_v39)) (v5 V) (v6 V) := by
  simp only [opsC]
  after_results_simp

theorem v75_eq (V : Valuation τ sig (Elt Ideal)) :
    (after opsC V (Proc.devRef .tc main_v75) : Vec Ideal S1000000x32 .f32)
      = d1L (V (Proc.devRef .tc main_v34)) (V (Proc.devRef .tc main_v49)) (v5 V) (v6 V) := by
  simp only [opsC]
  after_results_simp

theorem v78_eq (V : Valuation τ sig (Elt Ideal)) :
    (after opsC V (Proc.devRef .tc main_v78) : Vec Ideal S1000000x32 .f32)
      = d2L (V (Proc.devRef .tc main_v34)) (V (Proc.devRef .tc main_v39)) (V (Proc.devRef .tc main_v49))
          (V (Proc.devRef .tc main_v52)) (v5 V) (v6 V) := by
  simp only [opsC]
  after_results_simp

/-- The buffers layer 3's operations write. -/
abbrev opsC_W : List (Ref sig .tc) :=
  [main_v53, main_v54, main_v55, main_v56, main_v57, main_v58, main_v59, main_v60, main_v61, main_v62, main_cst_6, main_v63,
   main_v64, main_v65, main_v66, main_v67, main_v68, main_v69, main_v70, main_v71, main_cst_7, main_v72, main_v73, main_v74,
   main_v75, main_v76, main_v77, main_v78]

theorem opsC_writes :
    (opsC : List (HloOp τ sig (Elt Ideal))).Forall fun op => op.writes ⊆ (opsC_W.map (Proc.devRef (τ := τ) .tc)).toFinset := by
  simp only [opsC, List.Forall]
  simp only [nullary_writes, unary_writes, binary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    exact List.mem_map_of_mem (by decide)

/-- A buffer layer 3's operations do not write keeps its contents. -/
theorem keepC (V : Valuation τ sig (Elt Ideal)) (r : Ref sig .tc) (h : r ∉ opsC_W) :
    after opsC V (Proc.devRef .tc r) = V (Proc.devRef .tc r) :=
  after_of_writes_sub opsC V opsC_writes h

end BC

open BC

/-- From layer 1's results the next 28 operations leave layer 2's. -/
theorem layer2 (V : Valuation τ sig (Elt Ideal)) (w : Cert.Pinn.Wts) (x : Fin 1000000 → EReal) (h1 : Layer1 V w x) (hh : Holds V w x) :
    Layer2 (after opsB V) w x := by
  obtain ⟨rfl, rfl⟩ := hh
  have eh : ∀ (i : Fin 1000000) (j : Fin 32), actL (V (Proc.devRef .tc main_v11)) (v3 V) (v4 V) (ix2 i j)
      = Cert.Pinn.rH2 (wtsOfVal V) (ptsOfVal V i) j := by
    intro i j
    rw [actL_at]
    simp only [h1.h]
    rfl
  refine ⟨fun i j => ?_, fun i j => ?_, fun i j => ?_, fun i j => ?_⟩
  · rw [v34_eq, eh]
  · rw [v39_eq, d1L_at, eh]
    simp only [h1.a]
    rfl
  · rw [v49_eq, d1L_at, eh]
    simp only [h1.b]
    rfl
  · rw [v52_eq, d2L_at, eh]
    simp only [h1.a, h1.b, h1.c]
    rfl

theorem holdsB (V : Valuation τ sig (Elt Ideal)) (w : Cert.Pinn.Wts) (x : Fin 1000000 → EReal) (hh : Holds V w x) :
    Holds (after opsB V) w x := by
  obtain ⟨rfl, rfl⟩ := hh
  refine ⟨?_, ?_⟩
  · unfold wtsOfVal v1 v2 v3 v4 v5 v6 v7 v8
    rw [keepB V main_arg1 (by decide), keepB V main_arg2 (by decide), keepB V main_arg3 (by decide),
      keepB V main_arg4 (by decide), keepB V main_arg5 (by decide), keepB V main_arg6 (by decide),
      keepB V main_arg7 (by decide), keepB V main_arg8 (by decide)]
  · unfold ptsOfVal v0
    rw [keepB V main_arg0 (by decide)]

/-- From layer 2's results the next 28 operations leave layer 3's. -/
theorem layer3 (V : Valuation τ sig (Elt Ideal)) (w : Cert.Pinn.Wts) (x : Fin 1000000 → EReal) (h2 : Layer2 V w x) (hh : Holds V w x) :
    Layer3 (after opsC V) w x := by
  obtain ⟨rfl, rfl⟩ := hh
  have eh : ∀ (i : Fin 1000000) (j : Fin 32), actL (V (Proc.devRef .tc main_v34)) (v5 V) (v6 V) (ix2 i j)
      = Cert.Pinn.rH3 (wtsOfVal V) (ptsOfVal V i) j := by
    intro i j
    rw [actL_at]
    simp only [h2.h]
    rfl
  refine ⟨fun i j => ?_, fun i j => ?_, fun i j => ?_, fun i j => ?_⟩
  · rw [v60_eq, eh]
  · rw [v65_eq, d1L_at, eh]
    simp only [h2.a]
    rfl
  · rw [v75_eq, d1L_at, eh]
    simp only [h2.b]
    rfl
  · rw [v78_eq, d2L_at, eh]
    simp only [h2.a, h2.b, h2.c]
    rfl

theorem holdsC (V : Valuation τ sig (Elt Ideal)) (w : Cert.Pinn.Wts) (x : Fin 1000000 → EReal) (hh : Holds V w x) :
    Holds (after opsC V) w x := by
  obtain ⟨rfl, rfl⟩ := hh
  refine ⟨?_, ?_⟩
  · unfold wtsOfVal v1 v2 v3 v4 v5 v6 v7 v8
    rw [keepC V main_arg1 (by decide), keepC V main_arg2 (by decide), keepC V main_arg3 (by decide),
      keepC V main_arg4 (by decide), keepC V main_arg5 (by decide), keepC V main_arg6 (by decide),
      keepC V main_arg7 (by decide), keepC V main_arg8 (by decide)]
  · unfold ptsOfVal v0
    rw [keepC V main_arg0 (by decide)]

end Cert.ReferenceIdeal.RefVal

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.RefValD.lean ====
/-
  The reference's last layer and its sum. From layer 3's results the operations form the one-unit last layer (products
  with the 32 × 1 matrix: sums over 32 units), its second derivative u'' by the nested rule, subtract sin x, square, and
  sum over the 1,000,000 points from 0. Composed with the three layers before, the sum buffer holds the total of the
  squared residuals of the points and weights the run started with.
-/
import proofs.«131202_j3839700763115_1_alg».proof.Proof.RefValDefs
import proofs.«131202_j3839700763115_1_alg».proof.Proof.LibPlainDot
import proofs.«131202_j3839700763115_1_alg».proof.Proof.RefValA
import proofs.«131202_j3839700763115_1_alg».proof.Proof.RefValBC
import proofs.«131202_j3839700763115_1_alg».proof.Proof.LibAfter
import Idealize.ShloMosaic.Lib.StableHlo.Run
import Idealize.ShloMosaic.Lib.ValueIdx
import Idealize.ShloMosaic.Lib.Pipeline.Value
import Idealize.ShloMosaic.Lib.IdealHost
import Idealize.ShloMosaic.Lib.ValueIdxRank1
import Idealize.ShloMosaic.PureOps.Ideal.Laws

open scoped BigOperators

noncomputable section

namespace Cert.ReferenceIdeal.RefVal

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

namespace Last

/-! ## The last layer's arrays, as terms over the contents the chunk starts from -/

/-- The all-ones [N, 1] array. -/
def oneCol : FVec Ideal S1000000x1 .f32 :=
  broadcastInDim S1000000x1 ![] bcast_S_S1000000x1 (constant (F := Ideal) S_ .f32 0x3F800000#32)

/-- The last bias spread over the [N, 1] rows. -/
def biasCol (V : Valuation τ sig (Elt Ideal)) : FVec Ideal S1000000x1 .f32 :=
  broadcastInDim S1000000x1 ![0, 1] bcast_S1x1_S1000000x1_0_1
    (broadcastInDim S1x1 ![1] bcast_S1_S1x1_1 (V (Proc.devRef .tc main_arg8) : FVec Ideal S1 .f32))

/-- An [N, 32] array times the 32 × 1 last matrix. -/
def dotW4 (V : Valuation τ sig (Elt Ideal)) (l : FVec Ideal S1000000x32 .f32) : FVec Ideal S1000000x1 .f32 :=
  Host.dotGeneral (φ₂ := .f32) dot_S1000000x32_S32x1_S1000000x1_1_0_0_1_n_n none l (V (Proc.devRef .tc main_arg7))

/-- The last layer's activation. -/
def hCol (V : Valuation τ sig (Elt Ideal)) : FVec Ideal S1000000x1 .f32 :=
  Host.tanh (addf (dotW4 V (V (Proc.devRef .tc main_v60))) (biasCol V))

/-- The nested rule's first derivative, array form: (g + g·h)·(1 - h). -/
def dCol (h g : FVec Ideal S1000000x1 .f32) : FVec Ideal S1000000x1 .f32 :=
  mulf (addf g (mulf g h)) (subf oneCol h)

/-- The nested rule's second derivative, array form. -/
def ddCol (h a b c : FVec Ideal S1000000x1 .f32) : FVec Ideal S1000000x1 .f32 :=
  addf (mulf (addf c (addf (mulf c h) (mulf b (dCol h a)))) (subf oneCol h)) (mulf (addf b (mulf b h)) (Host.negf (dCol h a)))

/-- u'' as an [N, 1] array. -/
def uxxCol (V : Valuation τ sig (Elt Ideal)) : FVec Ideal S1000000x1 .f32 :=
  ddCol (hCol V) (dotW4 V (V (Proc.devRef .tc main_v65))) (dotW4 V (V (Proc.devRef .tc main_v75)))
    (dotW4 V (V (Proc.devRef .tc main_v78)))

/-- The residual u'' - sin x as an [N] array. -/
def resVec (V : Valuation τ sig (Elt Ideal)) : FVec Ideal S1000000 .f32 :=
  subf (fun i => shapeCast S1000000 (uxxCol V) shapeCasts_S1000000x1_S1000000 i)
    (Host.sin (V (Proc.devRef .tc main_arg0) : FVec Ideal S1000000 .f32))

/-- The sum buffer after chunk D, as a term. -/
theorem sum_term (V : Valuation τ sig (Elt Ideal)) :
    (after opsD V (Proc.devRef .tc main_v112) : Vec Ideal S_ .f32)
      = Host.reduceAdd (mulf (resVec V) (resVec V)) (constant (F := Ideal) S_ .f32 0x00000000#32) reducesTo_S1000000_S_d0 h_S_ := by
  unfold opsD
  after_results_simp
  rfl

end Last

namespace Last

/-! ## The arrays read at a row -/

theorem oneCol_apply (j : S1000000x1.Idx) : oneCol j = Cert.Pinn.one := rfl

theorem dCol_apply (h g : FVec Ideal S1000000x1 .f32) (j : S1000000x1.Idx) :
    dCol h g j = Cert.Pinn.rD (h j) (g j) := rfl

theorem ddCol_apply (h a b c : FVec Ideal S1000000x1 .f32) (j : S1000000x1.Idx) :
    ddCol h a b c j = Cert.Pinn.rDD (h j) (a j) (b j) (c j) := rfl

/-- The spread bias reads the one bias entry in every row. -/
theorem biasCol_apply (V : Valuation τ sig (Elt Ideal)) (i : Fin 1000000) :
    biasCol V (ix2 i (0 : Fin 1)) = v8 V (ix1 (0 : Fin 1)) := by
  unfold biasCol
  rw [broadcastInDim_apply _ _ _ (ix2 i (0 : Fin 1)) (ix2 (0 : Fin 1) (0 : Fin 1)) (fun a => by
        match a with
        | ⟨0, _⟩ => rfl
        | ⟨1, _⟩ => rfl),
    broadcastInDim_apply _ _ _ (ix2 (0 : Fin 1) (0 : Fin 1)) (ix1 (0 : Fin 1)) (fun a => by
        match a with
        | ⟨0, _⟩ => rfl)]

/-- A product with the last matrix, at row i: the sum over the 32 units. -/
theorem dotW4_apply (V : Valuation τ sig (Elt Ideal)) (l : FVec Ideal S1000000x32 .f32) (i : Fin 1000000) :
    dotW4 V l (ix2 i (0 : Fin 1)) = ∑ k : Fin 32, l (ix2 i k) * v7 V (ix2 k (0 : Fin 1)) :=
  Idealize.ShloMosaic.PlainMatmul.dotGeneral_apply dot_S1000000x32_S32x1_S1000000x1_1_0_0_1_n_n
    dot_S1000000x32_S32x1_S1000000x1_1_0_0_1_n_n.wf rfl none _ l _ i (0 : Fin 1)

/-- If an [N, 32] array's row i is r (x i), its product with the last matrix is the linear image of r (x i). -/
theorem dot_row (V : Valuation τ sig (Elt Ideal)) (w : Cert.Pinn.Wts) (x : Fin 1000000 → EReal) (hh : Holds V w x)
    (l : FVec Ideal S1000000x32 .f32) (r : EReal → Fin 32 → EReal) (hl : ∀ (i : Fin 1000000) (k : Fin 32), l (ix2 i k) = r (x i) k)
    (i : Fin 1000000) : dotW4 V l (ix2 i (0 : Fin 1)) = Cert.Pinn.lin (r (x i)) w.W4 := by
  rw [dotW4_apply]
  obtain ⟨rfl, rfl⟩ := hh
  unfold Cert.Pinn.lin
  exact Finset.sum_congr rfl fun k _ => by rw [hl i k]; rfl

theorem hCol_apply (V : Valuation τ sig (Elt Ideal)) (w : Cert.Pinn.Wts) (x : Fin 1000000 → EReal) (h3 : Layer3 V w x)
    (hh : Holds V w x) (i : Fin 1000000) : hCol V (ix2 i (0 : Fin 1)) = Cert.Pinn.rH4 w (x i) := by
  show Ideal.tanh (dotW4 V _ (ix2 i (0 : Fin 1)) + biasCol V (ix2 i (0 : Fin 1))) = _
  rw [dot_row V w x hh _ (Cert.Pinn.rH3 w) h3.h, biasCol_apply]
  obtain ⟨rfl, rfl⟩ := hh
  rfl

theorem uxxCol_apply (V : Valuation τ sig (Elt Ideal)) (w : Cert.Pinn.Wts) (x : Fin 1000000 → EReal) (h3 : Layer3 V w x)
    (hh : Holds V w x) (i : Fin 1000000) : uxxCol V (ix2 i (0 : Fin 1)) = Cert.Pinn.rUxx w (x i) := by
  unfold uxxCol
  rw [ddCol_apply, hCol_apply V w x h3 hh, dot_row V w x hh _ (Cert.Pinn.rA3 w) h3.a, dot_row V w x hh _ (Cert.Pinn.rA3 w) h3.b,
    dot_row V w x hh _ (Cert.Pinn.rC3 w) h3.c]
  rfl

theorem resVec_apply (V : Valuation τ sig (Elt Ideal)) (w : Cert.Pinn.Wts) (x : Fin 1000000 → EReal) (h3 : Layer3 V w x)
    (hh : Holds V w x) (i : Fin 1000000) : resVec V (ix1 i) = Cert.Pinn.rRes w (x i) := by
  show shapeCast S1000000 (uxxCol V) shapeCasts_S1000000x1_S1000000 (ix1 i) - Ideal.sin (v0 V (ix1 i)) = _
  rw [shapeCast_apply (uxxCol V) shapeCasts_S1000000x1_S1000000 (ix1 i) (ix2 i (0 : Fin 1)) (by
        rw [Shape.rowMajor_val_two, Shape.rowMajor_val_one]
        show i.val * 1 + 0 = i.val
        omega),
    uxxCol_apply V w x h3 hh]
  obtain ⟨rfl, rfl⟩ := hh
  rfl

/-! ## No operation of the chunk writes an argument buffer -/

/-- The buffers chunk D writes. -/
abbrev opsD_W : List (Ref sig .tc) :=
  [main_v79, main_v80, main_v81, main_v82, main_v83, main_v84, main_v85, main_v86, main_v87, main_v88, main_cst_8, main_v89,
    main_v90, main_v91, main_v92, main_v93, main_v94, main_v95, main_v96, main_v97, main_cst_9, main_v98, main_v99, main_v100,
    main_v101, main_v102, main_v103, main_v104, main_v105, main_v106, main_v107, main_v108, main_v109, main_v110, main_v111,
    main_cst_10, main_v112]

theorem opsD_writes : (opsD : List (HloOp τ sig (Elt Ideal))).Forall fun op =>
    op.writes ⊆ (opsD_W.map (Proc.devRef (τ := τ) .tc)).toFinset := by
  simp only [opsD, List.Forall, nullary_writes, unary_writes, binary_writes, reshape_writes, Finset.singleton_subset_iff,
    List.mem_toFinset]
  repeat' apply And.intro
  all_goals exact List.mem_map_of_mem (by decide)

theorem arg_keep (V : Valuation τ sig (Elt Ideal)) (r : Ref sig .tc) (hr : r ∉ opsD_W) :
    after opsD V (Proc.devRef .tc r) = V (Proc.devRef .tc r) :=
  after_of_writes_sub opsD V opsD_writes hr

end Last

open Last

/-- From layer 3's results the operations of chunk D leave the total in the sum buffer. -/
theorem total4 (V : Valuation τ sig (Elt Ideal)) (w : Cert.Pinn.Wts) (x : Fin 1000000 → EReal) (h3 : Layer3 V w x) (hh : Holds V w x) :
    (after opsD V (Proc.devRef .tc main_v112) : Vec Ideal S_ .f32) ix0 = Cert.Pinn.rTotal w x := by
  rw [sum_term, hostReduceAdd_apply, Ideal.hostReduceAdd_total _ (fun b => b.elim0)]
  rw [show (constant (F := Ideal) S_ .f32 0x00000000#32 (Shape.Idx.first h_S_)) = (0 : EReal) from Ideal.ofBits_zero_f32, zero_add,
    ← Equiv.sum_comp (idxEquiv1 (n := 1000000)).symm]
  unfold Cert.Pinn.rTotal
  show (_ : EReal) = _
  refine Finset.sum_congr rfl fun i _ => ?_
  show resVec V (ix1 i) * resVec V (ix1 i) = _
  rw [resVec_apply V w x h3 hh]

theorem holdsD (V : Valuation τ sig (Elt Ideal)) (w : Cert.Pinn.Wts) (x : Fin 1000000 → EReal) (hh : Holds V w x) :
    Holds (after opsD V) w x := by
  obtain ⟨rfl, rfl⟩ := hh
  constructor
  · unfold wtsOfVal v1 v2 v3 v4 v5 v6 v7 v8
    rw [arg_keep V main_arg1 (by decide), arg_keep V main_arg2 (by decide), arg_keep V main_arg3 (by decide),
      arg_keep V main_arg4 (by decide), arg_keep V main_arg5 (by decide), arg_keep V main_arg6 (by decide),
      arg_keep V main_arg7 (by decide), arg_keep V main_arg8 (by decide)]
  · unfold ptsOfVal v0
    rw [arg_keep V main_arg0 (by decide)]

/-- The four chunks in a row: the sum buffer holds the total of the squared residuals of the starting points and weights, -/
theorem ref_total (V : Valuation τ sig (Elt Ideal)) :
    (after (opsA ++ opsB ++ opsC ++ opsD) V (Proc.devRef .tc main_v112) : Vec Ideal S_ .f32) ix0
      = Cert.Pinn.rTotal (wtsOfVal V) (ptsOfVal V) := by
  rw [Cert.LibAfter.after_append, Cert.LibAfter.after_append, Cert.LibAfter.after_append]
  have hA := holdsA V
  have hB := holdsB _ _ _ hA
  have hC := holdsC _ _ _ hB
  exact total4 _ _ _ (layer3 _ _ _ (layer2 _ _ _ (layer1 V) hA) hB) hC

/-- and the argument buffers are as they were. -/
theorem ref_holds (V : Valuation τ sig (Elt Ideal)) :
    Holds (after (opsA ++ opsB ++ opsC ++ opsD) V) (wtsOfVal V) (ptsOfVal V) := by
  rw [Cert.LibAfter.after_append, Cert.LibAfter.after_append, Cert.LibAfter.after_append]
  exact holdsD _ _ _ (holdsC _ _ _ (holdsB _ _ _ (holdsA V)))

end Cert.ReferenceIdeal.RefVal

end
-- ==== Proof.RefFinal.lean ====
/-
  The reference's run, as a value. Every weakly fair execution terminates; the result buffer ends at the shared tail of
  the total of the squared residuals (by the nested rule, of the launch's points at the launch's weights), and the
  arguments end as launched: no operation writes an argument buffer.
-/
import proofs.«131202_j3839700763115_1_alg».proof.Proof.RefRun
import proofs.«131202_j3839700763115_1_alg».proof.Proof.RefValD
import proofs.«131202_j3839700763115_1_alg».proof.Proof.Tail
import proofs.«131202_j3839700763115_1_alg».proof.Proof.LibAfter
import Idealize.ShloMosaic.Lib.StableHlo.Run

noncomputable section

namespace Cert.ReferenceIdeal.RefVal

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The result the reference ends with on core c. -/
def result (c : Dev nD) : FVec Ideal S_ .f32 :=
  Cert.KernelIdeal.Tail.tailFn Cert.KernelIdeal.Tail.table
    (v1 (launchContents m c)) (v2 (launchContents m c)) (v3 (launchContents m c)) (v4 (launchContents m c))
    (v5 (launchContents m c)) (v6 (launchContents m c)) (v7 (launchContents m c)) (v8 (launchContents m c))
    (fun _ => Cert.Pinn.rTotal (wtsOfVal (launchContents m c)) (ptsOfVal (launchContents m c)))

/-- The argument buffers. -/
private abbrev args : List (Ref sig .tc) :=
  [main_arg0, main_arg1, main_arg2, main_arg3, main_arg4, main_arg5, main_arg6, main_arg7, main_arg8]

/-! Chunk by chunk: no operation of a chunk writes an argument buffer, and none after the first chunk writes the table. -/

private theorem keptA (V : Valuation τ sig (Elt Ideal)) (b : Ref sig .tc) (hb : b ∈ args) :
    after (opsA (F := Ideal)) V (Proc.devRef .tc b) = V (Proc.devRef .tc b) :=
  after_of_forall_not_mem (b := Proc.devRef .tc b) _ _ (List.forall_iff_forall_mem.mp (by
    simp only [opsA, List.Forall, nullary_writes, unary_writes, binary_writes, reshape_writes, Finset.mem_singleton]
    repeat' apply And.intro
    all_goals exact devRef_ne_of_ne (by revert b; decide)))

private theorem keptB (V : Valuation τ sig (Elt Ideal)) (b : Ref sig .tc) (hb : b ∈ main_cst :: args) :
    after (opsB (F := Ideal)) V (Proc.devRef .tc b) = V (Proc.devRef .tc b) :=
  after_of_forall_not_mem (b := Proc.devRef .tc b) _ _ (List.forall_iff_forall_mem.mp (by
    simp only [opsB, List.Forall, nullary_writes, unary_writes, binary_writes, reshape_writes, Finset.mem_singleton]
    repeat' apply And.intro
    all_goals exact devRef_ne_of_ne (by revert b; decide)))

private theorem keptC (V : Valuation τ sig (Elt Ideal)) (b : Ref sig .tc) (hb : b ∈ main_cst :: args) :
    after (opsC (F := Ideal)) V (Proc.devRef .tc b) = V (Proc.devRef .tc b) :=
  after_of_forall_not_mem (b := Proc.devRef .tc b) _ _ (List.forall_iff_forall_mem.mp (by
    simp only [opsC, List.Forall, nullary_writes, unary_writes, binary_writes, reshape_writes, Finset.mem_singleton]
    repeat' apply And.intro
    all_goals exact devRef_ne_of_ne (by revert b; decide)))

private theorem keptD (V : Valuation τ sig (Elt Ideal)) (b : Ref sig .tc) (hb : b ∈ main_cst :: args) :
    after (opsD (F := Ideal)) V (Proc.devRef .tc b) = V (Proc.devRef .tc b) :=
  after_of_forall_not_mem (b := Proc.devRef .tc b) _ _ (List.forall_iff_forall_mem.mp (by
    simp only [opsD, List.Forall, nullary_writes, unary_writes, binary_writes, reshape_writes, Finset.mem_singleton]
    repeat' apply And.intro
    all_goals exact devRef_ne_of_ne (by revert b; decide)))

private theorem keptE (V : Valuation τ sig (Elt Ideal)) (b : Ref sig .tc) (hb : b ∈ args) :
    after (opsE (F := Ideal)) V (Proc.devRef .tc b) = V (Proc.devRef .tc b) :=
  after_of_forall_not_mem (b := Proc.devRef .tc b) _ _ (List.forall_iff_forall_mem.mp (by
    simp only [opsE, List.Forall, nullary_writes, unary_writes, binary_writes, reshape_writes, Finset.mem_singleton]
    repeat' apply And.intro
    all_goals exact devRef_ne_of_ne (by revert b; decide)))

/-- The first four chunks leave the argument buffers as they were. -/
private theorem kept_pre (V : Valuation τ sig (Elt Ideal)) (b : Ref sig .tc) (hb : b ∈ args) :
    after (opsA (F := Ideal) ++ opsB ++ opsC ++ opsD) V (Proc.devRef .tc b) = V (Proc.devRef .tc b) := by
  have hb' : b ∈ main_cst :: args := List.mem_cons_of_mem _ hb
  rw [Cert.LibAfter.after_append, Cert.LibAfter.after_append, Cert.LibAfter.after_append,
    keptD _ b hb', keptC _ b hb', keptB _ b hb', keptA _ b hb]

/-- No operation of the reference writes an argument buffer. -/
theorem kept (V : Valuation τ sig (Elt Ideal)) (b : Ref sig .tc)
    (hb : b ∈ [main_arg0, main_arg1, main_arg2, main_arg3, main_arg4, main_arg5, main_arg6, main_arg7, main_arg8]) :
    after (ops (F := Ideal)) V (Proc.devRef .tc b) = V (Proc.devRef .tc b) := by
  show after (opsA (F := Ideal) ++ opsB ++ opsC ++ opsD ++ opsE) V (Proc.devRef .tc b) = V (Proc.devRef .tc b)
  rw [Cert.LibAfter.after_append, keptE _ b hb, kept_pre V b hb]

/-- The first chunk's first operation stores the table, and no later operation of the chunk writes it. -/
private theorem cstA (V : Valuation τ sig (Elt Ideal)) :
    (after (opsA (F := Ideal)) V (Proc.devRef .tc main_cst) : FVec Ideal S2 .f32) = Cert.KernelIdeal.Tail.table := by
  after_results_simp
  rfl

/-- After the first four chunks the table's buffer holds the table. -/
private theorem cst_pre (V : Valuation τ sig (Elt Ideal)) :
    (after (opsA (F := Ideal) ++ opsB ++ opsC ++ opsD) V (Proc.devRef .tc main_cst) : FVec Ideal S2 .f32)
      = Cert.KernelIdeal.Tail.table := by
  have h : main_cst ∈ main_cst :: args := List.mem_cons_self
  rw [Cert.LibAfter.after_append, Cert.LibAfter.after_append, Cert.LibAfter.after_append,
    keptD _ _ h, keptC _ _ h, keptB _ _ h]
  exact cstA V

/-- After the first four chunks the sum buffer holds, at its one index, the total by the nested rule. -/
private theorem sum_pre (V : Valuation τ sig (Elt Ideal)) :
    (after (opsA (F := Ideal) ++ opsB ++ opsC ++ opsD) V (Proc.devRef .tc main_v112) : FVec Ideal S_ .f32)
      = fun _ => Cert.Pinn.rTotal (wtsOfVal V) (ptsOfVal V) := by
  funext j
  rw [eq_ix0 j]
  exact ref_total V

/-- The result buffer after all the operations: the shared tail of the launch's table, weights and total. -/
private theorem result_eq (c : Dev nD) :
    (after (ops (F := Ideal)) (launchContents m c) (Proc.devRef .tc main_v143) : FVec Ideal S_ .f32) = result m c := by
  show (after (opsA (F := Ideal) ++ opsB ++ opsC ++ opsD ++ opsE) (launchContents m c) (Proc.devRef .tc main_v143)
    : FVec Ideal S_ .f32) = result m c
  rw [Cert.LibAfter.after_append, Cert.KernelIdeal.Tail.ref_tail, cst_pre, sum_pre,
    kept_pre _ main_arg1 (by decide), kept_pre _ main_arg2 (by decide), kept_pre _ main_arg3 (by decide),
    kept_pre _ main_arg4 (by decide), kept_pre _ main_arg5 (by decide), kept_pre _ main_arg6 (by decide),
    kept_pre _ main_arg7 (by decide), kept_pre _ main_arg8 (by decide)]
  rfl

/-- The reference's run with its result named. -/
theorem run_value : θ_run defs (onTc (τ := τ) (main (F := Ideal))) ⟨m, fun _ => 0, ρ⟩ (fun r => ∀ c : Dev nD,
      r.2.mem ((c.tc : Thread nD τ).loc main_v143) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_v143).trans (result_eq m c),
     (h c main_arg0).trans (kept _ main_arg0 (by decide)), (h c main_arg1).trans (kept _ main_arg1 (by decide)),
     (h c main_arg2).trans (kept _ main_arg2 (by decide)), (h c main_arg3).trans (kept _ main_arg3 (by decide)),
     (h c main_arg4).trans (kept _ main_arg4 (by decide)), (h c main_arg5).trans (kept _ main_arg5 (by decide)),
     (h c main_arg6).trans (kept _ main_arg6 (by decide)), (h c main_arg7).trans (kept _ main_arg7 (by decide)),
     (h c main_arg8).trans (kept _ main_arg8 (by decide))⟩) (RefRun.run m ρ)

end Cert.ReferenceIdeal.RefVal

end
-- ==== Proof.Finite.lean ====
/-
  What the precondition says. `finite_inputs` is the conjunction, over the nine argument arrays, of "every entry's
  absolute value is below +∞"; on the extended reals that is "every entry is a real number".
-/
import proofs.«131202_j3839700763115_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Reals

open Cert.Pre_finite_inputs Cert.Pre_finite_inputs.Gen Idealize.ShloMosaic Idealize.ShloMosaic.ValueIdx

/-- An extended real whose absolute value is below the float word of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The rank-0 shape has one index. -/
instance subsingleton_S_ : Subsingleton S_.Idx := ⟨fun _ _ => funext fun d => d.elim0⟩

/-- One array's part of the precondition: if "every entry's absolute value is below +∞" came out 1, every entry is real. -/
theorem real_of_all {s : Shape} (a : FVec Ideal s .f32) (bc : S_.BroadcastsInDim s (![] : Fin 0 → Fin s.rank))
    {axes : List (Fin s.rank)} (hr : s.ReducesTo axes S_) (hu : 0 < S_.numel)
    (e : Host.reduce IntOp.andi
        (cmpf .olt (Host.absf a) (broadcastInDim s ![] bc (constant (F := Ideal) S_ .f32 0x7F800000#32)))
        (constantI S_ 1 1#1) hr hu ix0 = 1#1)
    (i : s.Idx) : ∃ r : ℝ, a i = (r : EReal) := by
  have h1 := Host.reduce_andi_all _ _ hr hu ix0 e i
  exact real_of_abs_lt_inf (a i) h1

/-- The pointwise `and` of two rank-0 bits, read at the one index. -/
theorem andi_ix0 (x y : IVec S_ 1) : andi x y ix0 = IntOp.andi (x ix0) (y ix0) := rfl

/-- If the precondition's function is all ones at nine arrays of extended reals, every entry of each is a real number. -/
theorem real_of_pre (a0 : FVec Ideal S1000000 .f32) (a1 : FVec Ideal S1x32 .f32) (a2 : FVec Ideal S32 .f32)
    (a3 : FVec Ideal S32x32 .f32) (a4 : FVec Ideal S32 .f32) (a5 : FVec Ideal S32x32 .f32) (a6 : FVec Ideal S32 .f32)
    (a7 : FVec Ideal S32x1 .f32) (a8 : FVec Ideal S1 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ix0
  dsimp only [fn, fn_part1, fn_part2] at h0
  simp only [andi_ix0, IntOp.andi_eq_one] at h0
  obtain ⟨⟨⟨⟨⟨⟨⟨⟨e0, e1⟩, e2⟩, e3⟩, e4⟩, e5⟩, e6⟩, e7⟩, e8⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8⟩

end Cert.Pre_finite_inputs.Reals

end
-- ==== Proof.Bridge.lean ====
/-
  The two results are one. Both programs end at the shared tail of their error sum, table and weights. From memories that
  agree on the arguments the weights and points are the same; under the precondition every weight and point is a real
  number; so the kernel's total (hand-derived second derivative) and the reference's total (nested forward-mode rule) are
  the same extended real, and equal arguments of the shared tail give equal results.
-/
import proofs.«131202_j3839700763115_1_alg».proof.Defs
import proofs.«131202_j3839700763115_1_alg».proof.Proof.KRun
import proofs.«131202_j3839700763115_1_alg».proof.Proof.RefFinal
import proofs.«131202_j3839700763115_1_alg».proof.Proof.Finite
import proofs.«131202_j3839700763115_1_alg».proof.Proof.Point

noncomputable section

namespace Cert.Proof.Bridge

open Idealize.ShloMosaic Idealize.ShloMosaic.TcCoe Idealize.SL.Sem Idealize.ShloMosaic.ValueIdx

/-- From launch memories agreeing on the nine arguments, under the precondition on the kernel's: the reference's result
    is the kernel's result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.RefVal.result m' c = Cert.KernelIdeal.KVal.result m c := by
  obtain ⟨h0, h1, h2, h3, h4, h5, h6, h7, h8⟩ := hagree
  obtain ⟨r0, r1, r2, r3, r4, r5, r6, r7, r8⟩ := Cert.Pre_finite_inputs.Reals.real_of_pre _ _ _ _ _ _ _ _ _ hpre
  have hw : Cert.ReferenceIdeal.RefVal.wtsOfVal (StableHlo.launchContents m' c) = Cert.KernelIdeal.KVal.wtsOfMem m c := by
    unfold Cert.ReferenceIdeal.RefVal.wtsOfVal Cert.KernelIdeal.KVal.wtsOfMem
    congr 1
    · funext j; exact congrFun h1 _
    · funext j; exact congrFun h2 _
    · funext k j; exact congrFun h3 _
    · funext j; exact congrFun h4 _
    · funext k j; exact congrFun h5 _
    · funext j; exact congrFun h6 _
    · funext k; exact congrFun h7 _
    · exact congrFun h8 _
  have hx : Cert.ReferenceIdeal.RefVal.ptsOfVal (StableHlo.launchContents m' c) = Cert.KernelIdeal.KVal.ptsOfMem m c := by
    funext i; exact congrFun h0 _
  have hreal : (Cert.KernelIdeal.KVal.wtsOfMem m c).Real :=
    ⟨fun j => r1 _, fun j => r2 _, fun k j => r3 _, fun j => r4 _, fun k j => r5 _, fun j => r6 _, fun k => r7 _, r8 _⟩
  have hpts : ∀ i, ∃ r : ℝ, Cert.KernelIdeal.KVal.ptsOfMem m c i = (r : EReal) := fun i => r0 _
  have e1 : Cert.ReferenceIdeal.RefVal.v1 (StableHlo.launchContents m' c) = Cert.KernelIdeal.KVal.a1 m c := h1
  have e2 : Cert.ReferenceIdeal.RefVal.v2 (StableHlo.launchContents m' c) = Cert.KernelIdeal.KVal.a2 m c := h2
  have e3 : Cert.ReferenceIdeal.RefVal.v3 (StableHlo.launchContents m' c) = Cert.KernelIdeal.KVal.a3 m c := h3
  have e4 : Cert.ReferenceIdeal.RefVal.v4 (StableHlo.launchContents m' c) = Cert.KernelIdeal.KVal.a4 m c := h4
  have e5 : Cert.ReferenceIdeal.RefVal.v5 (StableHlo.launchContents m' c) = Cert.KernelIdeal.KVal.a5 m c := h5
  have e6 : Cert.ReferenceIdeal.RefVal.v6 (StableHlo.launchContents m' c) = Cert.KernelIdeal.KVal.a6 m c := h6
  have e7 : Cert.ReferenceIdeal.RefVal.v7 (StableHlo.launchContents m' c) = Cert.KernelIdeal.KVal.a7 m c := h7
  have e8 : Cert.ReferenceIdeal.RefVal.v8 (StableHlo.launchContents m' c) = Cert.KernelIdeal.KVal.a8 m c := h8
  unfold Cert.ReferenceIdeal.RefVal.result Cert.KernelIdeal.KVal.result
  rw [hw, hx, ← Cert.Pinn.kTotal_eq_rTotal _ hreal _ hpts, e1, e2, e3, e4, e5, e6, e7, e8]

end Cert.Proof.Bridge

end
-- ==== Proof.lean ====
/-
  The certificate of the collocation-loss kernel against its jnp reference.

  The loss is mean over 1,000,000 points of (u''(x) - sin x)² plus u(π)² + u(0)² for a four-layer tanh network u. The
  kernel computes u'' by carrying, through every layer, the activation with its first and second derivative in closed
  form, tile by tile of 4096 points, accumulating each tile's sum of squared residuals across the grid; the reference
  takes u'' by two nested forward-mode derivatives. On real inputs the closed form and the nested rule are the same
  number, the tiles' sums make up the whole sum, and the rest of the loss is the same host computation in both programs.

  The frames of the two kernel programs are the generated frame certificates; the reference's frame is its run with the
  result dropped; nothing was rewritten by the idealization, so `preserves` is trivial; `algebraic` puts the two runs
  side by side at the kernel's result.
-/
import proofs.«131202_j3839700763115_1_alg».proof.Defs
import proofs.«131202_j3839700763115_1_alg».proof.Proof.Gen.Kernel
import proofs.«131202_j3839700763115_1_alg».proof.Proof.Gen.Kernel.Frame
import proofs.«131202_j3839700763115_1_alg».proof.Proof.Gen.KernelIdeal
import proofs.«131202_j3839700763115_1_alg».proof.Proof.Gen.KernelIdeal.Frame
import proofs.«131202_j3839700763115_1_alg».proof.Proof.Gen.ReferenceIdeal
import proofs.«131202_j3839700763115_1_alg».proof.Proof.Gen.Pre_finite_inputs
import proofs.«131202_j3839700763115_1_alg».proof.Proof.KRun
import proofs.«131202_j3839700763115_1_alg».proof.Proof.RefFinal
import proofs.«131202_j3839700763115_1_alg».proof.Proof.Bridge
import Idealize.ShloMosaic.Adequacy
import Idealize.ShloMosaic.Init

noncomputable section

namespace Cert.Proof

open Idealize.ShloMosaic Idealize.SL.Sem

/-- The word-level kernel program runs and keeps its arguments: the generated frame certificate. -/
theorem frame_k : Cert.frame_Kernel := fun m ρ _ => Cert.Kernel.Gen.frame m ρ

/-- The same at the ideal instance. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefVal.run_value m ρ)

/-- The idealization rewrote nothing. -/
theorem preserves : Cert.preserves_Kernel_KernelIdeal := trivial

/-- From memories agreeing on the arguments both programs run and end at the kernel's result. -/
theorem algebraic : Cert.algebraic_KernelIdeal_ReferenceIdeal := by
  intro m ρ m' ρ' hpre hagree
  refine ⟨fun c => Cert.KernelIdeal.KVal.result m c, Cert.KernelIdeal.KVal.run_value m ρ, ?_⟩
  refine (θ_run Cert.ReferenceIdeal.defs _ _).mono (fun _ h c => ⟨(h c).1.trans ?_, (h c).2⟩)
    (Cert.ReferenceIdeal.RefVal.run_value m' ρ')
  exact Cert.Proof.Bridge.result_eq m m' c (hpre c) (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
